-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 68
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S1x128, .f32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v43 : BitVec 1 := Scalar.cmpi .eq arg0 c24_i32
  let v44 : BitVec 32 := Scalar.extui v43
  let c0_i32_27 : BitVec 32 := 0#32
  let v45 : BitVec 1 := Scalar.cmpi .ne v44 c0_i32_27
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v29_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call3_cst : Ref sig .tc := ⟨.hbm, 59, rfl⟩
abbrev main_call3_v0 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KFrShared.lean ====
/-
  Region 0 (the fused matmul / relu / residual kernel with its two column accumulators), what its case runs and
  its proof data share: each window's block of the array the region finds, the two branch conditions of the body
  in closed form over the 25 grid points (the first point resets the accumulators, the last copies them out),
  where the two accumulator outputs are idle, the staging memrefs a point runs on, and the two scratch accumulators.
-/
import proofs.«165666_j30210799960859_1_alg».proof.Proof.Gen.Kernel.Launch
import proofs.«165666_j30210799960859_1_alg».proof.Proof.Gen.Kernel.Skeleton
import proofs.«165666_j30210799960859_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the accumulators' reset), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second `scf.if` (the accumulators copied out). -/
abbrev cond0_1 (i : grid0.Coords) : Prop := k0_cond2 i = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last point output 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Off the last point output 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging memrefs of a point, the scratch accumulators -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- One staging buffer of each output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- The two scratch accumulators (column sums and column sums of squares), whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped rest of region 0 with the two scratch accumulators as memrefs owned at some contents; `Rest0` is
    the other scoped buffers (the second region's staging buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

end Cert.Kernel.Fr

end
-- ==== Proof.KFrRunA.lean ====
/-
  Region 0's kernel body run whole in case A of its two conditionals: what its stores leave, as pieces, in the
  block output, in the two accumulator outputs where the case stores them, and in the two scratch accumulators.
-/
import proofs.«165666_j30210799960859_1_alg».proof.Proof.KFrShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Fr

end
-- ==== Proof.KFrRunB.lean ====
/-
  Region 0's kernel body run whole in case B of its two conditionals: what its stores leave, as pieces, in the
  block output, in the two accumulator outputs where the case stores them, and in the two scratch accumulators.
-/
import proofs.«165666_j30210799960859_1_alg».proof.Proof.KFrRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Fr

end
-- ==== Proof.KFrRunC.lean ====
/-
  Region 0's kernel body run whole in case C of its two conditionals: what its stores leave, as pieces, in the
  block output, in the two accumulator outputs where the case stores them, and in the two scratch accumulators.
-/
import proofs.«165666_j30210799960859_1_alg».proof.Proof.KFrRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Fr

end
-- ==== Proof.KFrRegion0.lean ====
/-
  Region 0 (the fused matmul / relu / residual kernel with its two column accumulators): what each of the three
  cases of its body leaves in the three outputs and the two accumulators, what these hold point by point over the
  25 grid points, the region invariant that carries the accumulators from one point to the next, the pipeline's
  proof data, the body obligation at every point, and the invariant's entry and exit.
-/
import proofs.«165666_j30210799960859_1_alg».proof.Proof.KFrRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))
-- the core
variable (c : Dev nD)

/-! ## What each case of the body leaves -/

section Cases
-- the body's operands: the coordinate, six input memrefs, three output memrefs, the two accumulators, all whole
variable (i : grid0.Coords)
  (arg1 : Memref sig .tc .vmem S2000x128 .f32) (harg1 : arg1.IsWhole)
  (arg2 : Memref sig .tc .vmem S2000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S2000x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)

/-! ### Case A: the first point (the accumulators reset, nothing copied out) -/
section CaseA
variable (hc0 : cond0_0 i) (hc1 : ¬cond0_1 i)
  (x0 : Vec F S2000x128 .f32) (x1 : Vec F S2000x128 .f32) (x2 : Vec F S128x128 .f32) (x3 : Vec F S1x128 .f32)
  (x4 : Vec F S128x128 .f32) (x5 : Vec F S1x128 .f32)

local notation "runA" => kernelRun0_A c i arg1 harg1 arg2 harg2 arg3 harg3 arg4 harg4 arg5 harg5 arg6 harg6 arg7 harg7 arg8 harg8 arg9 harg9 arg10 harg10 arg11 harg11 hc0 hc1 x0 x1 x2 x3 x4 x5

/-- Case A's pieces for output 6 tile its block, so they cover it. -/
theorem cover0_A_6 (y : S2000x128.Idx) : ∃ pc ∈ (runA).1, y ∈ pc.1.set :=
  View.cover_of_tiledL (runA).1 S2000x128.size (by sl_kernel_rfl) y
/-- What case A leaves in output 6's staging buffer: its pieces read back, whatever the buffer held. -/
def out0_A_6 : Vec F S2000x128 .f32 := VO0_6.read (Elt F) (VO0_6.writes (Elt F) VO0_6.junk (runA).1)

/-- Case A's pieces for accumulator 0 cover it. -/
theorem scover0_A_0 (y : S1x128.Idx) : ∃ pc ∈ (runA).2.1, y ∈ pc.1.set :=
  View.cover_of_tiledL (runA).2.1 S1x128.size (by sl_kernel_rfl) y
/-- What case A leaves in accumulator 0. -/
def sout0_A_0 : Vec F S1x128 .f32 := VS0_0.read (Elt F) (VS0_0.writes (Elt F) VS0_0.junk (runA).2.1)

/-- Case A's pieces for accumulator 1 cover it. -/
theorem scover0_A_1 (y : S1x128.Idx) : ∃ pc ∈ (runA).2.2.1, y ∈ pc.1.set :=
  View.cover_of_tiledL (runA).2.2.1 S1x128.size (by sl_kernel_rfl) y
/-- What case A leaves in accumulator 1. -/
def sout0_A_1 : Vec F S1x128 .f32 := VS0_1.read (Elt F) (VS0_1.writes (Elt F) VS0_1.junk (runA).2.2.1)
end CaseA

/-! ### Case B: a middle point (the accumulators updated, nothing copied out) -/
section CaseB
variable (hc0 : ¬cond0_0 i) (hc1 : ¬cond0_1 i)
  (x0 : Vec F S2000x128 .f32) (x1 : Vec F S2000x128 .f32) (x2 : Vec F S128x128 .f32) (x3 : Vec F S1x128 .f32)
  (x4 : Vec F S128x128 .f32) (x5 : Vec F S1x128 .f32) (xs0 : Vec F S1x128 .f32) (xs1 : Vec F S1x128 .f32)

local notation "runB" => kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1

/-- Case B's pieces for output 6 tile its block, so they cover it. -/
theorem cover0_B_6 (y : S2000x128.Idx) : ∃ pc ∈ (runB).1, y ∈ pc.1.set :=
  View.cover_of_tiledL (runB).1 S2000x128.size (by sl_kernel_rfl) y
/-- What case B leaves in output 6's staging buffer. -/
def out0_B_6 : Vec F S2000x128 .f32 := VO0_6.read (Elt F) (VO0_6.writes (Elt F) VO0_6.junk (runB).1)

/-- Case B's pieces for accumulator 0 cover it. -/
theorem scover0_B_0 (y : S1x128.Idx) : ∃ pc ∈ (runB).2.1, y ∈ pc.1.set :=
  View.cover_of_tiledL (runB).2.1 S1x128.size (by sl_kernel_rfl) y
/-- What case B leaves in accumulator 0. -/
def sout0_B_0 : Vec F S1x128 .f32 := VS0_0.read (Elt F) (VS0_0.writes (Elt F) VS0_0.junk (runB).2.1)

/-- Case B's pieces for accumulator 1 cover it. -/
theorem scover0_B_1 (y : S1x128.Idx) : ∃ pc ∈ (runB).2.2.1, y ∈ pc.1.set :=
  View.cover_of_tiledL (runB).2.2.1 S1x128.size (by sl_kernel_rfl) y
/-- What case B leaves in accumulator 1. -/
def sout0_B_1 : Vec F S1x128 .f32 := VS0_1.read (Elt F) (VS0_1.writes (Elt F) VS0_1.junk (runB).2.2.1)
end CaseB

/-! ### Case C: the last point (the accumulators updated, then copied out to outputs 7 and 8) -/
section CaseC
variable (hc0 : ¬cond0_0 i) (hc1 : cond0_1 i)
  (x0 : Vec F S2000x128 .f32) (x1 : Vec F S2000x128 .f32) (x2 : Vec F S128x128 .f32) (x3 : Vec F S1x128 .f32)
  (x4 : Vec F S128x128 .f32) (x5 : Vec F S1x128 .f32) (xs0 : Vec F S1x128 .f32) (xs1 : Vec F S1x128 .f32)

local notation "runC" => kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1

/-- Case C's pieces for output 6 tile its block, so they cover it. -/
theorem cover0_C_6 (y : S2000x128.Idx) : ∃ pc ∈ (runC).1, y ∈ pc.1.set :=
  View.cover_of_tiledL (runC).1 S2000x128.size (by sl_kernel_rfl) y
/-- What case C leaves in output 6's staging buffer. -/
def out0_C_6 : Vec F S2000x128 .f32 := VO0_6.read (Elt F) (VO0_6.writes (Elt F) VO0_6.junk (runC).1)

/-- Case C's pieces for output 7 cover it. -/
theorem cover0_C_7 (y : S1x128.Idx) : ∃ pc ∈ (runC).2.1, y ∈ pc.1.set :=
  View.cover_of_tiledL (runC).2.1 S1x128.size (by sl_kernel_rfl) y
/-- What case C leaves in output 7's staging buffer. -/
def out0_C_7 : Vec F S1x128 .f32 := VO0_7.read (Elt F) (VO0_7.writes (Elt F) VO0_7.junk (runC).2.1)

/-- Case C's pieces for output 8 cover it. -/
theorem cover0_C_8 (y : S1x128.Idx) : ∃ pc ∈ (runC).2.2.1, y ∈ pc.1.set :=
  View.cover_of_tiledL (runC).2.2.1 S1x128.size (by sl_kernel_rfl) y
/-- What case C leaves in output 8's staging buffer. -/
def out0_C_8 : Vec F S1x128 .f32 := VO0_8.read (Elt F) (VO0_8.writes (Elt F) VO0_8.junk (runC).2.2.1)

/-- Case C's pieces for accumulator 0 cover it. -/
theorem scover0_C_0 (y : S1x128.Idx) : ∃ pc ∈ (runC).2.2.2.1, y ∈ pc.1.set :=
  View.cover_of_tiledL (runC).2.2.2.1 S1x128.size (by sl_kernel_rfl) y
/-- What case C leaves in accumulator 0. -/
def sout0_C_0 : Vec F S1x128 .f32 := VS0_0.read (Elt F) (VS0_0.writes (Elt F) VS0_0.junk (runC).2.2.2.1)

/-- Case C's pieces for accumulator 1 cover it. -/
theorem scover0_C_1 (y : S1x128.Idx) : ∃ pc ∈ (runC).2.2.2.2.1, y ∈ pc.1.set :=
  View.cover_of_tiledL (runC).2.2.2.2.1 S1x128.size (by sl_kernel_rfl) y
/-- What case C leaves in accumulator 1. -/
def sout0_C_1 : Vec F S1x128 .f32 := VS0_1.read (Elt F) (VS0_1.writes (Elt F) VS0_1.junk (runC).2.2.2.2.1)
end CaseC

end Cases

/-! ## What the outputs and the accumulators hold after each point -/

/-- A case's contents or run \`f\` at point \`T\`: on the point's coordinate and staging memrefs and the two
    accumulators, under the proofs \`p0\`, \`p1\` of the case's two conditions, at the point's six input blocks. -/
local notation "pt⟪" f ", " T ", " p0 ", " p1 "⟫" =>
  f c (grid0.coords T) (ms0_0 T) (hs0_0 T) (ms0_1 T) (hs0_1 T) (ms0_2 T) (hs0_2 T) (ms0_3 T) (hs0_3 T)
    (ms0_4 T) (hs0_4 T) (ms0_5 T) (hs0_5 T) (ms0_6 T) (hs0_6 T) (ms0_7 T) (hs0_7 T) (ms0_8 T) (hs0_8 T)
    scM0_0 (Memref.isWhole_whole _) scM0_1 (Memref.isWhole_whole _) p0 p1
    (iblk0 V c 0 T) (iblk0 V c 1 T) (iblk0 V c 2 T) (iblk0 V c 3 T) (iblk0 V c 4 T) (iblk0 V c 5 T)

/-- Outputs 7 and 8 are stored at the last point only; elsewhere their windows are idle and not written back, and
    these stand in their places: nothing reads them. -/
def out0_idle_7 : Vec F S1x128 .f32 := VO0_7.read (Elt F) VO0_7.junk
def out0_idle_8 : Vec F S1x128 .f32 := VO0_8.read (Elt F) VO0_8.junk

/-- The accumulation. What the three outputs' staging buffers and the two accumulators hold after the body at
    position \`n\` (output 6, output 7, output 8, accumulator 0, accumulator 1): the case of the point — the first
    resets the accumulators, the last also copies them out, the others update them — at the point's memrefs and input
    blocks, the accumulators taken at what the point before left in them. -/
def outsAt0 : (n : ℕ) → n < cfg0.N →
    Vec F S2000x128 .f32 × Vec F S1x128 .f32 × Vec F S1x128 .f32 × Vec F S1x128 .f32 × Vec F S1x128 .f32
  | 0, hn =>
    (pt⟪out0_A_6, ⟨0, hn⟩, ((hcond0_0 ⟨0, hn⟩).mpr (Nat.zero_mod _)), (fun h => (fun h => by (try dsimp only at h); omega) ((hcond0_1 ⟨0, hn⟩).mp h))⟫,
      out0_idle_7, out0_idle_8,
      pt⟪sout0_A_0, ⟨0, hn⟩, ((hcond0_0 ⟨0, hn⟩).mpr (Nat.zero_mod _)), (fun h => (fun h => by (try dsimp only at h); omega) ((hcond0_1 ⟨0, hn⟩).mp h))⟫,
      pt⟪sout0_A_1, ⟨0, hn⟩, ((hcond0_0 ⟨0, hn⟩).mpr (Nat.zero_mod _)), (fun h => (fun h => by (try dsimp only at h); omega) ((hcond0_1 ⟨0, hn⟩).mp h))⟫)
  | n + 1, hn =>
    if h0 : (n + 1) % 25 = 0 then
      False.elim (by have hN : n + 1 < 25 := lt_of_lt_of_eq hn (show cfg0.N = 25 from N_0); omega)
    else
      if h1 : (n + 1) % 25 = 24 then
        ((pt⟪out0_C_6, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪out0_C_7, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪out0_C_8, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪sout0_C_0, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪sout0_C_1, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2)
      else
        ((pt⟪out0_B_6, ⟨n + 1, hn⟩, (fun h => h0 ((hcond0_0 ⟨n + 1, hn⟩).mp h)), (fun h => h1 ((hcond0_1 ⟨n + 1, hn⟩).mp h))⟫) (outsAt0 n (Nat.lt_of_succ_lt hn)).2.2.2.1 (outsAt0 n (Nat.lt_of_succ_lt hn)).2.2.2.2,
          out0_idle_7, out0_idle_8,
          (pt⟪sout0_B_0, ⟨n + 1, hn⟩, (fun h => h0 ((hcond0_0 ⟨n + 1, hn⟩).mp h)), (fun h => h1 ((hcond0_1 ⟨n + 1, hn⟩).mp h))⟫) (outsAt0 n (Nat.lt_of_succ_lt hn)).2.2.2.1 (outsAt0 n (Nat.lt_of_succ_lt hn)).2.2.2.2,
          (pt⟪sout0_B_1, ⟨n + 1, hn⟩, (fun h => h0 ((hcond0_0 ⟨n + 1, hn⟩).mp h)), (fun h => h1 ((hcond0_1 ⟨n + 1, hn⟩).mp h))⟫) (outsAt0 n (Nat.lt_of_succ_lt hn)).2.2.2.1 (outsAt0 n (Nat.lt_of_succ_lt hn)).2.2.2.2)

/-- What the point before \`t\` left (at the first point: the point itself, where nothing consults it). -/
local notation "prev⟪" t "⟫" => outsAt0 V c (Fin.val t - 1) (Nat.lt_of_le_of_lt (Nat.sub_le _ _) (Fin.isLt t))

/-- \`outsAt0\` at the first point: case A's contents. -/
theorem outsAt0_A (t : Fin cfg0.N) (h0 : t.val % 25 = 0) (h1 : ¬t.val % 25 = 24) :
    outsAt0 V c t.val t.isLt =
      (pt⟪out0_A_6, t, ((hcond0_0 t).mpr h0), (fun h => h1 ((hcond0_1 t).mp h))⟫,
        out0_idle_7, out0_idle_8,
        pt⟪sout0_A_0, t, ((hcond0_0 t).mpr h0), (fun h => h1 ((hcond0_1 t).mp h))⟫,
        pt⟪sout0_A_1, t, ((hcond0_0 t).mpr h0), (fun h => h1 ((hcond0_1 t).mp h))⟫) := by
  obtain ⟨n, hn⟩ := t
  cases n with
  | zero => exact rfl
  | succ n => exact (by exfalso; have hN : n + 1 < 25 := lt_of_lt_of_eq hn (show cfg0.N = 25 from N_0); (try dsimp only at h0); omega)

/-- \`outsAt0\` at a middle point: case B's contents, over what the point before left in the accumulators. -/
theorem outsAt0_B (t : Fin cfg0.N) (h0 : ¬t.val % 25 = 0) (h1 : ¬t.val % 25 = 24) :
    outsAt0 V c t.val t.isLt =
      ((pt⟪out0_B_6, t, (fun h => h0 ((hcond0_0 t).mp h)), (fun h => h1 ((hcond0_1 t).mp h))⟫) (prev⟪t⟫).2.2.2.1 (prev⟪t⟫).2.2.2.2,
        out0_idle_7, out0_idle_8,
        (pt⟪sout0_B_0, t, (fun h => h0 ((hcond0_0 t).mp h)), (fun h => h1 ((hcond0_1 t).mp h))⟫) (prev⟪t⟫).2.2.2.1 (prev⟪t⟫).2.2.2.2,
        (pt⟪sout0_B_1, t, (fun h => h0 ((hcond0_0 t).mp h)), (fun h => h1 ((hcond0_1 t).mp h))⟫) (prev⟪t⟫).2.2.2.1 (prev⟪t⟫).2.2.2.2) := by
  obtain ⟨n, hn⟩ := t
  cases n with
  | zero => exact (by exfalso; (try dsimp only at h0); exact absurd (Nat.zero_mod _) h0)
  | succ n => exact (dif_neg h0).trans ((dif_neg h1).trans rfl)

/-- \`outsAt0\` at the last point: case C's contents, over what the point before left in the accumulators. -/
theorem outsAt0_C (t : Fin cfg0.N) (h0 : ¬t.val % 25 = 0) (h1 : t.val % 25 = 24) :
    outsAt0 V c t.val t.isLt =
      ((pt⟪out0_C_6, t, (fun h => h0 ((hcond0_0 t).mp h)), ((hcond0_1 t).mpr h1)⟫) (prev⟪t⟫).2.2.2.1 (prev⟪t⟫).2.2.2.2,
        (pt⟪out0_C_7, t, (fun h => h0 ((hcond0_0 t).mp h)), ((hcond0_1 t).mpr h1)⟫) (prev⟪t⟫).2.2.2.1 (prev⟪t⟫).2.2.2.2,
        (pt⟪out0_C_8, t, (fun h => h0 ((hcond0_0 t).mp h)), ((hcond0_1 t).mpr h1)⟫) (prev⟪t⟫).2.2.2.1 (prev⟪t⟫).2.2.2.2,
        (pt⟪sout0_C_0, t, (fun h => h0 ((hcond0_0 t).mp h)), ((hcond0_1 t).mpr h1)⟫) (prev⟪t⟫).2.2.2.1 (prev⟪t⟫).2.2.2.2,
        (pt⟪sout0_C_1, t, (fun h => h0 ((hcond0_0 t).mp h)), ((hcond0_1 t).mpr h1)⟫) (prev⟪t⟫).2.2.2.1 (prev⟪t⟫).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position \`n\`: before the first point every scoped buffer that is no staging buffer at some
    contents and the generator register at some state; afterwards the two accumulators at what the point before left
    in them, the other such buffers at some contents, the generator register at some state. -/
def PhiS0 : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest0 c) ∗ (∃ r, prngReg c r))

theorem PhiS0_zero (n : ℕ) (h : n ≤ cfg0.N) (hz : n = 0) : PhiS0 V c n h = Pipeline.ΦA spec0 c := by
  subst hz; rfl

/-- After point \`n\` (before point \`n + 1\`): the accumulators at that point's contents. -/
theorem PhiS0_succ (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ Rest0 c) ∗ (∃ r, prngReg c r)) := rfl

/-- Before a point that is not the first: the accumulators at what the point before left. -/
theorem PhiS0_pos (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest0 c) ∗ (∃ r, prngReg c r)) := by
  cases n with
  | zero => exact absurd rfl hz
  | succ n => rfl

/-! ## The pipeline's proof data -/

/-- The proof data of region 0 on core \`c\`: the arrays as the region finds them; after the body at point \`t\` each
    input's buffer at its block and the outputs' at \`outsAt0\`'s components; the invariant \`PhiS0\`; nothing owed;
    full shares. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

/-- The proof data's arrays are the region-entry contents. -/
theorem A_eq0 (w : Fin cfg0.W) : (dat0 V c).A w = V c (Pipeline.arrRef spec0 w) := by
  dsimp only [dat0]

/-- The invariant at a point's start, restated at the point's position. -/
theorem PhiS0_castSucc (t : Fin cfg0.N) :
    (dat0 V c).Φ t.castSucc = PhiS0 V c t.val (Nat.le_of_lt t.isLt) := by
  dsimp only [dat0]; simp only [Fin.coe_castSucc]

/-- What the body leaves, window by window. -/
theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = iblk0 V c 3 t := by dsimp only [dat0]
theorem after0_4 (t : Fin cfg0.N) : (dat0 V c).after 4 t = iblk0 V c 4 t := by dsimp only [dat0]
theorem after0_5 (t : Fin cfg0.N) : (dat0 V c).after 5 t = iblk0 V c 5 t := by dsimp only [dat0]
theorem after0_6 (t : Fin cfg0.N) : (dat0 V c).after 6 t = (outsAt0 V c t.val t.isLt).1 := by dsimp only [dat0]
theorem after0_7 (t : Fin cfg0.N) : (dat0 V c).after 7 t = (outsAt0 V c t.val t.isLt).2.1 := by dsimp only [dat0]
theorem after0_8 (t : Fin cfg0.N) : (dat0 V c).after 8 t = (outsAt0 V c t.val t.isLt).2.2.1 := by dsimp only [dat0]

/-- Each input's current staging buffer holds its block at every point, fetched there or not. -/
theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d
theorem before0_3 (t : Fin cfg0.N) (d) : (dat0 V c).before 3 t d = iblk0 V c 3 t :=
  before0_3_of V (dat0 V c) (A_eq0 V c 3) (after0_3 V c) t d
theorem before0_4 (t : Fin cfg0.N) (d) : (dat0 V c).before 4 t d = iblk0 V c 4 t :=
  before0_4_of V (dat0 V c) (A_eq0 V c 4) (after0_4 V c) t d
theorem before0_5 (t : Fin cfg0.N) (d) : (dat0 V c).before 5 t d = iblk0 V c 5 t :=
  before0_5_of V (dat0 V c) (A_eq0 V c 5) (after0_5 V c) t d

/-! ## The body obligation, at a generic point -/

/-- What the body is called with at point \`t\`: the invariant, what the core owes, each window's current staging buffer. -/
def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- The inputs and output 6 are live at every point: the body leaves each one's buffer at its stated contents. -/
theorem leaves0_0 (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (t : Fin cfg0.N) : (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (t : Fin cfg0.N) : (dat0 V c).leavesExact 4 t = owns (c : Thread nD τ) (ms0_4 t) fullShare (iblk0 V c 4 t) := by
  rw [show (dat0 V c).leavesExact 4 t = owns (c : Thread nD τ) (ms0_4 t) fullShare ((dat0 V c).after 4 t) from by
    unfold Dat.leavesExact; rw [liveAt0_4 t], after0_4]
theorem leaves0_5 (t : Fin cfg0.N) : (dat0 V c).leavesExact 5 t = owns (c : Thread nD τ) (ms0_5 t) fullShare (iblk0 V c 5 t) := by
  rw [show (dat0 V c).leavesExact 5 t = owns (c : Thread nD τ) (ms0_5 t) fullShare ((dat0 V c).after 5 t) from by
    unfold Dat.leavesExact; rw [liveAt0_5 t], after0_5]
theorem leaves0_6 (t : Fin cfg0.N) : (dat0 V c).leavesExact 6 t = owns (c : Thread nD τ) (ms0_6 t) fullShare ((outsAt0 V c t.val t.isLt).1) := by
  rw [show (dat0 V c).leavesExact 6 t = owns (c : Thread nD τ) (ms0_6 t) fullShare ((dat0 V c).after 6 t) from by
    unfold Dat.leavesExact; rw [liveAt0_6 t], after0_6]
/-- Outputs 7 and 8 are live at the last point, -/
theorem leaves0_7_last (t : Fin cfg0.N) (hc : cond0_1 (grid0.coords t)) : (dat0 V c).leavesExact 7 t = owns (c : Thread nD τ) (ms0_7 t) fullShare ((outsAt0 V c t.val t.isLt).2.1) := by
  rw [show (dat0 V c).leavesExact 7 t = owns (c : Thread nD τ) (ms0_7 t) fullShare ((dat0 V c).after 7 t) from by
    unfold Dat.leavesExact; rw [liveAt0_7 t hc], after0_7]
theorem leaves0_8_last (t : Fin cfg0.N) (hc : cond0_1 (grid0.coords t)) : (dat0 V c).leavesExact 8 t = owns (c : Thread nD τ) (ms0_8 t) fullShare ((outsAt0 V c t.val t.isLt).2.2.1) := by
  rw [show (dat0 V c).leavesExact 8 t = owns (c : Thread nD τ) (ms0_8 t) fullShare ((dat0 V c).after 8 t) from by
    unfold Dat.leavesExact; rw [liveAt0_8 t hc], after0_8]
/-- and idle elsewhere, where their buffers are handed back as they came. -/
theorem leaves0_7_idle (t : Fin cfg0.N) (hc : ¬cond0_1 (grid0.coords t)) : (dat0 V c).leavesExact 7 t = iprop(∃ d, owns (c : Thread nD τ) (ms0_7 t) fullShare ((dat0 V c).before 7 t d)) :=
  Dat.leavesExact_idle (dat0 V c) 7 t (idleAt0_7 t hc) (noFlush0_7 t hc)
theorem leaves0_8_idle (t : Fin cfg0.N) (hc : ¬cond0_1 (grid0.coords t)) : (dat0 V c).leavesExact 8 t = iprop(∃ d, owns (c : Thread nD τ) (ms0_8 t) fullShare ((dat0 V c).before 8 t d)) :=
  Dat.leavesExact_idle (dat0 V c) 8 t (idleAt0_8 t hc) (noFlush0_8 t hc)

set_option maxHeartbeats 4800000 in
/-- The body at any point. The inputs' memrefs hold their blocks; the closed forms of the two conditions say which
    case the point is in, and that case's run applies. The invariant hands the body the two accumulators — at anything
    at the first point, at what the point before left elsewhere — and takes them back at this point's contents, which
    the case's pieces cover; output 6 is left at the case's contents, outputs 7 and 8 at the last point's copies there
    and as they came elsewhere; the other scoped buffers, the generator register and what the core owes pass through. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6]
  have hN : t.val < 25 := lt_of_lt_of_eq t.isLt (show cfg0.N = 25 from N_0)
  by_cases h0 : t.val % 25 = 0
  · -- the first point: case A, the accumulators come at anything
    have h1 : ¬t.val % 25 = 24 := by omega
    have hz : t.val = 0 := by omega
    rw [leaves0_7_idle V c t (fun h => h1 ((hcond0_1 t).mp h)), leaves0_8_idle V c t (fun h => h1 ((hcond0_1 t).mp h))]
    rw [outsAt0_A V c t h0 h1]
    unfold out0_A_6 sout0_A_0 sout0_A_1; (try dsimp only)
    rw [PhiS0_castSucc V c t, PhiS0_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((pt⟪kernelRun0_A, t, ((hcond0_0 t).mpr h0), (fun h => h1 ((hcond0_1 t).mp h))⟫).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (pt⟪scover0_A_0, t, ((hcond0_0 t).mpr h0), (fun h => h1 ((hcond0_1 t).mp h))⟫)
        isplitl [HS1]
        · unfold owns; iexists _; isplitr
          swap; · iexact HS1
          ipureintro; exact View.read_writes_of_cover _ _ _ _ _ (pt⟪scover0_A_1, t, ((hcond0_0 t).mpr h0), (fun h => h1 ((hcond0_1 t).mp h))⟫)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (pt⟪cover0_A_6, t, ((hcond0_0 t).mpr h0), (fun h => h1 ((hcond0_1 t).mp h))⟫)
    isplitl [H7]; · iexists _; iexact H7
    iexists _; iexact H8
  · have hz : t.val ≠ 0 := by omega
    by_cases h1 : t.val % 25 = 24
    · -- the last point: case C, the accumulators come at what the point before left, outputs 7 and 8 are stored
      rw [leaves0_7_last V c t ((hcond0_1 t).mpr h1), leaves0_8_last V c t ((hcond0_1 t).mpr h1)]
      rw [outsAt0_C V c t h0 h1]
      unfold out0_C_6 out0_C_7 out0_C_8 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((pt⟪kernelRun0_C, t, (fun h => h0 ((hcond0_0 t).mp h)), ((hcond0_1 t).mpr h1)⟫) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ ((pt⟪scover0_C_0, t, (fun h => h0 ((hcond0_0 t).mp h)), ((hcond0_1 t).mpr h1)⟫) _ _)
          isplitl [HS1]
          · unfold owns; iexists _; isplitr
            swap; · iexact HS1
            ipureintro; exact View.read_writes_of_cover _ _ _ _ _ ((pt⟪scover0_C_1, t, (fun h => h0 ((hcond0_0 t).mp h)), ((hcond0_1 t).mpr h1)⟫) _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ ((pt⟪cover0_C_6, t, (fun h => h0 ((hcond0_0 t).mp h)), ((hcond0_1 t).mpr h1)⟫) _ _)
      isplitl [H7]
      · unfold owns; iexists _; isplitr
        swap; · iexact H7
        ipureintro; exact View.read_writes_of_cover _ _ _ _ _ ((pt⟪cover0_C_7, t, (fun h => h0 ((hcond0_0 t).mp h)), ((hcond0_1 t).mpr h1)⟫) _ _)
      unfold owns; iexists _; isplitr
      swap; · iexact H8
      ipureintro; exact View.read_writes_of_cover _ _ _ _ _ ((pt⟪cover0_C_8, t, (fun h => h0 ((hcond0_0 t).mp h)), ((hcond0_1 t).mpr h1)⟫) _ _)
    · -- a middle point: case B, the accumulators come at what the point before left, outputs 7 and 8 are idle
      rw [leaves0_7_idle V c t (fun h => h1 ((hcond0_1 t).mp h)), leaves0_8_idle V c t (fun h => h1 ((hcond0_1 t).mp h))]
      rw [outsAt0_B V c t h0 h1]
      unfold out0_B_6 sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((pt⟪kernelRun0_B, t, (fun h => h0 ((hcond0_0 t).mp h)), (fun h => h1 ((hcond0_1 t).mp h))⟫) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ ((pt⟪scover0_B_0, t, (fun h => h0 ((hcond0_0 t).mp h)), (fun h => h1 ((hcond0_1 t).mp h))⟫) _ _)
          isplitl [HS1]
          · unfold owns; iexists _; isplitr
            swap; · iexact HS1
            ipureintro; exact View.read_writes_of_cover _ _ _ _ _ ((pt⟪scover0_B_1, t, (fun h => h0 ((hcond0_0 t).mp h)), (fun h => h1 ((hcond0_1 t).mp h))⟫) _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ ((pt⟪cover0_B_6, t, (fun h => h0 ((hcond0_0 t).mp h)), (fun h => h1 ((hcond0_1 t).mp h))⟫) _ _)
      isplitl [H7]; · iexists _; iexact H7
      iexists _; iexact H8

/-- The library's body obligation, at every point. -/
theorem body_obligation0 : BodyObligation (dat0 (F := F) V c) (defs₀ (F := F)) Variants.none () Set.univ := fun t => by
  rw [bigSep_W0, bigSep_W0]
  exact sound_body0 V c t

/-! ## The invariant's entry and exit -/

/-- What the launch hands the region is the invariant before the first point. -/
theorem hin0 : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry form back: the accumulators' named contents are forgotten. -/
theorem Phi_out0 (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 : (dat0 V c).Φ (Fin.last cfg0.N) ⊢ Pipeline.ΦA spec0 c :=
  Phi_out0 V c _ (by rw [Fin.val_last]; have : cfg0.N = 25 := N_0; omega)

end Region0

end Cert.Kernel.Fr

end
-- ==== Proof.KFrRegion1.lean ====
/-
  Region 1 (the pointwise normalisation kernel): at the buffer contents the region is entered with, each window's
  block at a grid point, what the body leaves in the output window's staging buffer (one store of the whole block,
  its payload a function of the five blocks loaded), the body's triple on whole staging memrefs, the pipeline's
  proof data, and the body obligation at every grid point.
-/
import proofs.«165666_j30210799960859_1_alg».proof.Proof.KFrShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when region 1 is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x128 block, and the whole 1x128 row. -/
abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the output window's buffer -/

/-- Window 5's staging buffer after the body, from the input windows' blocks: its one store of the whole block, the
    payload the normalised block computed from the five loads. (The body also loads the output block before the
    store; that value is not used.) -/
def out1_5 (x0 : Vec F S2000x128 .f32) (x1 x2 x3 x4 : Vec F S1x128 .f32) : Vec F S2000x128 .f32 :=
  View.canon [⟨r1_0, k1_pay1 (View.ld x0 r1_0) (View.ld x1 r1_1) (View.ld x2 r1_1) (View.ld x3 r1_1) (View.ld x4 r1_1)⟩]

/-- The one store tiles the buffer, so it covers it. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `x0 … x4` and the output's at anything,
    runs to the continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KFrRun.lean ====
/-
  The run of @main: five host stretches, region 0, one host stretch, region 1. The contents of the TensorCore's
  unscoped buffers between items are the generated valuations `V0 … V8` at the contents the two regions leave
  (`outs`): region 0 leaves in its three result arrays what its write-backs fold to, region 1 likewise in the
  result. Every weakly fair execution terminates with every unscoped buffer at `V8`; the frame (the nine
  arguments end as launched) and the result's contents are read off that.
-/
import proofs.«165666_j30210799960859_1_alg».proof.Proof.KFrRegion0
import proofs.«165666_j30210799960859_1_alg».proof.Proof.KFrRegion1
import proofs.«165666_j30210799960859_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the regions leave -/

/-- Region 0's entry contents, read at the TensorCore's references. -/
abbrev VA : (c : Dev nD) → (b : Ref sig .tc) → Buf (Elt F) ((c : Thread nD τ).loc b) := fun c b => V5 m c b
/-- After region 0: its arrays at what the pipeline leaves, every other buffer as entered. -/
def W6 (c : Dev nD) : Valuation τ sig (Elt F) :=
  Pipeline.withArrays spec0 c (V5 m c) fun w => (dat0 (VA m) c).arrAt w cfg0.N
theorem W6_arr (c : Dev nD) (w : Fin cfg0.W) :
    W6 m c (Proc.devRef .tc (Pipeline.arrRef spec0 w)) = (dat0 (VA m) c).arrAt w cfg0.N := by
  unfold W6; exact Pipeline.withArrays_arr spec0 launch0.win.arr_inj c _ _ w
/-- What region 0 leaves, as the unknowns of the generated valuations. -/
def outsA : Outs (F := F) := fun _ r c => W6 m c (Proc.devRef .tc r)
/-- Region 1's entry contents. -/
abbrev VB : (c : Dev nD) → (b : Ref sig .tc) → Buf (Elt F) ((c : Thread nD τ).loc b) := fun c b => V7 m (outsA m) c b
def W8 (c : Dev nD) : Valuation τ sig (Elt F) :=
  Pipeline.withArrays spec1 c (V7 m (outsA m) c) fun w => (dat1 (VB m) c).arrAt w cfg1.N
theorem W8_arr (c : Dev nD) (w : Fin cfg1.W) :
    W8 m c (Proc.devRef .tc (Pipeline.arrRef spec1 w)) = (dat1 (VB m) c).arrAt w cfg1.N := by
  unfold W8; exact Pipeline.withArrays_arr spec1 launch1.win.arr_inj c _ _ w
/-- What both regions leave: region 0's at item 6, region 1's at item 8. -/
def outs : Outs (F := F) := fun J r c => match J with
  | 6 => W6 m c (Proc.devRef .tc r)
  | _ => W8 m c (Proc.devRef .tc r)

theorem V6_outs (c : Dev nD) : V6 m (outs m) c = V6 m (outsA m) c := rfl
theorem V7_outs (c : Dev nD) : V7 m (outs m) c = V7 m (outsA m) c := rfl

/-- The generated valuations read at a region's result: the unknown the region leaves there. -/
theorem V6_v29_2 (outs : Outs (F := F)) (c : Dev nD) : V6 m outs c main_v29_2 = outs 6 main_v29_2 c := by
  simp only [V6, Function.update_self]
theorem V6_v29_1 (outs : Outs (F := F)) (c : Dev nD) : V6 m outs c main_v29_1 = outs 6 main_v29_1 c := by
  simp only [V6, Function.update_of_ne (StableHlo.devRef_ne_of_ne (by decide) : (Proc.devRef .tc main_v29_1 : DevRef τ sig) ≠ Proc.devRef .tc main_v29_2), Function.update_self]
theorem V6_v29_0 (outs : Outs (F := F)) (c : Dev nD) : V6 m outs c main_v29_0 = outs 6 main_v29_0 c := by
  simp only [V6, Function.update_of_ne (StableHlo.devRef_ne_of_ne (by decide) : (Proc.devRef .tc main_v29_0 : DevRef τ sig) ≠ Proc.devRef .tc main_v29_2), Function.update_of_ne (StableHlo.devRef_ne_of_ne (by decide) : (Proc.devRef .tc main_v29_0 : DevRef τ sig) ≠ Proc.devRef .tc main_v29_1), Function.update_self]
theorem V8_v42 (outs : Outs (F := F)) (c : Dev nD) : V8 m outs c main_v42 = outs 8 main_v42 c := by
  simp only [V8, Function.update_self]

/-- After region 0 each of its arrays holds what the pipeline leaves: an input its entry contents, a result its fold. -/
theorem hF0_0 (c : Dev nD) : (dat0 (VA m) c).arrAt 0 cfg0.N = V6 m (outs m) c main_v26 :=
  (((dat0 (VA m) c).arrAt_in 0 rfl _).trans (A_eq0 (VA m) c 0)).trans (V6_of m (outs m) c main_v26 (by decide)).symm
theorem hF0_1 (c : Dev nD) : (dat0 (VA m) c).arrAt 1 cfg0.N = V6 m (outs m) c main_arg0 :=
  (((dat0 (VA m) c).arrAt_in 1 rfl _).trans (A_eq0 (VA m) c 1)).trans (V6_of m (outs m) c main_arg0 (by decide)).symm
theorem hF0_2 (c : Dev nD) : (dat0 (VA m) c).arrAt 2 cfg0.N = V6 m (outs m) c main_arg3 :=
  (((dat0 (VA m) c).arrAt_in 2 rfl _).trans (A_eq0 (VA m) c 2)).trans (V6_of m (outs m) c main_arg3 (by decide)).symm
theorem hF0_3 (c : Dev nD) : (dat0 (VA m) c).arrAt 3 cfg0.N = V6 m (outs m) c main_v27 :=
  (((dat0 (VA m) c).arrAt_in 3 rfl _).trans (A_eq0 (VA m) c 3)).trans (V6_of m (outs m) c main_v27 (by decide)).symm
theorem hF0_4 (c : Dev nD) : (dat0 (VA m) c).arrAt 4 cfg0.N = V6 m (outs m) c main_arg5 :=
  (((dat0 (VA m) c).arrAt_in 4 rfl _).trans (A_eq0 (VA m) c 4)).trans (V6_of m (outs m) c main_arg5 (by decide)).symm
theorem hF0_5 (c : Dev nD) : (dat0 (VA m) c).arrAt 5 cfg0.N = V6 m (outs m) c main_v28 :=
  (((dat0 (VA m) c).arrAt_in 5 rfl _).trans (A_eq0 (VA m) c 5)).trans (V6_of m (outs m) c main_v28 (by decide)).symm
theorem hF0_6 (c : Dev nD) : (dat0 (VA m) c).arrAt 6 cfg0.N = V6 m (outs m) c main_v29_0 :=
  (W6_arr m c 6).symm.trans (V6_v29_0 m (outs m) c).symm
theorem hF0_7 (c : Dev nD) : (dat0 (VA m) c).arrAt 7 cfg0.N = V6 m (outs m) c main_v29_1 :=
  (W6_arr m c 7).symm.trans (V6_v29_1 m (outs m) c).symm
theorem hF0_8 (c : Dev nD) : (dat0 (VA m) c).arrAt 8 cfg0.N = V6 m (outs m) c main_v29_2 :=
  (W6_arr m c 8).symm.trans (V6_v29_2 m (outs m) c).symm
set_option maxHeartbeats 1000000 in
theorem hF0 (c : Dev nD) (w : Fin cfg0.W) : (dat0 (VA m) c).arrAt w cfg0.N = V6 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨8, _⟩ => hF0_8 m c
theorem hrest0 (c : Dev nD) : ∀ b, b ∉ Finset.univ.image (Pipeline.arrRef spec0) → V6 m (outs m) c b = V5 m c b :=
  fun b hb => V6_of m (outs m) c b (by
    intro h
    simp only [List.mem_cons, List.mem_nil_iff, or_false] at h
    rcases h with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

theorem hF1_0 (c : Dev nD) : (dat1 (VB m) c).arrAt 0 cfg1.N = V8 m (outs m) c main_v29_0 :=
  (((dat1 (VB m) c).arrAt_in 0 rfl _).trans (A_eq1 (VB m) c 0)).trans ((V8_of m (outs m) c main_v29_0 (by decide)).trans (congrFun (V7_outs m c) _)).symm
theorem hF1_1 (c : Dev nD) : (dat1 (VB m) c).arrAt 1 cfg1.N = V8 m (outs m) c main_v38 :=
  (((dat1 (VB m) c).arrAt_in 1 rfl _).trans (A_eq1 (VB m) c 1)).trans ((V8_of m (outs m) c main_v38 (by decide)).trans (congrFun (V7_outs m c) _)).symm
theorem hF1_2 (c : Dev nD) : (dat1 (VB m) c).arrAt 2 cfg1.N = V8 m (outs m) c main_v39 :=
  (((dat1 (VB m) c).arrAt_in 2 rfl _).trans (A_eq1 (VB m) c 2)).trans ((V8_of m (outs m) c main_v39 (by decide)).trans (congrFun (V7_outs m c) _)).symm
theorem hF1_3 (c : Dev nD) : (dat1 (VB m) c).arrAt 3 cfg1.N = V8 m (outs m) c main_v40 :=
  (((dat1 (VB m) c).arrAt_in 3 rfl _).trans (A_eq1 (VB m) c 3)).trans ((V8_of m (outs m) c main_v40 (by decide)).trans (congrFun (V7_outs m c) _)).symm
theorem hF1_4 (c : Dev nD) : (dat1 (VB m) c).arrAt 4 cfg1.N = V8 m (outs m) c main_v41 :=
  (((dat1 (VB m) c).arrAt_in 4 rfl _).trans (A_eq1 (VB m) c 4)).trans ((V8_of m (outs m) c main_v41 (by decide)).trans (congrFun (V7_outs m c) _)).symm
theorem hF1_5 (c : Dev nD) : (dat1 (VB m) c).arrAt 5 cfg1.N = V8 m (outs m) c main_v42 :=
  (W8_arr m c 5).symm.trans (V8_v42 m (outs m) c).symm
set_option maxHeartbeats 1000000 in
theorem hF1 (c : Dev nD) (w : Fin cfg1.W) : (dat1 (VB m) c).arrAt w cfg1.N = V8 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
theorem hrest1 (c : Dev nD) : ∀ b, b ∉ Finset.univ.image (Pipeline.arrRef spec1) → V8 m (outs m) c b = V7 m (outs m) c b :=
  fun b hb => V8_of m (outs m) c b (by
    intro h
    simp only [List.mem_cons, List.mem_nil_iff, or_false] at h
    rcases h with rfl
    exact hb (Finset.mem_image.mpr ⟨5, Finset.mem_univ _, rfl⟩))

/-- The result array after the run is what region 1's write-backs fold to. -/
theorem V8_main_v42 (c : Dev nD) : V8 m (outs m) c main_v42 = (dat1 (VB m) c).arrAt 5 cfg1.N := (hF1 m c 5).symm

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

/-- The class invariant of region 0 from the generator register and the scoped rest, and back. -/
theorem hinA0 (c : Dev nD) (P : sProp 𝕄) : iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
theorem houtA0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V5 m c) ∗ E 0 c)
  post c := iprop(StableHlo.held (c : Thread nD τ) (Pipeline.ucRefs τ sig) (V6 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hinA0 c _).trans (hin0 (VA m) c)
  hout c := by
    rw [Pipeline.ownSems0_none]
    exact (hout0 (VA m) c).trans (houtA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V7 m (outs m) c) ∗ E 1 c)
  post c := iprop(StableHlo.held (c : Thread nD τ) (Pipeline.ucRefs τ sig) (V8 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    rw [V7_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => V8 m (outs m) c b) ((pdats m 1 c).arrAt · cfg1.N) (hF1 m c) (fun b hb => (hrest1 m c b hb).trans (congrFun (V7_outs m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of @main from memory `m` with zero counters terminates, nothing faulting, and every
    final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨.rfl, .rfl, .rfl, .rfl, .rfl, .rfl, .rfl, .rfl, by
      show iprop(StableHlo.held (c : Thread nD τ) (Pipeline.ucRefs τ sig) (V8 m (outs m) c) ∗ E 2 c) ⊢ _
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V8 m (outs m) c b)
    (hfin := fun c s' => by
      iintro ⟨Hh, HSI⟩
      unfold StableHlo.held
      imodintro
      iapply (pointsTo_read_all (Pipeline.ucRefs τ sig) (fun b => ((c : Thread nD τ).1, b)) (V8 m (outs m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (V8_main_arg0 m (outs m) c),
    (h c _ (mem_uc main_arg1 (by decide))).trans (V8_main_arg1 m (outs m) c),
    (h c _ (mem_uc main_arg2 (by decide))).trans (V8_main_arg2 m (outs m) c),
    (h c _ (mem_uc main_arg3 (by decide))).trans (V8_main_arg3 m (outs m) c),
    (h c _ (mem_uc main_arg4 (by decide))).trans (V8_main_arg4 m (outs m) c),
    (h c _ (mem_uc main_arg5 (by decide))).trans (V8_main_arg5 m (outs m) c),
    (h c _ (mem_uc main_arg6 (by decide))).trans (V8_main_arg6 m (outs m) c),
    (h c _ (mem_uc main_arg7 (by decide))).trans (V8_main_arg7 m (outs m) c),
    (h c _ (mem_uc main_arg8 (by decide))).trans (V8_main_arg8 m (outs m) c)⟩) (run_all m ρ)

/-- The run with the result named: the result array ends at what region 1's write-backs fold to, the arguments as launched. -/
theorem run_result : θ_run defs (onTc (τ := τ) (main (F := F))) ⟨m, fun _ => 0, ρ⟩ (fun r => ∀ c : Dev nD,
      r.2.mem ((c.tc : Thread nD τ).loc main_v42) = (dat1 (VB m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v42 (by decide))).trans (V8_main_v42 m c),
    (h c _ (mem_uc main_arg0 (by decide))).trans (V8_main_arg0 m (outs m) c),
    (h c _ (mem_uc main_arg1 (by decide))).trans (V8_main_arg1 m (outs m) c),
    (h c _ (mem_uc main_arg2 (by decide))).trans (V8_main_arg2 m (outs m) c),
    (h c _ (mem_uc main_arg3 (by decide))).trans (V8_main_arg3 m (outs m) c),
    (h c _ (mem_uc main_arg4 (by decide))).trans (V8_main_arg4 m (outs m) c),
    (h c _ (mem_uc main_arg5 (by decide))).trans (V8_main_arg5 m (outs m) c),
    (h c _ (mem_uc main_arg6 (by decide))).trans (V8_main_arg6 m (outs m) c),
    (h c _ (mem_uc main_arg7 (by decide))).trans (V8_main_arg7 m (outs m) c),
    (h c _ (mem_uc main_arg8 (by decide))).trans (V8_main_arg8 m (outs m) c)⟩) (run_all m ρ)

end Cert.Kernel.Fr

end
-- ==== Proof.FrShared.lean ====
/-
  Region 0 (the fused matmul / relu / residual kernel with its two column accumulators), what its case runs and
  its proof data share: each window's block of the array the region finds, the two branch conditions of the body
  in closed form over the 25 grid points (the first point resets the accumulators, the last copies them out),
  where the two accumulator outputs are idle, the staging memrefs a point runs on, and the two scratch accumulators.
-/
import proofs.«165666_j30210799960859_1_alg».proof.Proof.Gen.KernelIdeal.Launch
import proofs.«165666_j30210799960859_1_alg».proof.Proof.Gen.KernelIdeal.Skeleton
import proofs.«165666_j30210799960859_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the accumulators' reset), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- The condition of the body's second `scf.if` (the accumulators copied out). -/
abbrev cond0_1 (i : grid0.Coords) : Prop := k0_cond2 i = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last point output 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Off the last point output 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging memrefs of a point, the scratch accumulators -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- One staging buffer of each output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- The two scratch accumulators (column sums and column sums of squares), whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The scoped rest of region 0 with the two scratch accumulators as memrefs owned at some contents; `Rest0` is
    the other scoped buffers (the second region's staging buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

end Cert.KernelIdeal.Fr

end
-- ==== Proof.FrRunA.lean ====
/-
  Region 0's kernel body run whole in case A of its two conditionals: what its stores leave, as pieces, in the
  block output, in the two accumulator outputs where the case stores them, and in the two scratch accumulators.
-/
import proofs.«165666_j30210799960859_1_alg».proof.Proof.FrShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Fr

end
-- ==== Proof.FrRunB.lean ====
/-
  Region 0's kernel body run whole in case B of its two conditionals: what its stores leave, as pieces, in the
  block output, in the two accumulator outputs where the case stores them, and in the two scratch accumulators.
-/
import proofs.«165666_j30210799960859_1_alg».proof.Proof.FrRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Fr

end
-- ==== Proof.FrRunC.lean ====
/-
  Region 0's kernel body run whole in case C of its two conditionals: what its stores leave, as pieces, in the
  block output, in the two accumulator outputs where the case stores them, and in the two scratch accumulators.
-/
import proofs.«165666_j30210799960859_1_alg».proof.Proof.FrRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Fr

end
-- ==== Proof.FrRegion0.lean ====
/-
  Region 0 (the fused matmul / relu / residual kernel with its two column accumulators): what each of the three
  cases of its body leaves in the three outputs and the two accumulators, what these hold point by point over the
  25 grid points, the region invariant that carries the accumulators from one point to the next, the pipeline's
  proof data, the body obligation at every point, and the invariant's entry and exit.
-/
import proofs.«165666_j30210799960859_1_alg».proof.Proof.FrRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))
-- the core
variable (c : Dev nD)

/-! ## What each case of the body leaves -/

section Cases
-- the body's operands: the coordinate, six input memrefs, three output memrefs, the two accumulators, all whole
variable (i : grid0.Coords)
  (arg1 : Memref sig .tc .vmem S2000x128 .f32) (harg1 : arg1.IsWhole)
  (arg2 : Memref sig .tc .vmem S2000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S2000x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)

/-! ### Case A: the first point (the accumulators reset, nothing copied out) -/
section CaseA
variable (hc0 : cond0_0 i) (hc1 : ¬cond0_1 i)
  (x0 : Vec F S2000x128 .f32) (x1 : Vec F S2000x128 .f32) (x2 : Vec F S128x128 .f32) (x3 : Vec F S1x128 .f32)
  (x4 : Vec F S128x128 .f32) (x5 : Vec F S1x128 .f32)

local notation "runA" => kernelRun0_A c i arg1 harg1 arg2 harg2 arg3 harg3 arg4 harg4 arg5 harg5 arg6 harg6 arg7 harg7 arg8 harg8 arg9 harg9 arg10 harg10 arg11 harg11 hc0 hc1 x0 x1 x2 x3 x4 x5

/-- Case A's pieces for output 6 tile its block, so they cover it. -/
theorem cover0_A_6 (y : S2000x128.Idx) : ∃ pc ∈ (runA).1, y ∈ pc.1.set :=
  View.cover_of_tiledL (runA).1 S2000x128.size (by sl_kernel_rfl) y
/-- What case A leaves in output 6's staging buffer: its pieces read back, whatever the buffer held. -/
def out0_A_6 : Vec F S2000x128 .f32 := VO0_6.read (Elt F) (VO0_6.writes (Elt F) VO0_6.junk (runA).1)

/-- Case A's pieces for accumulator 0 cover it. -/
theorem scover0_A_0 (y : S1x128.Idx) : ∃ pc ∈ (runA).2.1, y ∈ pc.1.set :=
  View.cover_of_tiledL (runA).2.1 S1x128.size (by sl_kernel_rfl) y
/-- What case A leaves in accumulator 0. -/
def sout0_A_0 : Vec F S1x128 .f32 := VS0_0.read (Elt F) (VS0_0.writes (Elt F) VS0_0.junk (runA).2.1)

/-- Case A's pieces for accumulator 1 cover it. -/
theorem scover0_A_1 (y : S1x128.Idx) : ∃ pc ∈ (runA).2.2.1, y ∈ pc.1.set :=
  View.cover_of_tiledL (runA).2.2.1 S1x128.size (by sl_kernel_rfl) y
/-- What case A leaves in accumulator 1. -/
def sout0_A_1 : Vec F S1x128 .f32 := VS0_1.read (Elt F) (VS0_1.writes (Elt F) VS0_1.junk (runA).2.2.1)
end CaseA

/-! ### Case B: a middle point (the accumulators updated, nothing copied out) -/
section CaseB
variable (hc0 : ¬cond0_0 i) (hc1 : ¬cond0_1 i)
  (x0 : Vec F S2000x128 .f32) (x1 : Vec F S2000x128 .f32) (x2 : Vec F S128x128 .f32) (x3 : Vec F S1x128 .f32)
  (x4 : Vec F S128x128 .f32) (x5 : Vec F S1x128 .f32) (xs0 : Vec F S1x128 .f32) (xs1 : Vec F S1x128 .f32)

local notation "runB" => kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1

/-- Case B's pieces for output 6 tile its block, so they cover it. -/
theorem cover0_B_6 (y : S2000x128.Idx) : ∃ pc ∈ (runB).1, y ∈ pc.1.set :=
  View.cover_of_tiledL (runB).1 S2000x128.size (by sl_kernel_rfl) y
/-- What case B leaves in output 6's staging buffer. -/
def out0_B_6 : Vec F S2000x128 .f32 := VO0_6.read (Elt F) (VO0_6.writes (Elt F) VO0_6.junk (runB).1)

/-- Case B's pieces for accumulator 0 cover it. -/
theorem scover0_B_0 (y : S1x128.Idx) : ∃ pc ∈ (runB).2.1, y ∈ pc.1.set :=
  View.cover_of_tiledL (runB).2.1 S1x128.size (by sl_kernel_rfl) y
/-- What case B leaves in accumulator 0. -/
def sout0_B_0 : Vec F S1x128 .f32 := VS0_0.read (Elt F) (VS0_0.writes (Elt F) VS0_0.junk (runB).2.1)

/-- Case B's pieces for accumulator 1 cover it. -/
theorem scover0_B_1 (y : S1x128.Idx) : ∃ pc ∈ (runB).2.2.1, y ∈ pc.1.set :=
  View.cover_of_tiledL (runB).2.2.1 S1x128.size (by sl_kernel_rfl) y
/-- What case B leaves in accumulator 1. -/
def sout0_B_1 : Vec F S1x128 .f32 := VS0_1.read (Elt F) (VS0_1.writes (Elt F) VS0_1.junk (runB).2.2.1)
end CaseB

/-! ### Case C: the last point (the accumulators updated, then copied out to outputs 7 and 8) -/
section CaseC
variable (hc0 : ¬cond0_0 i) (hc1 : cond0_1 i)
  (x0 : Vec F S2000x128 .f32) (x1 : Vec F S2000x128 .f32) (x2 : Vec F S128x128 .f32) (x3 : Vec F S1x128 .f32)
  (x4 : Vec F S128x128 .f32) (x5 : Vec F S1x128 .f32) (xs0 : Vec F S1x128 .f32) (xs1 : Vec F S1x128 .f32)

local notation "runC" => kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1

/-- Case C's pieces for output 6 tile its block, so they cover it. -/
theorem cover0_C_6 (y : S2000x128.Idx) : ∃ pc ∈ (runC).1, y ∈ pc.1.set :=
  View.cover_of_tiledL (runC).1 S2000x128.size (by sl_kernel_rfl) y
/-- What case C leaves in output 6's staging buffer. -/
def out0_C_6 : Vec F S2000x128 .f32 := VO0_6.read (Elt F) (VO0_6.writes (Elt F) VO0_6.junk (runC).1)

/-- Case C's pieces for output 7 cover it. -/
theorem cover0_C_7 (y : S1x128.Idx) : ∃ pc ∈ (runC).2.1, y ∈ pc.1.set :=
  View.cover_of_tiledL (runC).2.1 S1x128.size (by sl_kernel_rfl) y
/-- What case C leaves in output 7's staging buffer. -/
def out0_C_7 : Vec F S1x128 .f32 := VO0_7.read (Elt F) (VO0_7.writes (Elt F) VO0_7.junk (runC).2.1)

/-- Case C's pieces for output 8 cover it. -/
theorem cover0_C_8 (y : S1x128.Idx) : ∃ pc ∈ (runC).2.2.1, y ∈ pc.1.set :=
  View.cover_of_tiledL (runC).2.2.1 S1x128.size (by sl_kernel_rfl) y
/-- What case C leaves in output 8's staging buffer. -/
def out0_C_8 : Vec F S1x128 .f32 := VO0_8.read (Elt F) (VO0_8.writes (Elt F) VO0_8.junk (runC).2.2.1)

/-- Case C's pieces for accumulator 0 cover it. -/
theorem scover0_C_0 (y : S1x128.Idx) : ∃ pc ∈ (runC).2.2.2.1, y ∈ pc.1.set :=
  View.cover_of_tiledL (runC).2.2.2.1 S1x128.size (by sl_kernel_rfl) y
/-- What case C leaves in accumulator 0. -/
def sout0_C_0 : Vec F S1x128 .f32 := VS0_0.read (Elt F) (VS0_0.writes (Elt F) VS0_0.junk (runC).2.2.2.1)

/-- Case C's pieces for accumulator 1 cover it. -/
theorem scover0_C_1 (y : S1x128.Idx) : ∃ pc ∈ (runC).2.2.2.2.1, y ∈ pc.1.set :=
  View.cover_of_tiledL (runC).2.2.2.2.1 S1x128.size (by sl_kernel_rfl) y
/-- What case C leaves in accumulator 1. -/
def sout0_C_1 : Vec F S1x128 .f32 := VS0_1.read (Elt F) (VS0_1.writes (Elt F) VS0_1.junk (runC).2.2.2.2.1)
end CaseC

end Cases

/-! ## What the outputs and the accumulators hold after each point -/

/-- A case's contents or run \`f\` at point \`T\`: on the point's coordinate and staging memrefs and the two
    accumulators, under the proofs \`p0\`, \`p1\` of the case's two conditions, at the point's six input blocks. -/
local notation "pt⟪" f ", " T ", " p0 ", " p1 "⟫" =>
  f c (grid0.coords T) (ms0_0 T) (hs0_0 T) (ms0_1 T) (hs0_1 T) (ms0_2 T) (hs0_2 T) (ms0_3 T) (hs0_3 T)
    (ms0_4 T) (hs0_4 T) (ms0_5 T) (hs0_5 T) (ms0_6 T) (hs0_6 T) (ms0_7 T) (hs0_7 T) (ms0_8 T) (hs0_8 T)
    scM0_0 (Memref.isWhole_whole _) scM0_1 (Memref.isWhole_whole _) p0 p1
    (iblk0 V c 0 T) (iblk0 V c 1 T) (iblk0 V c 2 T) (iblk0 V c 3 T) (iblk0 V c 4 T) (iblk0 V c 5 T)

/-- Outputs 7 and 8 are stored at the last point only; elsewhere their windows are idle and not written back, and
    these stand in their places: nothing reads them. -/
def out0_idle_7 : Vec F S1x128 .f32 := VO0_7.read (Elt F) VO0_7.junk
def out0_idle_8 : Vec F S1x128 .f32 := VO0_8.read (Elt F) VO0_8.junk

/-- The accumulation. What the three outputs' staging buffers and the two accumulators hold after the body at
    position \`n\` (output 6, output 7, output 8, accumulator 0, accumulator 1): the case of the point — the first
    resets the accumulators, the last also copies them out, the others update them — at the point's memrefs and input
    blocks, the accumulators taken at what the point before left in them. -/
def outsAt0 : (n : ℕ) → n < cfg0.N →
    Vec F S2000x128 .f32 × Vec F S1x128 .f32 × Vec F S1x128 .f32 × Vec F S1x128 .f32 × Vec F S1x128 .f32
  | 0, hn =>
    (pt⟪out0_A_6, ⟨0, hn⟩, ((hcond0_0 ⟨0, hn⟩).mpr (Nat.zero_mod _)), (fun h => (fun h => by (try dsimp only at h); omega) ((hcond0_1 ⟨0, hn⟩).mp h))⟫,
      out0_idle_7, out0_idle_8,
      pt⟪sout0_A_0, ⟨0, hn⟩, ((hcond0_0 ⟨0, hn⟩).mpr (Nat.zero_mod _)), (fun h => (fun h => by (try dsimp only at h); omega) ((hcond0_1 ⟨0, hn⟩).mp h))⟫,
      pt⟪sout0_A_1, ⟨0, hn⟩, ((hcond0_0 ⟨0, hn⟩).mpr (Nat.zero_mod _)), (fun h => (fun h => by (try dsimp only at h); omega) ((hcond0_1 ⟨0, hn⟩).mp h))⟫)
  | n + 1, hn =>
    if h0 : (n + 1) % 25 = 0 then
      False.elim (by have hN : n + 1 < 25 := lt_of_lt_of_eq hn (show cfg0.N = 25 from N_0); omega)
    else
      if h1 : (n + 1) % 25 = 24 then
        ((pt⟪out0_C_6, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪out0_C_7, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪out0_C_8, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪sout0_C_0, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2,
          (pt⟪sout0_C_1, ⟨n + 1, hn⟩, (fun h => h0 ((hcond0_0 ⟨n + 1, hn⟩).mp h)), ((hcond0_1 ⟨n + 1, hn⟩).mpr h1)⟫) (outsAt0 n (Nat.lt_of_succ_lt hn)).2.2.2.1 (outsAt0 n (Nat.lt_of_succ_lt hn)).2.2.2.2)
      else
        ((pt⟪out0_B_6, ⟨n + 1, hn⟩, (fun h => h0 ((hcond0_0 ⟨n + 1, hn⟩).mp h)), (fun h => h1 ((hcond0_1 ⟨n + 1, hn⟩).mp h))⟫) (outsAt0 n (Nat.lt_of_succ_lt hn)).2.2.2.1 (outsAt0 n (Nat.lt_of_succ_lt hn)).2.2.2.2,
          out0_idle_7, out0_idle_8,
          (pt⟪sout0_B_0, ⟨n + 1, hn⟩, (fun h => h0 ((hcond0_0 ⟨n + 1, hn⟩).mp h)), (fun h => h1 ((hcond0_1 ⟨n + 1, hn⟩).mp h))⟫) (outsAt0 n (Nat.lt_of_succ_lt hn)).2.2.2.1 (outsAt0 n (Nat.lt_of_succ_lt hn)).2.2.2.2,
          (pt⟪sout0_B_1, ⟨n + 1, hn⟩, (fun h => h0 ((hcond0_0 ⟨n + 1, hn⟩).mp h)), (fun h => h1 ((hcond0_1 ⟨n + 1, hn⟩).mp h))⟫) (outsAt0 n (Nat.lt_of_succ_lt hn)).2.2.2.1 (outsAt0 n (Nat.lt_of_succ_lt hn)).2.2.2.2)

/-- What the point before \`t\` left (at the first point: the point itself, where nothing consults it). -/
local notation "prev⟪" t "⟫" => outsAt0 V c (Fin.val t - 1) (Nat.lt_of_le_of_lt (Nat.sub_le _ _) (Fin.isLt t))

/-- \`outsAt0\` at the first point: case A's contents. -/
theorem outsAt0_A (t : Fin cfg0.N) (h0 : t.val % 25 = 0) (h1 : ¬t.val % 25 = 24) :
    outsAt0 V c t.val t.isLt =
      (pt⟪out0_A_6, t, ((hcond0_0 t).mpr h0), (fun h => h1 ((hcond0_1 t).mp h))⟫,
        out0_idle_7, out0_idle_8,
        pt⟪sout0_A_0, t, ((hcond0_0 t).mpr h0), (fun h => h1 ((hcond0_1 t).mp h))⟫,
        pt⟪sout0_A_1, t, ((hcond0_0 t).mpr h0), (fun h => h1 ((hcond0_1 t).mp h))⟫) := by
  obtain ⟨n, hn⟩ := t
  cases n with
  | zero => exact rfl
  | succ n => exact (by exfalso; have hN : n + 1 < 25 := lt_of_lt_of_eq hn (show cfg0.N = 25 from N_0); (try dsimp only at h0); omega)

/-- \`outsAt0\` at a middle point: case B's contents, over what the point before left in the accumulators. -/
theorem outsAt0_B (t : Fin cfg0.N) (h0 : ¬t.val % 25 = 0) (h1 : ¬t.val % 25 = 24) :
    outsAt0 V c t.val t.isLt =
      ((pt⟪out0_B_6, t, (fun h => h0 ((hcond0_0 t).mp h)), (fun h => h1 ((hcond0_1 t).mp h))⟫) (prev⟪t⟫).2.2.2.1 (prev⟪t⟫).2.2.2.2,
        out0_idle_7, out0_idle_8,
        (pt⟪sout0_B_0, t, (fun h => h0 ((hcond0_0 t).mp h)), (fun h => h1 ((hcond0_1 t).mp h))⟫) (prev⟪t⟫).2.2.2.1 (prev⟪t⟫).2.2.2.2,
        (pt⟪sout0_B_1, t, (fun h => h0 ((hcond0_0 t).mp h)), (fun h => h1 ((hcond0_1 t).mp h))⟫) (prev⟪t⟫).2.2.2.1 (prev⟪t⟫).2.2.2.2) := by
  obtain ⟨n, hn⟩ := t
  cases n with
  | zero => exact (by exfalso; (try dsimp only at h0); exact absurd (Nat.zero_mod _) h0)
  | succ n => exact (dif_neg h0).trans ((dif_neg h1).trans rfl)

/-- \`outsAt0\` at the last point: case C's contents, over what the point before left in the accumulators. -/
theorem outsAt0_C (t : Fin cfg0.N) (h0 : ¬t.val % 25 = 0) (h1 : t.val % 25 = 24) :
    outsAt0 V c t.val t.isLt =
      ((pt⟪out0_C_6, t, (fun h => h0 ((hcond0_0 t).mp h)), ((hcond0_1 t).mpr h1)⟫) (prev⟪t⟫).2.2.2.1 (prev⟪t⟫).2.2.2.2,
        (pt⟪out0_C_7, t, (fun h => h0 ((hcond0_0 t).mp h)), ((hcond0_1 t).mpr h1)⟫) (prev⟪t⟫).2.2.2.1 (prev⟪t⟫).2.2.2.2,
        (pt⟪out0_C_8, t, (fun h => h0 ((hcond0_0 t).mp h)), ((hcond0_1 t).mpr h1)⟫) (prev⟪t⟫).2.2.2.1 (prev⟪t⟫).2.2.2.2,
        (pt⟪sout0_C_0, t, (fun h => h0 ((hcond0_0 t).mp h)), ((hcond0_1 t).mpr h1)⟫) (prev⟪t⟫).2.2.2.1 (prev⟪t⟫).2.2.2.2,
        (pt⟪sout0_C_1, t, (fun h => h0 ((hcond0_0 t).mp h)), ((hcond0_1 t).mpr h1)⟫) (prev⟪t⟫).2.2.2.1 (prev⟪t⟫).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position \`n\`: before the first point every scoped buffer that is no staging buffer at some
    contents and the generator register at some state; afterwards the two accumulators at what the point before left
    in them, the other such buffers at some contents, the generator register at some state. -/
def PhiS0 : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest0 c) ∗ (∃ r, prngReg c r))

theorem PhiS0_zero (n : ℕ) (h : n ≤ cfg0.N) (hz : n = 0) : PhiS0 V c n h = Pipeline.ΦA spec0 c := by
  subst hz; rfl

/-- After point \`n\` (before point \`n + 1\`): the accumulators at that point's contents. -/
theorem PhiS0_succ (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ Rest0 c) ∗ (∃ r, prngReg c r)) := rfl

/-- Before a point that is not the first: the accumulators at what the point before left. -/
theorem PhiS0_pos (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest0 c) ∗ (∃ r, prngReg c r)) := by
  cases n with
  | zero => exact absurd rfl hz
  | succ n => rfl

/-! ## The pipeline's proof data -/

/-- The proof data of region 0 on core \`c\`: the arrays as the region finds them; after the body at point \`t\` each
    input's buffer at its block and the outputs' at \`outsAt0\`'s components; the invariant \`PhiS0\`; nothing owed;
    full shares. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

/-- The proof data's arrays are the region-entry contents. -/
theorem A_eq0 (w : Fin cfg0.W) : (dat0 V c).A w = V c (Pipeline.arrRef spec0 w) := by
  dsimp only [dat0]

/-- The invariant at a point's start, restated at the point's position. -/
theorem PhiS0_castSucc (t : Fin cfg0.N) :
    (dat0 V c).Φ t.castSucc = PhiS0 V c t.val (Nat.le_of_lt t.isLt) := by
  dsimp only [dat0]; simp only [Fin.coe_castSucc]

/-- What the body leaves, window by window. -/
theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = iblk0 V c 3 t := by dsimp only [dat0]
theorem after0_4 (t : Fin cfg0.N) : (dat0 V c).after 4 t = iblk0 V c 4 t := by dsimp only [dat0]
theorem after0_5 (t : Fin cfg0.N) : (dat0 V c).after 5 t = iblk0 V c 5 t := by dsimp only [dat0]
theorem after0_6 (t : Fin cfg0.N) : (dat0 V c).after 6 t = (outsAt0 V c t.val t.isLt).1 := by dsimp only [dat0]
theorem after0_7 (t : Fin cfg0.N) : (dat0 V c).after 7 t = (outsAt0 V c t.val t.isLt).2.1 := by dsimp only [dat0]
theorem after0_8 (t : Fin cfg0.N) : (dat0 V c).after 8 t = (outsAt0 V c t.val t.isLt).2.2.1 := by dsimp only [dat0]

/-- Each input's current staging buffer holds its block at every point, fetched there or not. -/
theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d
theorem before0_3 (t : Fin cfg0.N) (d) : (dat0 V c).before 3 t d = iblk0 V c 3 t :=
  before0_3_of V (dat0 V c) (A_eq0 V c 3) (after0_3 V c) t d
theorem before0_4 (t : Fin cfg0.N) (d) : (dat0 V c).before 4 t d = iblk0 V c 4 t :=
  before0_4_of V (dat0 V c) (A_eq0 V c 4) (after0_4 V c) t d
theorem before0_5 (t : Fin cfg0.N) (d) : (dat0 V c).before 5 t d = iblk0 V c 5 t :=
  before0_5_of V (dat0 V c) (A_eq0 V c 5) (after0_5 V c) t d

/-! ## The body obligation, at a generic point -/

/-- What the body is called with at point \`t\`: the invariant, what the core owes, each window's current staging buffer. -/
def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- The inputs and output 6 are live at every point: the body leaves each one's buffer at its stated contents. -/
theorem leaves0_0 (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (t : Fin cfg0.N) : (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (t : Fin cfg0.N) : (dat0 V c).leavesExact 4 t = owns (c : Thread nD τ) (ms0_4 t) fullShare (iblk0 V c 4 t) := by
  rw [show (dat0 V c).leavesExact 4 t = owns (c : Thread nD τ) (ms0_4 t) fullShare ((dat0 V c).after 4 t) from by
    unfold Dat.leavesExact; rw [liveAt0_4 t], after0_4]
theorem leaves0_5 (t : Fin cfg0.N) : (dat0 V c).leavesExact 5 t = owns (c : Thread nD τ) (ms0_5 t) fullShare (iblk0 V c 5 t) := by
  rw [show (dat0 V c).leavesExact 5 t = owns (c : Thread nD τ) (ms0_5 t) fullShare ((dat0 V c).after 5 t) from by
    unfold Dat.leavesExact; rw [liveAt0_5 t], after0_5]
theorem leaves0_6 (t : Fin cfg0.N) : (dat0 V c).leavesExact 6 t = owns (c : Thread nD τ) (ms0_6 t) fullShare ((outsAt0 V c t.val t.isLt).1) := by
  rw [show (dat0 V c).leavesExact 6 t = owns (c : Thread nD τ) (ms0_6 t) fullShare ((dat0 V c).after 6 t) from by
    unfold Dat.leavesExact; rw [liveAt0_6 t], after0_6]
/-- Outputs 7 and 8 are live at the last point, -/
theorem leaves0_7_last (t : Fin cfg0.N) (hc : cond0_1 (grid0.coords t)) : (dat0 V c).leavesExact 7 t = owns (c : Thread nD τ) (ms0_7 t) fullShare ((outsAt0 V c t.val t.isLt).2.1) := by
  rw [show (dat0 V c).leavesExact 7 t = owns (c : Thread nD τ) (ms0_7 t) fullShare ((dat0 V c).after 7 t) from by
    unfold Dat.leavesExact; rw [liveAt0_7 t hc], after0_7]
theorem leaves0_8_last (t : Fin cfg0.N) (hc : cond0_1 (grid0.coords t)) : (dat0 V c).leavesExact 8 t = owns (c : Thread nD τ) (ms0_8 t) fullShare ((outsAt0 V c t.val t.isLt).2.2.1) := by
  rw [show (dat0 V c).leavesExact 8 t = owns (c : Thread nD τ) (ms0_8 t) fullShare ((dat0 V c).after 8 t) from by
    unfold Dat.leavesExact; rw [liveAt0_8 t hc], after0_8]
/-- and idle elsewhere, where their buffers are handed back as they came. -/
theorem leaves0_7_idle (t : Fin cfg0.N) (hc : ¬cond0_1 (grid0.coords t)) : (dat0 V c).leavesExact 7 t = iprop(∃ d, owns (c : Thread nD τ) (ms0_7 t) fullShare ((dat0 V c).before 7 t d)) :=
  Dat.leavesExact_idle (dat0 V c) 7 t (idleAt0_7 t hc) (noFlush0_7 t hc)
theorem leaves0_8_idle (t : Fin cfg0.N) (hc : ¬cond0_1 (grid0.coords t)) : (dat0 V c).leavesExact 8 t = iprop(∃ d, owns (c : Thread nD τ) (ms0_8 t) fullShare ((dat0 V c).before 8 t d)) :=
  Dat.leavesExact_idle (dat0 V c) 8 t (idleAt0_8 t hc) (noFlush0_8 t hc)

set_option maxHeartbeats 4800000 in
/-- The body at any point. The inputs' memrefs hold their blocks; the closed forms of the two conditions say which
    case the point is in, and that case's run applies. The invariant hands the body the two accumulators — at anything
    at the first point, at what the point before left elsewhere — and takes them back at this point's contents, which
    the case's pieces cover; output 6 is left at the case's contents, outputs 7 and 8 at the last point's copies there
    and as they came elsewhere; the other scoped buffers, the generator register and what the core owes pass through. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6]
  have hN : t.val < 25 := lt_of_lt_of_eq t.isLt (show cfg0.N = 25 from N_0)
  by_cases h0 : t.val % 25 = 0
  · -- the first point: case A, the accumulators come at anything
    have h1 : ¬t.val % 25 = 24 := by omega
    have hz : t.val = 0 := by omega
    rw [leaves0_7_idle V c t (fun h => h1 ((hcond0_1 t).mp h)), leaves0_8_idle V c t (fun h => h1 ((hcond0_1 t).mp h))]
    rw [outsAt0_A V c t h0 h1]
    unfold out0_A_6 sout0_A_0 sout0_A_1; (try dsimp only)
    rw [PhiS0_castSucc V c t, PhiS0_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((pt⟪kernelRun0_A, t, ((hcond0_0 t).mpr h0), (fun h => h1 ((hcond0_1 t).mp h))⟫).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (pt⟪scover0_A_0, t, ((hcond0_0 t).mpr h0), (fun h => h1 ((hcond0_1 t).mp h))⟫)
        isplitl [HS1]
        · unfold owns; iexists _; isplitr
          swap; · iexact HS1
          ipureintro; exact View.read_writes_of_cover _ _ _ _ _ (pt⟪scover0_A_1, t, ((hcond0_0 t).mpr h0), (fun h => h1 ((hcond0_1 t).mp h))⟫)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (pt⟪cover0_A_6, t, ((hcond0_0 t).mpr h0), (fun h => h1 ((hcond0_1 t).mp h))⟫)
    isplitl [H7]; · iexists _; iexact H7
    iexists _; iexact H8
  · have hz : t.val ≠ 0 := by omega
    by_cases h1 : t.val % 25 = 24
    · -- the last point: case C, the accumulators come at what the point before left, outputs 7 and 8 are stored
      rw [leaves0_7_last V c t ((hcond0_1 t).mpr h1), leaves0_8_last V c t ((hcond0_1 t).mpr h1)]
      rw [outsAt0_C V c t h0 h1]
      unfold out0_C_6 out0_C_7 out0_C_8 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((pt⟪kernelRun0_C, t, (fun h => h0 ((hcond0_0 t).mp h)), ((hcond0_1 t).mpr h1)⟫) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ ((pt⟪scover0_C_0, t, (fun h => h0 ((hcond0_0 t).mp h)), ((hcond0_1 t).mpr h1)⟫) _ _)
          isplitl [HS1]
          · unfold owns; iexists _; isplitr
            swap; · iexact HS1
            ipureintro; exact View.read_writes_of_cover _ _ _ _ _ ((pt⟪scover0_C_1, t, (fun h => h0 ((hcond0_0 t).mp h)), ((hcond0_1 t).mpr h1)⟫) _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ ((pt⟪cover0_C_6, t, (fun h => h0 ((hcond0_0 t).mp h)), ((hcond0_1 t).mpr h1)⟫) _ _)
      isplitl [H7]
      · unfold owns; iexists _; isplitr
        swap; · iexact H7
        ipureintro; exact View.read_writes_of_cover _ _ _ _ _ ((pt⟪cover0_C_7, t, (fun h => h0 ((hcond0_0 t).mp h)), ((hcond0_1 t).mpr h1)⟫) _ _)
      unfold owns; iexists _; isplitr
      swap; · iexact H8
      ipureintro; exact View.read_writes_of_cover _ _ _ _ _ ((pt⟪cover0_C_8, t, (fun h => h0 ((hcond0_0 t).mp h)), ((hcond0_1 t).mpr h1)⟫) _ _)
    · -- a middle point: case B, the accumulators come at what the point before left, outputs 7 and 8 are idle
      rw [leaves0_7_idle V c t (fun h => h1 ((hcond0_1 t).mp h)), leaves0_8_idle V c t (fun h => h1 ((hcond0_1 t).mp h))]
      rw [outsAt0_B V c t h0 h1]
      unfold out0_B_6 sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((pt⟪kernelRun0_B, t, (fun h => h0 ((hcond0_0 t).mp h)), (fun h => h1 ((hcond0_1 t).mp h))⟫) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ ((pt⟪scover0_B_0, t, (fun h => h0 ((hcond0_0 t).mp h)), (fun h => h1 ((hcond0_1 t).mp h))⟫) _ _)
          isplitl [HS1]
          · unfold owns; iexists _; isplitr
            swap; · iexact HS1
            ipureintro; exact View.read_writes_of_cover _ _ _ _ _ ((pt⟪scover0_B_1, t, (fun h => h0 ((hcond0_0 t).mp h)), (fun h => h1 ((hcond0_1 t).mp h))⟫) _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ ((pt⟪cover0_B_6, t, (fun h => h0 ((hcond0_0 t).mp h)), (fun h => h1 ((hcond0_1 t).mp h))⟫) _ _)
      isplitl [H7]; · iexists _; iexact H7
      iexists _; iexact H8

/-- The library's body obligation, at every point. -/
theorem body_obligation0 : BodyObligation (dat0 (F := F) V c) (defs₀ (F := F)) Variants.none () Set.univ := fun t => by
  rw [bigSep_W0, bigSep_W0]
  exact sound_body0 V c t

/-! ## The invariant's entry and exit -/

/-- What the launch hands the region is the invariant before the first point. -/
theorem hin0 : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry form back: the accumulators' named contents are forgotten. -/
theorem Phi_out0 (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 : (dat0 V c).Φ (Fin.last cfg0.N) ⊢ Pipeline.ΦA spec0 c :=
  Phi_out0 V c _ (by rw [Fin.val_last]; have : cfg0.N = 25 := N_0; omega)

end Region0

end Cert.KernelIdeal.Fr

end
-- ==== Proof.FrRegion1.lean ====
/-
  Region 1 (the pointwise normalisation kernel): at the buffer contents the region is entered with, each window's
  block at a grid point, what the body leaves in the output window's staging buffer (one store of the whole block,
  its payload a function of the five blocks loaded), the body's triple on whole staging memrefs, the pipeline's
  proof data, and the body obligation at every grid point.
-/
import proofs.«165666_j30210799960859_1_alg».proof.Proof.FrShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when region 1 is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x128 block, and the whole 1x128 row. -/
abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the output window's buffer -/

/-- Window 5's staging buffer after the body, from the input windows' blocks: its one store of the whole block, the
    payload the normalised block computed from the five loads. (The body also loads the output block before the
    store; that value is not used.) -/
def out1_5 (x0 : Vec F S2000x128 .f32) (x1 x2 x3 x4 : Vec F S1x128 .f32) : Vec F S2000x128 .f32 :=
  View.canon [⟨r1_0, k1_pay1 (View.ld x0 r1_0) (View.ld x1 r1_1) (View.ld x2 r1_1) (View.ld x3 r1_1) (View.ld x4 r1_1)⟩]

/-- The one store tiles the buffer, so it covers it. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `x0 … x4` and the output's at anything,
    runs to the continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.FrRun.lean ====
/-
  The run of @main: five host stretches, region 0, one host stretch, region 1. The contents of the TensorCore's
  unscoped buffers between items are the generated valuations `V0 … V8` at the contents the two regions leave
  (`outs`): region 0 leaves in its three result arrays what its write-backs fold to, region 1 likewise in the
  result. Every weakly fair execution terminates with every unscoped buffer at `V8`; the frame (the nine
  arguments end as launched) and the result's contents are read off that.
-/
import proofs.«165666_j30210799960859_1_alg».proof.Proof.FrRegion0
import proofs.«165666_j30210799960859_1_alg».proof.Proof.FrRegion1
import proofs.«165666_j30210799960859_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the regions leave -/

/-- Region 0's entry contents, read at the TensorCore's references. -/
abbrev VA : (c : Dev nD) → (b : Ref sig .tc) → Buf (Elt F) ((c : Thread nD τ).loc b) := fun c b => V5 m c b
/-- After region 0: its arrays at what the pipeline leaves, every other buffer as entered. -/
def W6 (c : Dev nD) : Valuation τ sig (Elt F) :=
  Pipeline.withArrays spec0 c (V5 m c) fun w => (dat0 (VA m) c).arrAt w cfg0.N
theorem W6_arr (c : Dev nD) (w : Fin cfg0.W) :
    W6 m c (Proc.devRef .tc (Pipeline.arrRef spec0 w)) = (dat0 (VA m) c).arrAt w cfg0.N := by
  unfold W6; exact Pipeline.withArrays_arr spec0 launch0.win.arr_inj c _ _ w
/-- What region 0 leaves, as the unknowns of the generated valuations. -/
def outsA : Outs (F := F) := fun _ r c => W6 m c (Proc.devRef .tc r)
/-- Region 1's entry contents. -/
abbrev VB : (c : Dev nD) → (b : Ref sig .tc) → Buf (Elt F) ((c : Thread nD τ).loc b) := fun c b => V7 m (outsA m) c b
def W8 (c : Dev nD) : Valuation τ sig (Elt F) :=
  Pipeline.withArrays spec1 c (V7 m (outsA m) c) fun w => (dat1 (VB m) c).arrAt w cfg1.N
theorem W8_arr (c : Dev nD) (w : Fin cfg1.W) :
    W8 m c (Proc.devRef .tc (Pipeline.arrRef spec1 w)) = (dat1 (VB m) c).arrAt w cfg1.N := by
  unfold W8; exact Pipeline.withArrays_arr spec1 launch1.win.arr_inj c _ _ w
/-- What both regions leave: region 0's at item 6, region 1's at item 8. -/
def outs : Outs (F := F) := fun J r c => match J with
  | 6 => W6 m c (Proc.devRef .tc r)
  | _ => W8 m c (Proc.devRef .tc r)

theorem V6_outs (c : Dev nD) : V6 m (outs m) c = V6 m (outsA m) c := rfl
theorem V7_outs (c : Dev nD) : V7 m (outs m) c = V7 m (outsA m) c := rfl

/-- The generated valuations read at a region's result: the unknown the region leaves there. -/
theorem V6_v29_2 (outs : Outs (F := F)) (c : Dev nD) : V6 m outs c main_v29_2 = outs 6 main_v29_2 c := by
  simp only [V6, Function.update_self]
theorem V6_v29_1 (outs : Outs (F := F)) (c : Dev nD) : V6 m outs c main_v29_1 = outs 6 main_v29_1 c := by
  simp only [V6, Function.update_of_ne (StableHlo.devRef_ne_of_ne (by decide) : (Proc.devRef .tc main_v29_1 : DevRef τ sig) ≠ Proc.devRef .tc main_v29_2), Function.update_self]
theorem V6_v29_0 (outs : Outs (F := F)) (c : Dev nD) : V6 m outs c main_v29_0 = outs 6 main_v29_0 c := by
  simp only [V6, Function.update_of_ne (StableHlo.devRef_ne_of_ne (by decide) : (Proc.devRef .tc main_v29_0 : DevRef τ sig) ≠ Proc.devRef .tc main_v29_2), Function.update_of_ne (StableHlo.devRef_ne_of_ne (by decide) : (Proc.devRef .tc main_v29_0 : DevRef τ sig) ≠ Proc.devRef .tc main_v29_1), Function.update_self]
theorem V8_v42 (outs : Outs (F := F)) (c : Dev nD) : V8 m outs c main_v42 = outs 8 main_v42 c := by
  simp only [V8, Function.update_self]

/-- After region 0 each of its arrays holds what the pipeline leaves: an input its entry contents, a result its fold. -/
theorem hF0_0 (c : Dev nD) : (dat0 (VA m) c).arrAt 0 cfg0.N = V6 m (outs m) c main_v26 :=
  (((dat0 (VA m) c).arrAt_in 0 rfl _).trans (A_eq0 (VA m) c 0)).trans (V6_of m (outs m) c main_v26 (by decide)).symm
theorem hF0_1 (c : Dev nD) : (dat0 (VA m) c).arrAt 1 cfg0.N = V6 m (outs m) c main_arg0 :=
  (((dat0 (VA m) c).arrAt_in 1 rfl _).trans (A_eq0 (VA m) c 1)).trans (V6_of m (outs m) c main_arg0 (by decide)).symm
theorem hF0_2 (c : Dev nD) : (dat0 (VA m) c).arrAt 2 cfg0.N = V6 m (outs m) c main_arg3 :=
  (((dat0 (VA m) c).arrAt_in 2 rfl _).trans (A_eq0 (VA m) c 2)).trans (V6_of m (outs m) c main_arg3 (by decide)).symm
theorem hF0_3 (c : Dev nD) : (dat0 (VA m) c).arrAt 3 cfg0.N = V6 m (outs m) c main_v27 :=
  (((dat0 (VA m) c).arrAt_in 3 rfl _).trans (A_eq0 (VA m) c 3)).trans (V6_of m (outs m) c main_v27 (by decide)).symm
theorem hF0_4 (c : Dev nD) : (dat0 (VA m) c).arrAt 4 cfg0.N = V6 m (outs m) c main_arg5 :=
  (((dat0 (VA m) c).arrAt_in 4 rfl _).trans (A_eq0 (VA m) c 4)).trans (V6_of m (outs m) c main_arg5 (by decide)).symm
theorem hF0_5 (c : Dev nD) : (dat0 (VA m) c).arrAt 5 cfg0.N = V6 m (outs m) c main_v28 :=
  (((dat0 (VA m) c).arrAt_in 5 rfl _).trans (A_eq0 (VA m) c 5)).trans (V6_of m (outs m) c main_v28 (by decide)).symm
theorem hF0_6 (c : Dev nD) : (dat0 (VA m) c).arrAt 6 cfg0.N = V6 m (outs m) c main_v29_0 :=
  (W6_arr m c 6).symm.trans (V6_v29_0 m (outs m) c).symm
theorem hF0_7 (c : Dev nD) : (dat0 (VA m) c).arrAt 7 cfg0.N = V6 m (outs m) c main_v29_1 :=
  (W6_arr m c 7).symm.trans (V6_v29_1 m (outs m) c).symm
theorem hF0_8 (c : Dev nD) : (dat0 (VA m) c).arrAt 8 cfg0.N = V6 m (outs m) c main_v29_2 :=
  (W6_arr m c 8).symm.trans (V6_v29_2 m (outs m) c).symm
set_option maxHeartbeats 1000000 in
theorem hF0 (c : Dev nD) (w : Fin cfg0.W) : (dat0 (VA m) c).arrAt w cfg0.N = V6 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨8, _⟩ => hF0_8 m c
theorem hrest0 (c : Dev nD) : ∀ b, b ∉ Finset.univ.image (Pipeline.arrRef spec0) → V6 m (outs m) c b = V5 m c b :=
  fun b hb => V6_of m (outs m) c b (by
    intro h
    simp only [List.mem_cons, List.mem_nil_iff, or_false] at h
    rcases h with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

theorem hF1_0 (c : Dev nD) : (dat1 (VB m) c).arrAt 0 cfg1.N = V8 m (outs m) c main_v29_0 :=
  (((dat1 (VB m) c).arrAt_in 0 rfl _).trans (A_eq1 (VB m) c 0)).trans ((V8_of m (outs m) c main_v29_0 (by decide)).trans (congrFun (V7_outs m c) _)).symm
theorem hF1_1 (c : Dev nD) : (dat1 (VB m) c).arrAt 1 cfg1.N = V8 m (outs m) c main_v38 :=
  (((dat1 (VB m) c).arrAt_in 1 rfl _).trans (A_eq1 (VB m) c 1)).trans ((V8_of m (outs m) c main_v38 (by decide)).trans (congrFun (V7_outs m c) _)).symm
theorem hF1_2 (c : Dev nD) : (dat1 (VB m) c).arrAt 2 cfg1.N = V8 m (outs m) c main_v39 :=
  (((dat1 (VB m) c).arrAt_in 2 rfl _).trans (A_eq1 (VB m) c 2)).trans ((V8_of m (outs m) c main_v39 (by decide)).trans (congrFun (V7_outs m c) _)).symm
theorem hF1_3 (c : Dev nD) : (dat1 (VB m) c).arrAt 3 cfg1.N = V8 m (outs m) c main_v40 :=
  (((dat1 (VB m) c).arrAt_in 3 rfl _).trans (A_eq1 (VB m) c 3)).trans ((V8_of m (outs m) c main_v40 (by decide)).trans (congrFun (V7_outs m c) _)).symm
theorem hF1_4 (c : Dev nD) : (dat1 (VB m) c).arrAt 4 cfg1.N = V8 m (outs m) c main_v41 :=
  (((dat1 (VB m) c).arrAt_in 4 rfl _).trans (A_eq1 (VB m) c 4)).trans ((V8_of m (outs m) c main_v41 (by decide)).trans (congrFun (V7_outs m c) _)).symm
theorem hF1_5 (c : Dev nD) : (dat1 (VB m) c).arrAt 5 cfg1.N = V8 m (outs m) c main_v42 :=
  (W8_arr m c 5).symm.trans (V8_v42 m (outs m) c).symm
set_option maxHeartbeats 1000000 in
theorem hF1 (c : Dev nD) (w : Fin cfg1.W) : (dat1 (VB m) c).arrAt w cfg1.N = V8 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
theorem hrest1 (c : Dev nD) : ∀ b, b ∉ Finset.univ.image (Pipeline.arrRef spec1) → V8 m (outs m) c b = V7 m (outs m) c b :=
  fun b hb => V8_of m (outs m) c b (by
    intro h
    simp only [List.mem_cons, List.mem_nil_iff, or_false] at h
    rcases h with rfl
    exact hb (Finset.mem_image.mpr ⟨5, Finset.mem_univ _, rfl⟩))

/-- The result array after the run is what region 1's write-backs fold to. -/
theorem V8_main_v42 (c : Dev nD) : V8 m (outs m) c main_v42 = (dat1 (VB m) c).arrAt 5 cfg1.N := (hF1 m c 5).symm

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

/-- The class invariant of region 0 from the generator register and the scoped rest, and back. -/
theorem hinA0 (c : Dev nD) (P : sProp 𝕄) : iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
theorem houtA0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V5 m c) ∗ E 0 c)
  post c := iprop(StableHlo.held (c : Thread nD τ) (Pipeline.ucRefs τ sig) (V6 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hinA0 c _).trans (hin0 (VA m) c)
  hout c := by
    rw [Pipeline.ownSems0_none]
    exact (hout0 (VA m) c).trans (houtA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V7 m (outs m) c) ∗ E 1 c)
  post c := iprop(StableHlo.held (c : Thread nD τ) (Pipeline.ucRefs τ sig) (V8 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    rw [V7_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => V8 m (outs m) c b) ((pdats m 1 c).arrAt · cfg1.N) (hF1 m c) (fun b hb => (hrest1 m c b hb).trans (congrFun (V7_outs m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of @main from memory `m` with zero counters terminates, nothing faulting, and every
    final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨.rfl, .rfl, .rfl, .rfl, .rfl, .rfl, .rfl, .rfl, by
      show iprop(StableHlo.held (c : Thread nD τ) (Pipeline.ucRefs τ sig) (V8 m (outs m) c) ∗ E 2 c) ⊢ _
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V8 m (outs m) c b)
    (hfin := fun c s' => by
      iintro ⟨Hh, HSI⟩
      unfold StableHlo.held
      imodintro
      iapply (pointsTo_read_all (Pipeline.ucRefs τ sig) (fun b => ((c : Thread nD τ).1, b)) (V8 m (outs m) c) s')
      isplitl [Hh] <;> iassumption)
    (hQ := fun _ h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (V8_main_arg0 m (outs m) c),
    (h c _ (mem_uc main_arg1 (by decide))).trans (V8_main_arg1 m (outs m) c),
    (h c _ (mem_uc main_arg2 (by decide))).trans (V8_main_arg2 m (outs m) c),
    (h c _ (mem_uc main_arg3 (by decide))).trans (V8_main_arg3 m (outs m) c),
    (h c _ (mem_uc main_arg4 (by decide))).trans (V8_main_arg4 m (outs m) c),
    (h c _ (mem_uc main_arg5 (by decide))).trans (V8_main_arg5 m (outs m) c),
    (h c _ (mem_uc main_arg6 (by decide))).trans (V8_main_arg6 m (outs m) c),
    (h c _ (mem_uc main_arg7 (by decide))).trans (V8_main_arg7 m (outs m) c),
    (h c _ (mem_uc main_arg8 (by decide))).trans (V8_main_arg8 m (outs m) c)⟩) (run_all m ρ)

/-- The run with the result named: the result array ends at what region 1's write-backs fold to, the arguments as launched. -/
theorem run_result : θ_run defs (onTc (τ := τ) (main (F := F))) ⟨m, fun _ => 0, ρ⟩ (fun r => ∀ c : Dev nD,
      r.2.mem ((c.tc : Thread nD τ).loc main_v42) = (dat1 (VB m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v42 (by decide))).trans (V8_main_v42 m c),
    (h c _ (mem_uc main_arg0 (by decide))).trans (V8_main_arg0 m (outs m) c),
    (h c _ (mem_uc main_arg1 (by decide))).trans (V8_main_arg1 m (outs m) c),
    (h c _ (mem_uc main_arg2 (by decide))).trans (V8_main_arg2 m (outs m) c),
    (h c _ (mem_uc main_arg3 (by decide))).trans (V8_main_arg3 m (outs m) c),
    (h c _ (mem_uc main_arg4 (by decide))).trans (V8_main_arg4 m (outs m) c),
    (h c _ (mem_uc main_arg5 (by decide))).trans (V8_main_arg5 m (outs m) c),
    (h c _ (mem_uc main_arg6 (by decide))).trans (V8_main_arg6 m (outs m) c),
    (h c _ (mem_uc main_arg7 (by decide))).trans (V8_main_arg7 m (outs m) c),
    (h c _ (mem_uc main_arg8 (by decide))).trans (V8_main_arg8 m (outs m) c)⟩) (run_all m ρ)

end Cert.KernelIdeal.Fr

end
-- ==== Proof.Spec.lean ====
/-
  The mathematics of the layer, stated once over the extended reals and importing no program.

  From the aggregated features `a` (the normalised neighbour sums, 50000 x 128) and the node features `x`, a node's
  pre-normalisation output is  y = relu (a W + b) + relu (x Wr + br).  Batch normalisation over the 50000 nodes then
  subtracts the column mean and scales by  rsqrt (variance + eps), times gamma, plus beta.  The two programs differ in
  the variance only: the kernel takes  E[y^2] - (E y)^2  from two running column sums, the reference takes
  E[(y - E y)^2].  Both are written here (`varK`, `varR`), with the normalisation `bn` over either.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- Arrays as functions of their index: nodes x features, features x features, features. -/
abbrev ArrND := (⟨2, ![50000, 128]⟩ : Shape).Idx → EReal
abbrev ArrDD := (⟨2, ![128, 128]⟩ : Shape).Idx → EReal
abbrev ArrD := (⟨1, ![128]⟩ : Shape).Idx → EReal

/-- The float words the programs spell: +0.0, 50000.0 and the batch-norm epsilon (the f32 nearest 1e-5). -/
abbrev zeroC : EReal := Ideal.ofBits .f32 0x00000000#32
abbrev nC : EReal := Ideal.ofBits .f32 0x47435000#32
abbrev epsC : EReal := Ideal.ofBits .f32 0x3727C5AC#32

/-- One affine layer at node `p`, feature `q`: the zero accumulator plus the row of `a` against the column of `w`, plus the bias. -/
def lin (a : ArrND) (w : ArrDD) (b : ArrD) (p : Fin 50000) (q : Fin 128) : EReal :=
  (zeroC + ∑ k : Fin 128, a (ix2 p k) * w (ix2 k q)) + b (ix1 q)

/-- The pre-normalisation output: the graph-convolution branch plus the residual branch, each through relu. -/
def Y (a x : ArrND) (w : ArrDD) (b : ArrD) (wr : ArrDD) (br : ArrD) (p : Fin 50000) (q : Fin 128) : EReal :=
  max (lin a w b p q) zeroC + max (lin x wr br p q) zeroC

/-- Column sum, column mean over the 50000 nodes. -/
def colSum (y : Fin 50000 → Fin 128 → EReal) (q : Fin 128) : EReal := ∑ p : Fin 50000, y p q
def mean (y : Fin 50000 → Fin 128 → EReal) (q : Fin 128) : EReal := Ideal.div (colSum y q) nC

/-- The kernel's variance: the mean of the squares less the square of the mean. -/
def varK (y : Fin 50000 → Fin 128 → EReal) (q : Fin 128) : EReal :=
  Ideal.div (∑ p : Fin 50000, y p q * y p q) nC - mean y q * mean y q

/-- The reference's variance: the mean of the squared deviations. -/
def varR (y : Fin 50000 → Fin 128 → EReal) (q : Fin 128) : EReal :=
  Ideal.div (∑ p : Fin 50000, (y p q - mean y q) * (y p q - mean y q)) nC

/-- Batch normalisation with a given column variance `v`. -/
def bn (y : Fin 50000 → Fin 128 → EReal) (v : Fin 128 → EReal) (g be : ArrD) (p : Fin 50000) (q : Fin 128) : EReal :=
  (y p q - mean y q) * Ideal.rsqrt (v q + epsC) * g (ix1 q) + be (ix1 q)

/-- The kernel's result and the reference's, as functions of the aggregated features and the arguments. -/
def outK (a x : ArrND) (w : ArrDD) (b : ArrD) (wr : ArrDD) (br g be : ArrD) (p : Fin 50000) (q : Fin 128) : EReal :=
  bn (Y a x w b wr br) (varK (Y a x w b wr br)) g be p q
def outR (a x : ArrND) (w : ArrDD) (b : ArrD) (wr : ArrDD) (br g be : ArrD) (p : Fin 50000) (q : Fin 128) : EReal :=
  bn (Y a x w b wr br) (varR (Y a x w b wr br)) g be p q

end Cert.Spec

end
-- ==== Proof.KValueHost.lean ====
/-
  The host stretches around the two kernel regions, read at an index over the extended reals: between the regions
  the column mean and variance formed from the two accumulated column sums and the reshaped scale and shift; before
  region 0 the arguments it reads unchanged and the two biases reshaped to one row.
-/
import proofs.«165666_j30210799960859_1_alg».proof.Proof.Gen.KernelIdeal.Regions
import proofs.«165666_j30210799960859_1_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe
open Idealize.ShloMosaic.ValueIdx
open Idealize.SL Idealize.SL.Sem

variable (m : (ℓ : Loc nD τ sig) → Buf (Elt Ideal) ℓ) (outs : Outs (F := Ideal))

/-! ## Reshapes between a row of 128 and a 1 x 128 array, read at an index -/

/-- A vector of 128 reshaped to 1 x 128, read at column `q`, is the vector at `q`. -/
theorem row_of_vec (x : S128.Idx → EReal) (q : Fin 128) :
    shapeCast S1x128 x shapeCasts_S128_S1x128 (ix2 0 q) = x (ix1 q) :=
  shapeCast_apply x shapeCasts_S128_S1x128 (ix2 0 q) (ix1 q)
    (by rw [Shape.rowMajor_val_one, Shape.rowMajor_val_two]; show q.val = 0 * 128 + q.val; omega)

/-- A 1 x 128 array reshaped to a vector of 128, read at `q`, is the array at column `q` of its one row. -/
theorem vec_of_row (x : S1x128.Idx → EReal) (q : Fin 128) :
    shapeCast S128 x shapeCasts_S1x128_S128 (ix1 q) = x (ix2 0 q) :=
  shapeCast_apply x shapeCasts_S1x128_S128 (ix1 q) (ix2 0 q)
    (by rw [Shape.rowMajor_val_one, Shape.rowMajor_val_two]; show 0 * 128 + q.val = q.val; omega)

/-- The splat of the word of 50000.0 over 128 entries reads that constant everywhere. -/
theorem splat_n (i : S128.Idx) :
    broadcastInDim S128 ![] bcast_S_S128 (constant (F := Ideal) S_ .f32 0x47435000#32) i = Cert.Spec.nC :=
  broadcastInDim_scalar_apply bcast_S_S128 _ i

/-! ## The host stretch between the two regions -/

/-- The column mean handed to region 1: the first accumulator's column over 50000. -/
theorem mid_v38 (c : Dev nD) (q : Fin 128) :
    V7 m outs c main_v38 (ix2 0 q) = Ideal.div (V6 m outs c main_v29_1 (ix2 0 q)) Cert.Spec.nC := by
  show StableHlo.after hostOps1 _ (Proc.devRef .tc main_v38) _ = _
  after_results
  refine (row_of_vec _ q).trans ?_
  refine (hostDivf_apply _ _ (ix1 q)).trans ?_
  exact congrArg₂ Ideal.div (vec_of_row _ q) (splat_n _)

/-- The column variance handed to region 1: the mean of the squares less the square of the mean. -/
theorem mid_v39 (c : Dev nD) (q : Fin 128) :
    V7 m outs c main_v39 (ix2 0 q) = Ideal.div (V6 m outs c main_v29_2 (ix2 0 q)) Cert.Spec.nC
      - Ideal.div (V6 m outs c main_v29_1 (ix2 0 q)) Cert.Spec.nC * Ideal.div (V6 m outs c main_v29_1 (ix2 0 q)) Cert.Spec.nC := by
  show StableHlo.after hostOps1 _ (Proc.devRef .tc main_v39) _ = _
  after_results
  refine (row_of_vec _ q).trans ?_
  refine (subf_apply _ _ (ix1 q)).trans ?_
  have hmean : ∀ X : S1x128.Idx → EReal,
      Host.divf (F := Ideal) (s := S128) (φ := .f32) (shapeCast S128 X shapeCasts_S1x128_S128)
        (broadcastInDim S128 ![] bcast_S_S128 (constant (F := Ideal) S_ .f32 0x47435000#32)) (ix1 q)
        = Ideal.div (X (ix2 0 q)) Cert.Spec.nC := fun X =>
    (hostDivf_apply _ _ (ix1 q)).trans (congrArg₂ Ideal.div (vec_of_row X q) (splat_n _))
  refine congrArg₂ (· - ·) (hmean _) ?_
  refine (mulf_apply _ _ (ix1 q)).trans ?_
  exact congrArg₂ (· * ·) (hmean _) (hmean _)

/-- The scale handed to region 1 is the launch's gamma, reshaped. -/
theorem mid_v40 (c : Dev nD) (q : Fin 128) :
    V7 m outs c main_v40 (ix2 0 q) = m ((c : Thread nD τ).loc main_arg7) (ix1 q) := by
  have e : V6 m outs c main_arg7 = m ((c : Thread nD τ).loc main_arg7) :=
    (V6_of m outs c main_arg7 (by decide)).trans <| (V5_of m c main_arg7 (by decide)).trans <| (V4_of m c main_arg7 (by decide)).trans <|
      (V3_of m c main_arg7 (by decide)).trans <| (V2_of m c main_arg7 (by decide)).trans <| (V1_of m c main_arg7 (by decide)).trans rfl
  show StableHlo.after hostOps1 _ (Proc.devRef .tc main_v40) _ = _
  after_results
  refine (row_of_vec _ q).trans ?_
  exact congrFun e (ix1 q)

/-- The shift handed to region 1 is the launch's beta, reshaped. -/
theorem mid_v41 (c : Dev nD) (q : Fin 128) :
    V7 m outs c main_v41 (ix2 0 q) = m ((c : Thread nD τ).loc main_arg8) (ix1 q) := by
  have e : V6 m outs c main_arg8 = m ((c : Thread nD τ).loc main_arg8) :=
    (V6_of m outs c main_arg8 (by decide)).trans <| (V5_of m c main_arg8 (by decide)).trans <| (V4_of m c main_arg8 (by decide)).trans <|
      (V3_of m c main_arg8 (by decide)).trans <| (V2_of m c main_arg8 (by decide)).trans <| (V1_of m c main_arg8 (by decide)).trans rfl
  show StableHlo.after hostOps1 _ (Proc.devRef .tc main_v41) _ = _
  after_results
  refine (row_of_vec _ q).trans ?_
  exact congrFun e (ix1 q)

/-- The stretch between the regions does not write region 0's block output. -/
theorem mid_v29_0 (c : Dev nD) : V7 m outs c main_v29_0 = V6 m outs c main_v29_0 :=
  V7_of m outs c main_v29_0 (by decide)

/-! ## The head: the host operations before region 0 -/

/-- No operation of the head writes an argument. -/
theorem head_arg0 (c : Dev nD) : V5 m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans <| (V1_of m c main_arg0 (by decide)).trans rfl
theorem head_arg3 (c : Dev nD) : V5 m c main_arg3 = m ((c : Thread nD τ).loc main_arg3) :=
  (V5_of m c main_arg3 (by decide)).trans <| (V4_of m c main_arg3 (by decide)).trans <| (V3_of m c main_arg3 (by decide)).trans <|
    (V2_of m c main_arg3 (by decide)).trans <| (V1_of m c main_arg3 (by decide)).trans rfl
theorem head_arg5 (c : Dev nD) : V5 m c main_arg5 = m ((c : Thread nD τ).loc main_arg5) :=
  (V5_of m c main_arg5 (by decide)).trans <| (V4_of m c main_arg5 (by decide)).trans <| (V3_of m c main_arg5 (by decide)).trans <|
    (V2_of m c main_arg5 (by decide)).trans <| (V1_of m c main_arg5 (by decide)).trans rfl

/-- The first bias as region 0 finds it: the launch's, reshaped to one row. -/
theorem head_v27 (c : Dev nD) (q : Fin 128) :
    V5 m c main_v27 (ix2 0 q) = m ((c : Thread nD τ).loc main_arg4) (ix1 q) := by
  have e : V4 m c main_arg4 = m ((c : Thread nD τ).loc main_arg4) :=
    (V4_of m c main_arg4 (by decide)).trans <| (V3_of m c main_arg4 (by decide)).trans <|
      (V2_of m c main_arg4 (by decide)).trans <| (V1_of m c main_arg4 (by decide)).trans rfl
  show StableHlo.after hostOps0_4 _ (Proc.devRef .tc main_v27) _ = _
  after_results
  refine (row_of_vec _ q).trans ?_
  exact congrFun e (ix1 q)

/-- The residual bias as region 0 finds it: the launch's, reshaped to one row. -/
theorem head_v28 (c : Dev nD) (q : Fin 128) :
    V5 m c main_v28 (ix2 0 q) = m ((c : Thread nD τ).loc main_arg6) (ix1 q) := by
  have e : V4 m c main_arg6 = m ((c : Thread nD τ).loc main_arg6) :=
    (V4_of m c main_arg6 (by decide)).trans <| (V3_of m c main_arg6 (by decide)).trans <|
      (V2_of m c main_arg6 (by decide)).trans <| (V1_of m c main_arg6 (by decide)).trans rfl
  show StableHlo.after hostOps0_4 _ (Proc.devRef .tc main_v28) _ = _
  after_results
  refine (row_of_vec _ q).trans ?_
  exact congrFun e (ix1 q)

end Cert.KernelIdeal.KV

end
-- ==== Proof.KPay0.lean ====
/-
  Region 0's payloads read at one index, at the ideal instance (every float an extended real, every operation exact,
  the format changes the identity): the 2000 x 128 block the body stores is, at row r and column q, the sum of the two
  relu'd affine layers there; the two running column accumulators advance by that block's column sum and by the column
  sum of its squares; the reset payloads are zero.
-/
import proofs.«165666_j30210799960859_1_alg».proof.Proof.Gen.KernelIdeal.Skeleton
import proofs.«165666_j30210799960859_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KP

open Cert.KernelIdeal Cert.KernelIdeal.Gen Idealize.ShloMosaic Idealize.ShloMosaic.ValueIdx
open scoped BigOperators

/-! ## The matmul's operand indices: rows times the contraction, the contraction times columns -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matmul onto the zero accumulator, at row r and column q: the zero word plus the row against the column. -/
theorem mm_apply (l : FVec Ideal S2000x128 .bf16) (rr : FVec Ideal S128x128 .bf16) (r : Fin 2000) (q : Fin 128) :
    matmul dot_S2000x128_S128x128_S2000x128_1_0_0_1_n_n none l rr (constant (F := Ideal) S2000x128 .f32 0x00000000#32) (ix2 r q)
      = Cert.Spec.zeroC + ∑ k : Fin 128, l (ix2 r k) * rr (ix2 k q) := by
  refine (Ideal.matmul_apply dot_S2000x128_S128x128_S2000x128_1_0_0_1_n_n none l rr _ (ix2 r q)).trans ?_
  show Cert.Spec.zeroC + _ = Cert.Spec.zeroC + _
  refine congrArg (Cert.Spec.zeroC + ·) ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The column sum of a 2000 x 128 block (the add reduction over its rows), at column q. -/
theorem colsum_apply (y : FVec Ideal S2000x128 .f32) (q : Fin 128) :
    multiReduction (F := Ideal) .add [0] S128 y 0x00000000#32 reduces_S2000x128_S128 (.inl rfl) rfl (ix1 q)
      = ∑ r : Fin 2000, y (ix2 r q) := by
  refine (Ideal.multiReduction_add_single y 0x00000000#32 reduces_S2000x128_S128 (.inl rfl) rfl (ix1 q)).trans ?_
  refine Finset.sum_congr rfl fun k _ => ?_
  refine congrArg y (funext fun a => Fin.ext ?_)
  match a with
  | ⟨0, _⟩ => rfl
  | ⟨1, _⟩ => rfl

/-- The stored block at row r, column q: the two affine layers there, each through relu, added. -/
theorem pay5_apply (a x : Vec Ideal S2000x128 .f32) (w wr : Vec Ideal S128x128 .f32) (b br : Vec Ideal S1x128 .f32) (r : Fin 2000) (q : Fin 128) :
    k0_pay5 (F := Ideal) a x w wr b br (ix2 r q)
      = max ((Cert.Spec.zeroC + ∑ k : Fin 128, a (ix2 r k) * w (ix2 k q)) + b (ix2 0 q)) Cert.Spec.zeroC
        + max ((Cert.Spec.zeroC + ∑ k : Fin 128, x (ix2 r k) * wr (ix2 k q)) + br (ix2 0 q)) Cert.Spec.zeroC := by
  unfold k0_pay5
  simp only [shapeCast_self]
  show max (matmul dot_S2000x128_S128x128_S2000x128_1_0_0_1_n_n none (truncf .bf16 a bitsLt_bf16_f32) (truncf .bf16 w bitsLt_bf16_f32) (constant (F := Ideal) S2000x128 .f32 0x00000000#32) (ix2 r q)
        + broadcastTo S2000x128 b broadcasts_S1x128_S2000x128 (ix2 r q)) Cert.Spec.zeroC
      + max (matmul dot_S2000x128_S128x128_S2000x128_1_0_0_1_n_n none (truncf .bf16 x bitsLt_bf16_f32) (truncf .bf16 wr bitsLt_bf16_f32) (constant (F := Ideal) S2000x128 .f32 0x00000000#32) (ix2 r q)
        + broadcastTo S2000x128 br broadcasts_S1x128_S2000x128 (ix2 r q)) Cert.Spec.zeroC = _
  rw [mm_apply, mm_apply, broadcastTo_1b_ab_apply, broadcastTo_1b_ab_apply]
  rfl

/-- The first accumulator's new value at column q: its old value plus the block's column sum. -/
theorem pay16_apply (a x : Vec Ideal S2000x128 .f32) (w wr : Vec Ideal S128x128 .f32) (b br : Vec Ideal S1x128 .f32) (s : Vec Ideal S1x128 .f32) (q : Fin 128) :
    k0_pay1 (F := Ideal) (k0_pay6 a x w wr b br s) (ix2 0 q) = s (ix2 0 q) + ∑ r : Fin 2000, k0_pay5 (F := Ideal) a x w wr b br (ix2 r q) := by
  unfold k0_pay1 k0_pay6
  refine (congrFun (shapeCast_self _ _) _).trans ?_
  refine congrArg (s (ix2 0 q) + ·) ?_
  refine (shapeCast_a_1a_apply _ _ 0 q).trans ?_
  exact colsum_apply _ q

/-- The second accumulator's new value at column q: its old value plus the column sum of the block's squares. -/
theorem pay2_apply (y : FVec Ideal S2000x128 .f32) (s : Vec Ideal S1x128 .f32) (q : Fin 128) :
    k0_pay2 (F := Ideal) y s (ix2 0 q) = s (ix2 0 q) + ∑ r : Fin 2000, y (ix2 r q) * y (ix2 r q) := by
  unfold k0_pay2
  refine (congrFun (shapeCast_self _ _) _).trans ?_
  refine congrArg (s (ix2 0 q) + ·) ?_
  refine (shapeCast_a_1a_apply _ _ 0 q).trans ?_
  exact colsum_apply (mulf y y) q

/-- The accumulators' reset values are zero. -/
theorem pay3_apply (q : Fin 128) : k0_pay3 (F := Ideal) (ix2 0 q) = 0 := by
  unfold k0_pay3
  refine (congrFun (shapeCast_self _ _) _).trans ?_
  exact Ideal.ofBits_zero_f32
theorem pay4_apply (q : Fin 128) : k0_pay4 (F := Ideal) (ix2 0 q) = 0 := by
  unfold k0_pay4
  refine (congrFun (shapeCast_self _ _) _).trans ?_
  exact Ideal.ofBits_zero_f32

end Cert.KernelIdeal.KP

end
-- ==== Proof.KValue0a.lean ====
/-
  Region 0, what each case of the kernel body leaves, as values of the body's payloads.

  The body computes the block  y = relu (a W + b) + relu (x Wr + br)  of its 2000 rows, stores it, and adds its column
  sums and the column sums of its squares into two accumulators; the first grid point zeroes the accumulators first,
  the last one copies them out. Read back, each buffer's final store covers it whole, so what a case leaves in a
  buffer is that store's payload over the blocks the case was run on, an accumulator's over what it held before
  (the zero vector at the first point).
-/
import proofs.«165666_j30210799960859_1_alg».proof.Proof.FrRunC
import Idealize.ShloMosaic.Lib.Pipeline.Value
import Idealize.ShloMosaic.Lib.ValueIdx

set_option maxRecDepth 16384

noncomputable section

namespace Cert.KernelIdeal.KV0

open Cert.KernelIdeal Cert.KernelIdeal.Gen Cert.KernelIdeal.Fr
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access, as the constant function. -/
theorem hz : (![0, 0] : Fin 2 → Nat) = fun _ => 0 := funext fun a => by fin_cases a <;> rfl

/-! ## The first point: the accumulators start from the zero vectors the point itself stores -/

/-- The block output after the first point: the block of `y`. -/
theorem canon_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    View.canon (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 = k0_pay5 x0 x1 x2 x4 x3 x5 := by
  unfold kernelRun0_A
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The sum accumulator after the first point: the zero vector plus the block's column sums. -/
theorem canon_A_S0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    View.canon (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 = k0_pay1 (k0_pay6 x0 x1 x2 x4 x3 x5 (k0_pay3 (F := F))) := by
  unfold kernelRun0_A
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The sum-of-squares accumulator after the first point: the zero vector plus the column sums of the block's squares. -/
theorem canon_A_S1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    View.canon (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 = k0_pay2 (k0_pay5 x0 x1 x2 x4 x3 x5) (k0_pay4 (F := F)) := by
  unfold kernelRun0_A
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-! ## A middle point: the accumulators carry what the point before left -/

/-- The block output after a middle point: the block of `y`. -/
theorem canon_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k0_pay5 x0 x1 x2 x4 x3 x5 := by
  unfold kernelRun0_B
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The sum accumulator after a middle point: what it held plus the block's column sums. -/
theorem canon_B_S0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k0_pay1 (k0_pay6 x0 x1 x2 x4 x3 x5 xs0) := by
  unfold kernelRun0_B
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The sum-of-squares accumulator after a middle point: what it held plus the column sums of the block's squares. -/
theorem canon_B_S1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k0_pay2 (k0_pay5 x0 x1 x2 x4 x3 x5) xs1 := by
  unfold kernelRun0_B
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-! ## The last point: as a middle point, and the two accumulators are copied to their outputs -/

/-- The block output after the last point: the block of `y`. -/
theorem canon_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 = k0_pay5 x0 x1 x2 x4 x3 x5 := by
  unfold kernelRun0_C
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The column-sum output after the last point: the sum accumulator's new contents. -/
theorem canon_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 = k0_pay1 (k0_pay6 x0 x1 x2 x4 x3 x5 xs0) := by
  unfold kernelRun0_C
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The sum-of-squares output after the last point: the second accumulator's new contents. -/
theorem canon_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 = k0_pay2 (k0_pay5 x0 x1 x2 x4 x3 x5) xs1 := by
  unfold kernelRun0_C
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The sum accumulator after the last point. -/
theorem canon_C_S0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 = k0_pay1 (k0_pay6 x0 x1 x2 x4 x3 x5 xs0) := by
  unfold kernelRun0_C
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

/-- The sum-of-squares accumulator after the last point. -/
theorem canon_C_S1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    View.canon (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 = k0_pay2 (k0_pay5 x0 x1 x2 x4 x3 x5) xs1 := by
  unfold kernelRun0_C
  dsimp only
  sl_unfold_words
  rw [View.canon_cons_unit_zero hz]
  simp only [View.readAt_eq_ld, harg1.read_unread, harg2.read_unread, harg3.read_unread, harg4.read_unread, harg5.read_unread,
    harg6.read_unread, harg10.read_unread, harg11.read_unread, View.ld_unit_zero (S := S2000x128) hz,
    View.ld_unit_zero (S := S128x128) hz, View.ld_unit_zero (S := S1x128) hz, View.readCov_unit_zero (S := S1x128) _ hz]

end Cert.KernelIdeal.KV0

end
-- ==== Proof.KValue0.lean ====
/-
  Region 0's value at the ideal instance: what its three output arrays hold after the 25 grid points.

  With  y = relu (a W + b) + relu (x Wr + br)  the layer's pre-normalisation output on the arrays the region reads
  (50000 rows, 128 columns), point t computes the block of rows 2000 t .. 2000 t + 1999 of y and writes it back, and
  adds the block's column sums, and the column sums of its squares, to two accumulators that start from zero at the
  first point; the last point copies the accumulators to the two small outputs. So the block output ends at y, and
  the two small outputs at the column sums of y and of y * y over all 50000 rows.
-/
import proofs.«165666_j30210799960859_1_alg».proof.Proof.FrRegion0
import proofs.«165666_j30210799960859_1_alg».proof.Proof.Spec
import proofs.«165666_j30210799960859_1_alg».proof.Proof.KPay0
import proofs.«165666_j30210799960859_1_alg».proof.Proof.KValue0a
import Idealize.ShloMosaic.Lib.Pipeline.Value
import Idealize.ShloMosaic.Lib.ValueIdx

set_option maxRecDepth 16384

noncomputable section

namespace Cert.KernelIdeal.KV0

open Cert.KernelIdeal Cert.KernelIdeal.Gen Cert.KernelIdeal.Fr
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-! ## What each case leaves, as payloads (any float instance) -/

section Pieces
variable {F : FTy → Type} [FloatOps F]

theorem out_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x4 x3 x5 := by
  unfold out0_A_6; rw [View.read_writes_junk_eq_canon]; exact canon_A_6 c i arg1 harg1 arg2 harg2 arg3 harg3 arg4 harg4 arg5 harg5 arg6 harg6 arg7 harg7 arg8 harg8 arg9 harg9 arg10 harg10 arg11 harg11 hc0 hc1 x0 x1 x2 x3 x4 x5

theorem sout_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay6 x0 x1 x2 x4 x3 x5 (k0_pay3 (F := F))) := by
  unfold sout0_A_0; rw [View.read_writes_junk_eq_canon]; exact canon_A_S0 c i arg1 harg1 arg2 harg2 arg3 harg3 arg4 harg4 arg5 harg5 arg6 harg6 arg7 harg7 arg8 harg8 arg9 harg9 arg10 harg10 arg11 harg11 hc0 hc1 x0 x1 x2 x3 x4 x5

theorem sout_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay2 (k0_pay5 x0 x1 x2 x4 x3 x5) (k0_pay4 (F := F)) := by
  unfold sout0_A_1; rw [View.read_writes_junk_eq_canon]; exact canon_A_S1 c i arg1 harg1 arg2 harg2 arg3 harg3 arg4 harg4 arg5 harg5 arg6 harg6 arg7 harg7 arg8 harg8 arg9 harg9 arg10 harg10 arg11 harg11 hc0 hc1 x0 x1 x2 x3 x4 x5

theorem out_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x4 x3 x5 := by
  unfold out0_B_6; rw [View.read_writes_junk_eq_canon]; exact canon_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem sout_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5 xs0) := by
  unfold sout0_B_0; rw [View.read_writes_junk_eq_canon]; exact canon_B_S0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem sout_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x4 x3 x5) xs1 := by
  unfold sout0_B_1; rw [View.read_writes_junk_eq_canon]; exact canon_B_S1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem out_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x4 x3 x5 := by
  unfold out0_C_6; rw [View.read_writes_junk_eq_canon]; exact canon_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem out_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5 xs0) := by
  unfold out0_C_7; rw [View.read_writes_junk_eq_canon]; exact canon_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem out_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x4 x3 x5) xs1 := by
  unfold out0_C_8; rw [View.read_writes_junk_eq_canon]; exact canon_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem sout_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5 xs0) := by
  unfold sout0_C_0; rw [View.read_writes_junk_eq_canon]; exact canon_C_S0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

theorem sout_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x4 x3 x5) xs1 := by
  unfold sout0_C_1; rw [View.read_writes_junk_eq_canon]; exact canon_C_S1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1

end Pieces

/-! ## Sums over the rows, block by block -/

/-- The sum of `f` over the rows of the first `n` blocks of 2000 rows. -/
def colAcc (f : ℕ → EReal) (n : ℕ) : EReal := ∑ t' ∈ Finset.range n, ∑ r : Fin 2000, f (2000 * t' + r.val)

theorem colAcc_zero (f : ℕ → EReal) : colAcc f 0 = 0 := Finset.sum_range_zero _
theorem colAcc_succ (f : ℕ → EReal) (n : ℕ) : colAcc f (n + 1) = colAcc f n + ∑ r : Fin 2000, f (2000 * n + r.val) :=
  Finset.sum_range_succ _ _

/-- `m` blocks of `n` rows are the `m * n` rows. -/
theorem sum_blocks (f : ℕ → EReal) (m n N : ℕ) (h : m * n = N) :
    ∑ t' ∈ Finset.range m, ∑ r : Fin n, f (n * t' + r.val) = ∑ p : Fin N, f p.val := by
  subst h
  rw [Finset.sum_range (fun t' => ∑ r : Fin n, f (n * t' + r.val))]
  rw [← Fintype.sum_prod_type' (fun (t' : Fin m) (r : Fin n) => f (n * t'.val + r.val))]
  rw [← Equiv.sum_comp (finProdFinEquiv (m := m) (n := n)) (fun p : Fin (m * n) => f p.val)]
  refine Finset.sum_congr rfl fun x _ => ?_
  refine congrArg f ?_
  show n * x.1.val + x.2.val = (finProdFinEquiv x).val
  rw [finProdFinEquiv_apply_val]; omega

/-- All 25 blocks: the sum over the 50000 rows. -/
theorem colAcc_full (f : ℕ → EReal) : colAcc f 25 = ∑ p : Fin 50000, f p.val := sum_blocks f 25 2000 50000 rfl

section Region0
variable (V : (c : Dev nD) → (b : Ref sig .tc) → Buf (Elt Ideal) ((c : Thread nD τ).loc b)) (c : Dev nD)

/-! ## The arrays region 0 reads and their blocks, by their literal types -/

abbrev aArr : Vec Ideal S50000x128 .f32 := V c main_v26
abbrev xArr : Vec Ideal S50000x128 .f32 := V c main_arg0
abbrev wArr : Vec Ideal S128x128 .f32 := V c main_arg3
abbrev bArr : Vec Ideal S1x128 .f32 := V c main_v27
abbrev wrArr : Vec Ideal S128x128 .f32 := V c main_arg5
abbrev brArr : Vec Ideal S1x128 .f32 := V c main_v28
abbrev aBlk (t : Fin cfg0.N) : Vec Ideal S2000x128 .f32 := iblk0 V c 0 t
abbrev xBlk (t : Fin cfg0.N) : Vec Ideal S2000x128 .f32 := iblk0 V c 1 t
abbrev wBlk (t : Fin cfg0.N) : Vec Ideal S128x128 .f32 := iblk0 V c 2 t
abbrev bBlk (t : Fin cfg0.N) : Vec Ideal S1x128 .f32 := iblk0 V c 3 t
abbrev wrBlk (t : Fin cfg0.N) : Vec Ideal S128x128 .f32 := iblk0 V c 4 t
abbrev brBlk (t : Fin cfg0.N) : Vec Ideal S1x128 .f32 := iblk0 V c 5 t

/-- Row `r` of block `t` is row `2000 t + r` of the array. -/
def row (t : Fin cfg0.N) (r : Fin 2000) : Fin 50000 :=
  ⟨2000 * t.val + r.val, by have h : t.val < 25 := lt_of_lt_of_eq t.isLt (show cfg0.N = 25 from N_0); have := r.isLt; omega⟩

/-- The windows' index maps over the grid: the two row-blocked inputs and the block output move with the point, the
    other windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem aBlk_apply (t : Fin cfg0.N) (r : Fin 2000) (k : Fin 128) : aBlk V c t (ix2 r k) = aArr V c (ix2 (row t r) k) := by
  show V c main_v26 (((cfg0.win 0).blk t).view.emb (ix2 r k)) = V c main_v26 (ix2 (row t r) k)
  refine congrArg (V c main_v26) (funext fun a => Fin.ext ?_)
  match a with
  | ⟨0, _⟩ => show win0_0.index t (0 : Fin 2) * 2000 + 1 * r.val = 2000 * t.val + r.val; rw [(idx_facts t).1]; omega
  | ⟨1, _⟩ => show win0_0.index t (1 : Fin 2) * 128 + 1 * k.val = k.val; rw [(idx_facts t).2.1]; omega

theorem xBlk_apply (t : Fin cfg0.N) (r : Fin 2000) (k : Fin 128) : xBlk V c t (ix2 r k) = xArr V c (ix2 (row t r) k) := by
  show V c main_arg0 (((cfg0.win 1).blk t).view.emb (ix2 r k)) = V c main_arg0 (ix2 (row t r) k)
  refine congrArg (V c main_arg0) (funext fun a => Fin.ext ?_)
  match a with
  | ⟨0, _⟩ => show win0_1.index t (0 : Fin 2) * 2000 + 1 * r.val = 2000 * t.val + r.val; rw [(idx_facts t).2.2.1]; omega
  | ⟨1, _⟩ => show win0_1.index t (1 : Fin 2) * 128 + 1 * k.val = k.val; rw [(idx_facts t).2.2.2.1]; omega

theorem wBlk_apply (t : Fin cfg0.N) (k : Fin 128) (q : Fin 128) : wBlk V c t (ix2 k q) = wArr V c (ix2 k q) := by
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; rw [(idx_facts t).2.2.2.2.1]; omega
  | ⟨1, _⟩ => show win0_2.index t (1 : Fin 2) * 128 + 1 * q.val = q.val; rw [(idx_facts t).2.2.2.2.2.1]; omega

theorem bBlk_apply (t : Fin cfg0.N) (q : Fin 128) : bBlk V c t (ix2 0 q) = bArr V c (ix2 0 q) := by
  show V c main_v27 (((cfg0.win 3).blk t).view.emb (ix2 0 q)) = V c main_v27 (ix2 0 q)
  refine congrArg (V c main_v27) (funext fun a => Fin.ext ?_)
  match a with
  | ⟨0, _⟩ => show win0_3.index t (0 : Fin 2) * 1 + 1 * 0 = 0; rw [(idx_facts t).2.2.2.2.2.2.1]
  | ⟨1, _⟩ => show win0_3.index t (1 : Fin 2) * 128 + 1 * q.val = q.val; rw [(idx_facts t).2.2.2.2.2.2.2.1]; omega

theorem wrBlk_apply (t : Fin cfg0.N) (k : Fin 128) (q : Fin 128) : wrBlk V c t (ix2 k q) = wrArr V c (ix2 k q) := by
  show V c main_arg5 (((cfg0.win 4).blk t).view.emb (ix2 k q)) = V c main_arg5 (ix2 k q)
  refine congrArg (V c main_arg5) (funext fun a => Fin.ext ?_)
  match a with
  | ⟨0, _⟩ => show win0_4.index t (0 : Fin 2) * 128 + 1 * k.val = k.val; rw [(idx_facts t).2.2.2.2.2.2.2.2.1]; omega
  | ⟨1, _⟩ => show win0_4.index t (1 : Fin 2) * 128 + 1 * q.val = q.val; rw [(idx_facts t).2.2.2.2.2.2.2.2.2.1]; omega

theorem brBlk_apply (t : Fin cfg0.N) (q : Fin 128) : brBlk V c t (ix2 0 q) = brArr V c (ix2 0 q) := by
  show V c main_v28 (((cfg0.win 5).blk t).view.emb (ix2 0 q)) = V c main_v28 (ix2 0 q)
  refine congrArg (V c main_v28) (funext fun a => Fin.ext ?_)
  match a with
  | ⟨0, _⟩ => show win0_5.index t (0 : Fin 2) * 1 + 1 * 0 = 0; rw [(idx_facts t).2.2.2.2.2.2.2.2.2.2.1]
  | ⟨1, _⟩ => show win0_5.index t (1 : Fin 2) * 128 + 1 * q.val = q.val; rw [(idx_facts t).2.2.2.2.2.2.2.2.2.2.2.1]; omega

/-! ## The layer's output, its blocks, its rows by number -/

/-- The pre-normalisation output  y  on the arrays region 0 reads. -/
abbrev yOf : Fin 50000 → Fin 128 → EReal :=
  Cert.Spec.Y (V c main_v26) (V c main_arg0) (V c main_arg3) (fun i => V c main_v27 (ix2 0 (i 0))) (V c main_arg5) (fun i => V c main_v28 (ix2 0 (i 0)))

/-- The block the body stores at point `t`: its payload over the point's six input blocks. -/
abbrev yBlk (t : Fin cfg0.N) : Vec Ideal S2000x128 .f32 :=
  k0_pay5 (F := Ideal) (aBlk V c t) (xBlk V c t) (wBlk V c t) (wrBlk V c t) (bBlk V c t) (brBlk V c t)

/-- It is rows  2000 t .. 2000 t + 1999  of  y. -/
theorem yBlk_apply (t : Fin cfg0.N) (r : Fin 2000) (q : Fin 128) : yBlk V c t (ix2 r q) = yOf V c (row t r) q := by
  refine (KP.pay5_apply (aBlk V c t) (xBlk V c t) (wBlk V c t) (wrBlk V c t) (bBlk V c t) (brBlk V c t) r q).trans ?_
  simp only [aBlk_apply, xBlk_apply, wBlk_apply, bBlk_apply, wrBlk_apply, brBlk_apply]
  rfl

/-- Row number `p` of  y  (zero past the last row, which no sum below reaches). -/
def yRow (p : ℕ) (q : Fin 128) : EReal := if h : p < 50000 then yOf V c ⟨p, h⟩ q else 0

theorem yRow_row (t : Fin cfg0.N) (r : Fin 2000) (q : Fin 128) : yRow V c (2000 * t.val + r.val) q = yOf V c (row t r) q :=
  dif_pos (row t r).isLt

theorem yRow_fin (p : Fin 50000) (q : Fin 128) : yRow V c p.val q = yOf V c p q := dif_pos p.isLt

/-! ## What the outputs and the accumulators hold after each point, as payloads -/

/-- The point before `t` (at the first point: the point itself). -/
local notation "prev⟪" t "⟫" => outsAt0 V c (Fin.val t - 1) (Nat.lt_of_le_of_lt (Nat.sub_le _ _) (Fin.isLt t))

/-- After every point the block output's staging buffer holds the point's block of  y. -/
theorem out6_eq (t : Fin cfg0.N) : (outsAt0 V c t.val t.isLt).1 = yBlk V c t := by
  by_cases h0 : t.val % 25 = 0
  · have h1 : ¬t.val % 25 = 24 := by omega
    rw [outsAt0_A V c t h0 h1]; dsimp only; rw [out_A_6]
  · by_cases h1 : t.val % 25 = 24
    · rw [outsAt0_C V c t h0 h1]; dsimp only; rw [out_C_6]
    · rw [outsAt0_B V c t h0 h1]; dsimp only; rw [out_B_6]

/-- The sum accumulator after the first point: from the zero vector. -/
theorem s0_first (t : Fin cfg0.N) (h0 : t.val % 25 = 0) :
    (outsAt0 V c t.val t.isLt).2.2.2.1 = k0_pay1 (F := Ideal) (k0_pay6 (aBlk V c t) (xBlk V c t) (wBlk V c t) (wrBlk V c t) (bBlk V c t) (brBlk V c t) (k0_pay3 (F := Ideal))) := by
  have h1 : ¬t.val % 25 = 24 := by omega
  rw [outsAt0_A V c t h0 h1]; dsimp only; rw [sout_A_0]

/-- The sum accumulator after a later point: from what the point before left. -/
theorem s0_next (t : Fin cfg0.N) (h0 : ¬t.val % 25 = 0) :
    (outsAt0 V c t.val t.isLt).2.2.2.1 = k0_pay1 (F := Ideal) (k0_pay6 (aBlk V c t) (xBlk V c t) (wBlk V c t) (wrBlk V c t) (bBlk V c t) (brBlk V c t) (prev⟪t⟫).2.2.2.1) := by
  by_cases h1 : t.val % 25 = 24
  · rw [outsAt0_C V c t h0 h1]; dsimp only; rw [sout_C_0]
  · rw [outsAt0_B V c t h0 h1]; dsimp only; rw [sout_B_0]

/-- The sum-of-squares accumulator after the first point: from the zero vector. -/
theorem s1_first (t : Fin cfg0.N) (h0 : t.val % 25 = 0) :
    (outsAt0 V c t.val t.isLt).2.2.2.2 = k0_pay2 (F := Ideal) (yBlk V c t) (k0_pay4 (F := Ideal)) := by
  have h1 : ¬t.val % 25 = 24 := by omega
  rw [outsAt0_A V c t h0 h1]; dsimp only; rw [sout_A_1]

/-- The sum-of-squares accumulator after a later point: from what the point before left. -/
theorem s1_next (t : Fin cfg0.N) (h0 : ¬t.val % 25 = 0) :
    (outsAt0 V c t.val t.isLt).2.2.2.2 = k0_pay2 (F := Ideal) (yBlk V c t) (prev⟪t⟫).2.2.2.2 := by
  by_cases h1 : t.val % 25 = 24
  · rw [outsAt0_C V c t h0 h1]; dsimp only; rw [sout_C_1]
  · rw [outsAt0_B V c t h0 h1]; dsimp only; rw [sout_B_1]

/-- At the last point the two small outputs' staging buffers hold the accumulators' new contents. -/
theorem o7_last (t : Fin cfg0.N) (h1 : t.val % 25 = 24) :
    (outsAt0 V c t.val t.isLt).2.1 = (outsAt0 V c t.val t.isLt).2.2.2.1 := by
  have h0 : ¬t.val % 25 = 0 := by omega
  rw [outsAt0_C V c t h0 h1]; dsimp only; rw [out_C_7, sout_C_0]
theorem o8_last (t : Fin cfg0.N) (h1 : t.val % 25 = 24) :
    (outsAt0 V c t.val t.isLt).2.2.1 = (outsAt0 V c t.val t.isLt).2.2.2.2 := by
  have h0 : ¬t.val % 25 = 0 := by omega
  rw [outsAt0_C V c t h0 h1]; dsimp only; rw [out_C_8, sout_C_1]

/-! ## The accumulators, column by column: the running sums over the rows so far -/

/-- A block's column sum is the sum of  y  over the block's rows. -/
theorem blk_sum (t : Fin cfg0.N) (q : Fin 128) :
    ∑ r : Fin 2000, yBlk V c t (ix2 r q) = ∑ r : Fin 2000, yRow V c (2000 * t.val + r.val) q :=
  Finset.sum_congr rfl fun r _ => (yBlk_apply V c t r q).trans (yRow_row V c t r q).symm
theorem blk_sumsq (t : Fin cfg0.N) (q : Fin 128) :
    ∑ r : Fin 2000, yBlk V c t (ix2 r q) * yBlk V c t (ix2 r q)
      = ∑ r : Fin 2000, yRow V c (2000 * t.val + r.val) q * yRow V c (2000 * t.val + r.val) q :=
  Finset.sum_congr rfl fun r _ => by rw [yBlk_apply V c t r q, yRow_row V c t r q]

/-- After point `n` the sum accumulator holds, in column `q`, the sum of  y  over the rows of blocks 0 .. n. -/
theorem s0_apply : ∀ (n : ℕ) (hn : n < cfg0.N) (q : Fin 128),
    (outsAt0 V c n hn).2.2.2.1 (ix2 0 q) = colAcc (fun p => yRow V c p q) (n + 1)
  | 0, hn, q => by
    rw [s0_first V c ⟨0, hn⟩ (Nat.zero_mod _)]
    refine (KP.pay16_apply (aBlk V c ⟨0, hn⟩) (xBlk V c ⟨0, hn⟩) (wBlk V c ⟨0, hn⟩) (wrBlk V c ⟨0, hn⟩) (bBlk V c ⟨0, hn⟩) (brBlk V c ⟨0, hn⟩) (k0_pay3 (F := Ideal)) q).trans ?_
    rw [KP.pay3_apply, zero_add, colAcc_succ, colAcc_zero, zero_add]
    exact blk_sum V c ⟨0, hn⟩ q
  | n + 1, hn, q => by
    have hN : n + 1 < 25 := lt_of_lt_of_eq hn (show cfg0.N = 25 from N_0)
    rw [s0_next V c ⟨n + 1, hn⟩ (by dsimp only; omega)]
    refine (KP.pay16_apply (aBlk V c ⟨n + 1, hn⟩) (xBlk V c ⟨n + 1, hn⟩) (wBlk V c ⟨n + 1, hn⟩) (wrBlk V c ⟨n + 1, hn⟩) (bBlk V c ⟨n + 1, hn⟩) (brBlk V c ⟨n + 1, hn⟩) _ q).trans ?_
    rw [colAcc_succ (fun p => yRow V c p q) (n + 1)]
    refine congrArg₂ (· + ·) ?_ (blk_sum V c ⟨n + 1, hn⟩ q)
    exact s0_apply n (Nat.lt_of_succ_lt hn) q

/-- After point `n` the second accumulator holds, in column `q`, the sum of  y * y  over the rows of blocks 0 .. n. -/
theorem s1_apply : ∀ (n : ℕ) (hn : n < cfg0.N) (q : Fin 128),
    (outsAt0 V c n hn).2.2.2.2 (ix2 0 q) = colAcc (fun p => yRow V c p q * yRow V c p q) (n + 1)
  | 0, hn, q => by
    rw [s1_first V c ⟨0, hn⟩ (Nat.zero_mod _)]
    refine (KP.pay2_apply (yBlk V c ⟨0, hn⟩) (k0_pay4 (F := Ideal)) q).trans ?_
    rw [KP.pay4_apply, zero_add, colAcc_succ, colAcc_zero, zero_add]
    exact blk_sumsq V c ⟨0, hn⟩ q
  | n + 1, hn, q => by
    have hN : n + 1 < 25 := lt_of_lt_of_eq hn (show cfg0.N = 25 from N_0)
    rw [s1_next V c ⟨n + 1, hn⟩ (by dsimp only; omega)]
    refine (KP.pay2_apply (yBlk V c ⟨n + 1, hn⟩) _ q).trans ?_
    rw [colAcc_succ (fun p => yRow V c p q * yRow V c p q) (n + 1)]
    refine congrArg₂ (· + ·) ?_ (blk_sumsq V c ⟨n + 1, hn⟩ q)
    exact s1_apply n (Nat.lt_of_succ_lt hn) q

/-! ## The three output arrays after the run -/

/-- The closed forms: the block output at  y, the two small outputs at the column sums of  y  and of  y * y. -/
abbrev G6 : Vec Ideal S50000x128 .f32 := fun i => yOf V c (i 0) (i 1)
@[irreducible] def G7 : Vec Ideal S1x128 .f32 := fun i => ∑ p : Fin 50000, yOf V c p (i 1)
@[irreducible] def G8 : Vec Ideal S1x128 .f32 := fun i => ∑ p : Fin 50000, yOf V c p (i 1) * yOf V c p (i 1)

/-- What point `t` writes back to the block output is block `t` of  y. -/
theorem flushed6_eq (t : Fin cfg0.N) :
    (dat0 V c).flushed 6 t = ((cfg0.win 6).blk t).view.read (Elt Ideal) (G6 V c) := by
  obtain ⟨e00, e01, e10, e11, e20, e21, e30, e31, e40, e41, e50, e51, e60, e61, e70, e71, e80, e81⟩ := idx_facts t
  show (cfg0.win 6).cut (grid0.coords t) ((dat0 V c).after 6 t) = _
  rw [after0_6, out6_eq]
  funext j
  obtain ⟨r, q, rfl⟩ : ∃ (r : Fin 2000) (q : Fin 128), j = ix2 r q := ⟨j 0, j 1, eq_ix2 j⟩
  show yBlk V c t (ix2 r q) = yOf V c ((((cfg0.win 6).blk t).view.emb (ix2 r q)) 0) ((((cfg0.win 6).blk t).view.emb (ix2 r q)) 1)
  rw [yBlk_apply]
  refine congrArg₂ (yOf V c) (Fin.ext ?_) (Fin.ext ?_)
  · show 2000 * t.val + r.val = win0_6.index t (0 : Fin 2) * 2000 + 1 * r.val; rw [e60]; omega
  · show q.val = win0_6.index t (1 : Fin 2) * 128 + 1 * q.val; rw [e61]; omega

/-- An index of the block output's array is in point `t`'s block iff each coordinate is in the block's range on its axis. -/
theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v29_0).slice (win0_6.rect t)).set ↔ _
  rw [View.set_slice_whole, Rect.mem_set_unit]
  exact Iff.rfl

/-- Row `p` is in the block of point  p / 2000: the 25 blocks cover the array. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [show cfg0.N = 25 from N_0]; omega⟩, rfl⟩
  refine ⟨t, flush0_6 t, ?_⟩
  rw [mem_blk6]
  obtain ⟨e00, e01, e10, e11, e20, e21, e30, e31, e40, e41, e50, e51, e60, e61, e70, e71, e80, e81⟩ := idx_facts t
  intro a
  match a with
  | ⟨0, _⟩ => show win0_6.index t (0 : Fin 2) * 2000 ≤ (i 0).val ∧ (i 0).val < win0_6.index t (0 : Fin 2) * 2000 + 2000; rw [e60, ht]; omega
  | ⟨1, _⟩ => show win0_6.index t (1 : Fin 2) * 128 ≤ (i 1).val ∧ (i 1).val < win0_6.index t (1 : Fin 2) * 128 + 128; rw [e61]; omega

/-- The block output's array after the run. -/
theorem final6 : (dat0 V c).arrAt 6 cfg0.N = G6 V c :=
  (dat0 V c).arrAt_eq_of_cover 6 (G6 V c) (fun t _ => flushed6_eq V c t) (cover6)

/-- What the last point writes back to output 7 is the whole of its closed form (the one block is the array). -/
theorem flushed7_eq (t : Fin cfg0.N) (hf : (cfg0.win 7).flush t = true) :
    (dat0 V c).flushed 7 t = ((cfg0.win 7).blk t).view.read (Elt Ideal) (G7 V c) := by
  have h1 : t.val % 25 = 24 := (flush0_7 t).mp hf
  have ht1 : t.val + 1 = 25 := by have h := lt_of_lt_of_eq t.isLt (show cfg0.N = 25 from N_0); omega
  obtain ⟨e00, e01, e10, e11, e20, e21, e30, e31, e40, e41, e50, e51, e60, e61, e70, e71, e80, e81⟩ := idx_facts t
  show (cfg0.win 7).cut (grid0.coords t) ((dat0 V c).after 7 t) = _
  rw [after0_7, o7_last V c t h1]
  funext j
  obtain ⟨z, q, rfl⟩ : ∃ (z : Fin 1) (q : Fin 128), j = ix2 z q := ⟨j 0, j 1, eq_ix2 j⟩
  obtain rfl : z = 0 := Subsingleton.elim _ _
  show (outsAt0 V c t.val t.isLt).2.2.2.1 (ix2 (0 : Fin 1) q) = G7 V c (((cfg0.win 7).blk t).view.emb (ix2 (0 : Fin 1) q))
  have hc : colAcc (fun p => yRow V c p q) (t.val + 1) = ∑ p : Fin 50000, yRow V c p.val q := by
    rw [ht1]; exact colAcc_full _
  refine ((s0_apply V c t.val t.isLt q).trans hc).trans ?_
  unfold G7
  refine Finset.sum_congr rfl fun p _ => ?_
  have eq : ((((cfg0.win 7).blk t).view.emb (ix2 (0 : Fin 1) q)) 1 : Fin 128) = q :=
    Fin.ext (by show win0_7.index t (1 : Fin 2) * 128 + 1 * q.val = q.val; rw [e71]; omega)
  show (yRow V c p.val q) = (yOf V c p ((((cfg0.win 7).blk t).view.emb (ix2 (0 : Fin 1) q)) 1))
  rw [yRow_fin, eq]

/-- An index of output 7's array is in point `t`'s block iff each coordinate is in the block's range on its axis. -/
theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v29_1).slice (win0_7.rect t)).set ↔ _
  rw [View.set_slice_whole, Rect.mem_set_unit]
  exact Iff.rfl

/-- The last point's block covers output 7's array. -/
theorem cover7 (i : S1x128.Idx) : ∃ t : Fin cfg0.N, (cfg0.win 7).flush t = true ∧ i ∈ ((cfg0.win 7).blk t).view.set := by
  obtain ⟨t, ht⟩ : ∃ t : Fin cfg0.N, t.val = 24 := ⟨⟨24, by rw [show cfg0.N = 25 from N_0]; omega⟩, rfl⟩
  refine ⟨t, (flush0_7 t).mpr (by rw [ht]), ?_⟩
  rw [mem_blk7]
  have hi0 : (i 0).val < 1 := (i 0).isLt
  have hi1 : (i 1).val < 128 := (i 1).isLt
  obtain ⟨e00, e01, e10, e11, e20, e21, e30, e31, e40, e41, e50, e51, e60, e61, e70, e71, e80, e81⟩ := idx_facts t
  intro a
  match a with
  | ⟨0, _⟩ => show win0_7.index t (0 : Fin 2) * 1 ≤ (i 0).val ∧ (i 0).val < win0_7.index t (0 : Fin 2) * 1 + 1; rw [e70]; omega
  | ⟨1, _⟩ => show win0_7.index t (1 : Fin 2) * 128 ≤ (i 1).val ∧ (i 1).val < win0_7.index t (1 : Fin 2) * 128 + 128; rw [e71]; omega

/-- Output 7's array after the run. -/
theorem final7 : (dat0 V c).arrAt 7 cfg0.N = G7 V c :=
  (dat0 V c).arrAt_eq_of_cover 7 (G7 V c) (flushed7_eq V c) (cover7)

/-- What the last point writes back to output 8 is the whole of its closed form (the one block is the array). -/
theorem flushed8_eq (t : Fin cfg0.N) (hf : (cfg0.win 8).flush t = true) :
    (dat0 V c).flushed 8 t = ((cfg0.win 8).blk t).view.read (Elt Ideal) (G8 V c) := by
  have h1 : t.val % 25 = 24 := (flush0_8 t).mp hf
  have ht1 : t.val + 1 = 25 := by have h := lt_of_lt_of_eq t.isLt (show cfg0.N = 25 from N_0); omega
  obtain ⟨e00, e01, e10, e11, e20, e21, e30, e31, e40, e41, e50, e51, e60, e61, e70, e71, e80, e81⟩ := idx_facts t
  show (cfg0.win 8).cut (grid0.coords t) ((dat0 V c).after 8 t) = _
  rw [after0_8, o8_last V c t h1]
  funext j
  obtain ⟨z, q, rfl⟩ : ∃ (z : Fin 1) (q : Fin 128), j = ix2 z q := ⟨j 0, j 1, eq_ix2 j⟩
  obtain rfl : z = 0 := Subsingleton.elim _ _
  show (outsAt0 V c t.val t.isLt).2.2.2.2 (ix2 (0 : Fin 1) q) = G8 V c (((cfg0.win 8).blk t).view.emb (ix2 (0 : Fin 1) q))
  have hc : colAcc (fun p => yRow V c p q * yRow V c p q) (t.val + 1) = ∑ p : Fin 50000, yRow V c p.val q * yRow V c p.val q := by
    rw [ht1]; exact colAcc_full _
  refine ((s1_apply V c t.val t.isLt q).trans hc).trans ?_
  unfold G8
  refine Finset.sum_congr rfl fun p _ => ?_
  have eq : ((((cfg0.win 8).blk t).view.emb (ix2 (0 : Fin 1) q)) 1 : Fin 128) = q :=
    Fin.ext (by show win0_8.index t (1 : Fin 2) * 128 + 1 * q.val = q.val; rw [e81]; omega)
  show (yRow V c p.val q) * (yRow V c p.val q) = (yOf V c p ((((cfg0.win 8).blk t).view.emb (ix2 (0 : Fin 1) q)) 1)) * (yOf V c p ((((cfg0.win 8).blk t).view.emb (ix2 (0 : Fin 1) q)) 1))
  rw [yRow_fin, eq]

/-- An index of output 8's array is in point `t`'s block iff each coordinate is in the block's range on its axis. -/
theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v29_2).slice (win0_8.rect t)).set ↔ _
  rw [View.set_slice_whole, Rect.mem_set_unit]
  exact Iff.rfl

/-- The last point's block covers output 8's array. -/
theorem cover8 (i : S1x128.Idx) : ∃ t : Fin cfg0.N, (cfg0.win 8).flush t = true ∧ i ∈ ((cfg0.win 8).blk t).view.set := by
  obtain ⟨t, ht⟩ : ∃ t : Fin cfg0.N, t.val = 24 := ⟨⟨24, by rw [show cfg0.N = 25 from N_0]; omega⟩, rfl⟩
  refine ⟨t, (flush0_8 t).mpr (by rw [ht]), ?_⟩
  rw [mem_blk8]
  have hi0 : (i 0).val < 1 := (i 0).isLt
  have hi1 : (i 1).val < 128 := (i 1).isLt
  obtain ⟨e00, e01, e10, e11, e20, e21, e30, e31, e40, e41, e50, e51, e60, e61, e70, e71, e80, e81⟩ := idx_facts t
  intro a
  match a with
  | ⟨0, _⟩ => show win0_8.index t (0 : Fin 2) * 1 ≤ (i 0).val ∧ (i 0).val < win0_8.index t (0 : Fin 2) * 1 + 1; rw [e80]; omega
  | ⟨1, _⟩ => show win0_8.index t (1 : Fin 2) * 128 ≤ (i 1).val ∧ (i 1).val < win0_8.index t (1 : Fin 2) * 128 + 128; rw [e81]; omega

/-- Output 8's array after the run. -/
theorem final8 : (dat0 V c).arrAt 8 cfg0.N = G8 V c :=
  (dat0 V c).arrAt_eq_of_cover 8 (G8 V c) (flushed8_eq V c) (cover8)

/-! ## The region's value -/

/-- The block output ends at the layer's pre-normalisation output. -/
theorem reg0_y (p : Fin 50000) (q : Fin 128) : (dat0 (F := Ideal) V c).arrAt 6 cfg0.N (ix2 p q) = yOf V c p q :=
  congrFun (final6 V c) (ix2 p q)

/-- The first small output ends at its column sums over the 50000 rows. -/
theorem reg0_s (q : Fin 128) : (dat0 (F := Ideal) V c).arrAt 7 cfg0.N (ix2 0 q) = ∑ p : Fin 50000, yOf V c p q :=
  (congrFun (final7 V c) (ix2 0 q)).trans (by unfold G7; rfl)

/-- The second small output ends at the column sums of its squares. -/
theorem reg0_ss (q : Fin 128) : (dat0 (F := Ideal) V c).arrAt 8 cfg0.N (ix2 0 q) = ∑ p : Fin 50000, yOf V c p q * yOf V c p q :=
  (congrFun (final8 V c) (ix2 0 q)).trans (by unfold G8; rfl)

end Region0

end Cert.KernelIdeal.KV0

end
-- ==== Proof.KValue1.lean ====
/-
  Region 1's value at the ideal instance: what its output array holds after the 25 grid points.

  Point t normalises the block of rows 2000 t .. 2000 t + 1999 of the array it is given: each entry less its column's
  mean, times rsqrt (the column's variance + eps), times the column's scale, plus the column's shift, the four
  one-row arrays read whole at every point; and writes the block back. So the output array ends at that function of
  the five arrays, entry by entry.
-/
import proofs.«165666_j30210799960859_1_alg».proof.Proof.FrRegion1
import proofs.«165666_j30210799960859_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.KV1

open Cert.KernelIdeal Cert.KernelIdeal.Gen Cert.KernelIdeal.Fr
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- The zero offsets of a whole-buffer access, as the constant function. -/
theorem hz : (![0, 0] : Fin 2 → Nat) = fun _ => 0 := funext fun a => by fin_cases a <;> rfl

/-- The body's payload at row `r`, column `q` of the block: each of the four one-row operands is broadcast over the
    block's 2000 rows, so it is read at column `q` of its one row. -/
theorem pay1_apply (x0 : Vec Ideal S2000x128 .f32) (x1 x2 x3 x4 : Vec Ideal S1x128 .f32) (r : Fin 2000) (q : Fin 128) :
    k1_pay1 (F := Ideal) x0 x1 x2 x3 x4 (ix2 r q)
      = (x0 (ix2 r q) - x1 (ix2 0 q)) * Ideal.rsqrt (x2 (ix2 0 q) + Cert.Spec.epsC) * x3 (ix2 0 q) + x4 (ix2 0 q) := by
  unfold k1_pay1
  simp only [shapeCast_self]
  refine (addf_apply _ _ _).trans ?_
  refine congrArg₂ (· + ·) ?_ (broadcastTo_1b_ab_apply _ _ r q)
  refine (mulf_apply _ _ _).trans ?_
  refine congrArg₂ (· * ·) ?_ (broadcastTo_1b_ab_apply _ _ r q)
  refine (mulf_apply _ _ _).trans ?_
  refine congrArg₂ (· * ·) ?_ ?_
  · refine (subf_apply _ _ _).trans ?_
    exact congrArg₂ (· - ·) rfl (broadcastTo_1b_ab_apply _ _ r q)
  · refine (broadcastTo_1b_ab_apply _ _ r q).trans ?_
    rfl

section Region1
variable (V : (c : Dev nD) → (b : Ref sig .tc) → Buf (Elt Ideal) ((c : Thread nD τ).loc b)) (c : Dev nD)

/-! ## The arrays region 1 reads and their blocks, by their literal types -/

abbrev yArr : Vec Ideal S50000x128 .f32 := V c main_v29_0
abbrev mArr : Vec Ideal S1x128 .f32 := V c main_v38
abbrev vArr : Vec Ideal S1x128 .f32 := V c main_v39
abbrev gArr : Vec Ideal S1x128 .f32 := V c main_v40
abbrev beArr : Vec Ideal S1x128 .f32 := V c main_v41
abbrev yBlk (t : Fin cfg1.N) : Vec Ideal S2000x128 .f32 := iblk1 V c 0 t
abbrev mBlk (t : Fin cfg1.N) : Vec Ideal S1x128 .f32 := iblk1 V c 1 t
abbrev vBlk (t : Fin cfg1.N) : Vec Ideal S1x128 .f32 := iblk1 V c 2 t
abbrev gBlk (t : Fin cfg1.N) : Vec Ideal S1x128 .f32 := iblk1 V c 3 t
abbrev beBlk (t : Fin cfg1.N) : Vec Ideal S1x128 .f32 := iblk1 V c 4 t

/-- Row `r` of block `t` is row `2000 t + r` of the array. -/
def row (t : Fin cfg1.N) (r : Fin 2000) : Fin 50000 :=
  ⟨2000 * t.val + r.val, by have h : t.val < 25 := lt_of_lt_of_eq t.isLt (show cfg1.N = 25 from N_1); have := r.isLt; omega⟩

/-- The windows' index maps over the grid: the row-blocked input and the output move with the point, the four one-row
    windows stay at block zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem yBlk_apply (t : Fin cfg1.N) (r : Fin 2000) (q : Fin 128) : yBlk V c t (ix2 r q) = yArr V c (ix2 (row t r) q) := by
  obtain ⟨e00, e01, e10, e11, e20, e21, e30, e31, e40, e41, e50, e51⟩ := idx_facts1 t
  show V c main_v29_0 (((cfg1.win 0).blk t).view.emb (ix2 r q)) = V c main_v29_0 (ix2 (row t r) q)
  refine congrArg (V c main_v29_0) (funext fun a => Fin.ext ?_)
  match a with
  | ⟨0, _⟩ => show win1_0.index t (0 : Fin 2) * 2000 + 1 * r.val = 2000 * t.val + r.val; rw [e00]; omega
  | ⟨1, _⟩ => show win1_0.index t (1 : Fin 2) * 128 + 1 * q.val = q.val; rw [e01]; omega

theorem mBlk_apply (t : Fin cfg1.N) (q : Fin 128) : mBlk V c t (ix2 0 q) = mArr V c (ix2 0 q) := by
  obtain ⟨e00, e01, e10, e11, e20, e21, e30, e31, e40, e41, e50, e51⟩ := idx_facts1 t
  show V c main_v38 (((cfg1.win 1).blk t).view.emb (ix2 (0 : Fin 1) q)) = V c main_v38 (ix2 (0 : Fin 1) q)
  refine congrArg (V c main_v38) (funext fun a => Fin.ext ?_)
  match a with
  | ⟨0, _⟩ => show win1_1.index t (0 : Fin 2) * 1 + 1 * 0 = 0; rw [e10]
  | ⟨1, _⟩ => show win1_1.index t (1 : Fin 2) * 128 + 1 * q.val = q.val; rw [e11]; omega

theorem vBlk_apply (t : Fin cfg1.N) (q : Fin 128) : vBlk V c t (ix2 0 q) = vArr V c (ix2 0 q) := by
  obtain ⟨e00, e01, e10, e11, e20, e21, e30, e31, e40, e41, e50, e51⟩ := idx_facts1 t
  show V c main_v39 (((cfg1.win 2).blk t).view.emb (ix2 (0 : Fin 1) q)) = V c main_v39 (ix2 (0 : Fin 1) q)
  refine congrArg (V c main_v39) (funext fun a => Fin.ext ?_)
  match a with
  | ⟨0, _⟩ => show win1_2.index t (0 : Fin 2) * 1 + 1 * 0 = 0; rw [e20]
  | ⟨1, _⟩ => show win1_2.index t (1 : Fin 2) * 128 + 1 * q.val = q.val; rw [e21]; omega

theorem gBlk_apply (t : Fin cfg1.N) (q : Fin 128) : gBlk V c t (ix2 0 q) = gArr V c (ix2 0 q) := by
  obtain ⟨e00, e01, e10, e11, e20, e21, e30, e31, e40, e41, e50, e51⟩ := idx_facts1 t
  show V c main_v40 (((cfg1.win 3).blk t).view.emb (ix2 (0 : Fin 1) q)) = V c main_v40 (ix2 (0 : Fin 1) q)
  refine congrArg (V c main_v40) (funext fun a => Fin.ext ?_)
  match a with
  | ⟨0, _⟩ => show win1_3.index t (0 : Fin 2) * 1 + 1 * 0 = 0; rw [e30]
  | ⟨1, _⟩ => show win1_3.index t (1 : Fin 2) * 128 + 1 * q.val = q.val; rw [e31]; omega

theorem beBlk_apply (t : Fin cfg1.N) (q : Fin 128) : beBlk V c t (ix2 0 q) = beArr V c (ix2 0 q) := by
  obtain ⟨e00, e01, e10, e11, e20, e21, e30, e31, e40, e41, e50, e51⟩ := idx_facts1 t
  show V c main_v41 (((cfg1.win 4).blk t).view.emb (ix2 (0 : Fin 1) q)) = V c main_v41 (ix2 (0 : Fin 1) q)
  refine congrArg (V c main_v41) (funext fun a => Fin.ext ?_)
  match a with
  | ⟨0, _⟩ => show win1_4.index t (0 : Fin 2) * 1 + 1 * 0 = 0; rw [e40]
  | ⟨1, _⟩ => show win1_4.index t (1 : Fin 2) * 128 + 1 * q.val = q.val; rw [e41]; omega

/-! ## The output array after the run -/

/-- The closed form: the batch normalisation of the array by the four one-row arrays, entry by entry. -/
abbrev G5 : Vec Ideal S50000x128 .f32 := fun i =>
  (yArr V c i - mArr V c (ix2 0 (i 1))) * Ideal.rsqrt (vArr V c (ix2 0 (i 1)) + Cert.Spec.epsC) * gArr V c (ix2 0 (i 1)) + beArr V c (ix2 0 (i 1))

/-- What point `t` writes back is block `t` of the closed form. -/
theorem flushed5_eq (t : Fin cfg1.N) :
    (dat1 V c).flushed 5 t = ((cfg1.win 5).blk t).view.read (Elt Ideal) (G5 V c) := by
  obtain ⟨e00, e01, e10, e11, e20, e21, e30, e31, e40, e41, e50, e51⟩ := idx_facts1 t
  show (cfg1.win 5).cut (grid1.coords t) ((dat1 V c).after 5 t) = _
  rw [after1_5]
  unfold out1_5
  rw [View.canon_unit_zero hz]
  simp only [View.ld_unit_zero (S := S2000x128) hz, View.ld_unit_zero (S := S1x128) hz]
  funext j
  obtain ⟨r, q, rfl⟩ : ∃ (r : Fin 2000) (q : Fin 128), j = ix2 r q := ⟨j 0, j 1, eq_ix2 j⟩
  have hemb : ((cfg1.win 5).blk t).view.emb (ix2 r q) = (ix2 (row t r) q : S50000x128.Idx) := funext fun a => Fin.ext (by
    match a with
    | ⟨0, _⟩ => show win1_5.index t (0 : Fin 2) * 2000 + 1 * r.val = 2000 * t.val + r.val; rw [e50]; omega
    | ⟨1, _⟩ => show win1_5.index t (1 : Fin 2) * 128 + 1 * q.val = q.val; rw [e51]; omega)
  show k1_pay1 (F := Ideal) (yBlk V c t) (mBlk V c t) (vBlk V c t) (gBlk V c t) (beBlk V c t) (ix2 r q)
    = G5 V c (((cfg1.win 5).blk t).view.emb (ix2 r q))
  rw [hemb, pay1_apply, yBlk_apply, mBlk_apply, vBlk_apply, gBlk_apply, beBlk_apply]

/-- An index of the output's array is in point `t`'s block iff each coordinate is in the block's range on its axis. -/
theorem mem_blk5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- Row `p` is in the block of point  p / 2000: the 25 blocks cover the array. -/
theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [show cfg1.N = 25 from N_1]; omega⟩, rfl⟩
  refine ⟨t, flush1_5 t, ?_⟩
  rw [mem_blk5]
  obtain ⟨e00, e01, e10, e11, e20, e21, e30, e31, e40, e41, e50, e51⟩ := idx_facts1 t
  intro a
  match a with
  | ⟨0, _⟩ => show win1_5.index t (0 : Fin 2) * 2000 ≤ (i 0).val ∧ (i 0).val < win1_5.index t (0 : Fin 2) * 2000 + 2000; rw [e50, ht]; omega
  | ⟨1, _⟩ => show win1_5.index t (1 : Fin 2) * 128 ≤ (i 1).val ∧ (i 1).val < win1_5.index t (1 : Fin 2) * 128 + 128; rw [e51]; omega

/-- The output array after the run. -/
theorem final5 : (dat1 V c).arrAt 5 cfg1.N = G5 V c :=
  (dat1 V c).arrAt_eq_of_cover 5 (G5 V c) (fun t _ => flushed5_eq V c t) (cover5)

end Region1

/-- The region's value: the output array ends, entry by entry, at the entry of the array it is given less the column's
    mean, times rsqrt (the column's variance + eps), times the scale, plus the shift. -/
theorem reg1_value (V : (c : Dev nD) → (b : Ref sig .tc) → Buf (Elt Ideal) ((c : Thread nD τ).loc b)) (c : Dev nD) (p : Fin 50000) (q : Fin 128) :
    (dat1 (F := Ideal) V c).arrAt 5 cfg1.N (ix2 p q)
      = (yArr V c (ix2 p q) - mArr V c (ix2 0 q)) * Ideal.rsqrt (vArr V c (ix2 0 q) + Cert.Spec.epsC) * gArr V c (ix2 0 q) + beArr V c (ix2 0 q) :=
  congrFun (final5 V c) (ix2 p q)

end Cert.KernelIdeal.KV1

end
-- ==== Proof.KValue.lean ====
/-
  The kernel's result, as the specification's function of the aggregated features and the arguments.

  Region 1 normalises region 0's block output with the column mean and variance the host computes from region 0's two
  accumulator outputs. Region 0's block output is the pre-normalisation array `Y`; its accumulators are the column sums
  of `Y` and of its squares over all 50000 nodes. So the host's mean is `mean Y`, its variance the mean of the squares
  less the square of the mean, `varK Y`, and the result is `outK`.
-/
import proofs.«165666_j30210799960859_1_alg».proof.Proof.FrRun
import proofs.«165666_j30210799960859_1_alg».proof.Proof.KValueHost
import proofs.«165666_j30210799960859_1_alg».proof.Proof.KValue0
import proofs.«165666_j30210799960859_1_alg».proof.Proof.KValue1
import proofs.«165666_j30210799960859_1_alg».proof.Proof.Spec

noncomputable section

namespace Cert.KernelIdeal.KV

open Cert.KernelIdeal Cert.KernelIdeal.Gen Cert.KernelIdeal.Fr Cert.KernelIdeal.KV0 Cert.KernelIdeal.KV1
open Idealize.ShloMosaic Idealize.ShloMosaic.TcCoe Idealize.SL.Sem Idealize.ShloMosaic.ValueIdx

variable (m : (ℓ : Loc nD τ sig) → Buf (Elt Ideal) ℓ)

/-- The aggregated features the kernel's program computes before its first region. -/
abbrev agg (c : Dev nD) : Cert.Spec.ArrND := V5 m c main_v26

/-- The three result arrays of region 0 as the host stretch after it finds them. -/
theorem v29_0 (c : Dev nD) : V6 m (outsA m) c main_v29_0 = (dat0 (F := Ideal) (VA m) c).arrAt 6 cfg0.N := (hF0_6 m c).symm
theorem v29_1 (c : Dev nD) : V6 m (outsA m) c main_v29_1 = (dat0 (F := Ideal) (VA m) c).arrAt 7 cfg0.N := (hF0_7 m c).symm
theorem v29_2 (c : Dev nD) : V6 m (outsA m) c main_v29_2 = (dat0 (F := Ideal) (VA m) c).arrAt 8 cfg0.N := (hF0_8 m c).symm

/-- Region 0 sees the arguments as launched, the two biases as rows. -/
theorem yOf_eq (c : Dev nD) :
    yOf (VA m) c = Cert.Spec.Y (agg m c) (m ((c : Thread nD τ).loc main_arg0)) (m ((c : Thread nD τ).loc main_arg3))
      (m ((c : Thread nD τ).loc main_arg4)) (m ((c : Thread nD τ).loc main_arg5)) (m ((c : Thread nD τ).loc main_arg6)) := by
  unfold yOf
  have h4 : (fun i : (⟨1, ![128]⟩ : Shape).Idx => VA m c main_v27 (ix2 0 (i 0))) = m ((c : Thread nD τ).loc main_arg4) :=
    funext fun i => (head_v27 m c (i 0)).trans (congrArg _ (eq_ix1 i).symm)
  have h6 : (fun i : (⟨1, ![128]⟩ : Shape).Idx => VA m c main_v28 (ix2 0 (i 0))) = m ((c : Thread nD τ).loc main_arg6) :=
    funext fun i => (head_v28 m c (i 0)).trans (congrArg _ (eq_ix1 i).symm)
  rw [h4, h6, show VA m c main_arg0 = _ from head_arg0 m c, show VA m c main_arg3 = _ from head_arg3 m c,
    show VA m c main_arg5 = _ from head_arg5 m c]

/-- THE KERNEL'S VALUE: node `p`, feature `q` of the result array is `outK` there. -/
theorem kernel_value (c : Dev nD) (p : Fin 50000) (q : Fin 128) :
    (dat1 (F := Ideal) (VB m) c).arrAt 5 cfg1.N (ix2 p q)
      = Cert.Spec.outK (agg m c) (m ((c : Thread nD τ).loc main_arg0)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) p q := by
  have e0 : yArr (VB m) c (ix2 p q) = yOf (VA m) c p q := by
    show (V7 m (outsA m) c main_v29_0 : Vec Ideal S50000x128 .f32) (ix2 p q) = _
    rw [mid_v29_0 m (outsA m) c, v29_0 m c]
    exact reg0_y (VA m) c p q
  have e1 : mArr (VB m) c (ix2 0 q) = Cert.Spec.mean (yOf (VA m) c) q := by
    refine (mid_v38 m (outsA m) c q).trans ?_
    rw [v29_1 m c, reg0_s (VA m) c q]; rfl
  have e2 : vArr (VB m) c (ix2 0 q) = Cert.Spec.varK (yOf (VA m) c) q := by
    refine (mid_v39 m (outsA m) c q).trans ?_
    rw [v29_1 m c, v29_2 m c, reg0_s (VA m) c q, reg0_ss (VA m) c q]; rfl
  have e3 : gArr (VB m) c (ix2 0 q) = m ((c : Thread nD τ).loc main_arg7) (ix1 q) := mid_v40 m (outsA m) c q
  have e4 : beArr (VB m) c (ix2 0 q) = m ((c : Thread nD τ).loc main_arg8) (ix1 q) := mid_v41 m (outsA m) c q
  rw [reg1_value (VB m) c p q, e0, e1, e2, e3, e4, yOf_eq m c]
  rfl

end Cert.KernelIdeal.KV

end
-- ==== Proof.KHead.lean ====
/-
  The head of the kernel program, before region 0: its 41 host operations compute the aggregated neighbour features
  exactly as the reference's first 41 do, so the array region 0 reads is the reference's value of the same name.
-/
import proofs.«165666_j30210799960859_1_alg».proof.Proof.Gen.KernelIdeal.Regions
import proofs.«165666_j30210799960859_1_alg».proof.Proof.Gen.ReferenceIdeal.Read
import Idealize.ShloMosaic.Lib.StableHlo.Run
import Idealize.ShloMosaic.PureOps.Ideal

set_option maxRecDepth 16384

noncomputable section

namespace Cert.KernelIdeal.KV

open Cert.KernelIdeal Cert.KernelIdeal.Gen
open Idealize.ShloMosaic Idealize.ShloMosaic.TcCoe
open Idealize.SL Idealize.SL.Sem

variable (m : (ℓ : Loc nD τ sig) → Buf (Elt Ideal) ℓ)

/-! ## The two clamp calls, over any entry contents

Each is three operations of a called function (the constant passed on, splat over the 50000 nodes, the maximum with the
degree count); read at their result they are that maximum of the entry contents. -/

theorem clip0 (W : Valuation τ sig (Elt Ideal)) :
    StableHlo.after hostOps0_1 W (Proc.devRef .tc main_v4)
      = (maximumf (F := Ideal) (s := S50000) (φ := .f32) (broadcastInDim S50000 ![] bcast_S_S50000 (id (W (Proc.devRef .tc main_cst_1)))) (W (Proc.devRef .tc main_v3)) : (⟨S50000, .f32⟩ : BufTy).Contents (Elt Ideal)) := by
  after_results
  rfl

theorem clip1 (W : Valuation τ sig (Elt Ideal)) :
    StableHlo.after hostOps0_3 W (Proc.devRef .tc main_v8)
      = (maximumf (F := Ideal) (s := S50000) (φ := .f32) (broadcastInDim S50000 ![] bcast_S_S50000 (id (W (Proc.devRef .tc main_cst_3)))) (W (Proc.devRef .tc main_v7)) : (⟨S50000, .f32⟩ : BufTy).Contents (Elt Ideal)) := by
  after_results
  rfl

/-! ## The aggregated features

The head's 41 operations are the reference's first 41, over shape and dimension records that are declared once per
program with the same definitions: stretch by stretch (the two degree counts, their clamps, then the normalised
gather and segment sum) the valuation holds the reference's value of the same name. -/

section Agg
open Cert.ReferenceIdeal.Read

theorem head1_v0 (c : Dev nD) : V1 m c main_v0 = val_main_v0 (F := Ideal) := by
  show StableHlo.after hostOps0 _ (Proc.devRef .tc main_v0) = _
  after_results
  rfl

/-- The in-degree count. -/
theorem head1_v3 (c : Dev nD) : V1 m c main_v3 = val_main_v3 (F := Ideal) (m ((c : Thread nD τ).loc main_arg1)) := by
  show StableHlo.after hostOps0 _ (Proc.devRef .tc main_v3) = _
  after_results
  rfl

theorem head1_cst_1 (c : Dev nD) : V1 m c main_cst_1 = val_main_cst_1 (F := Ideal) := by
  show StableHlo.after hostOps0 _ (Proc.devRef .tc main_cst_1) = _
  after_results
  rfl

/-- The clamped in-degree count. -/
theorem head2_v4 (c : Dev nD) : V2 m c main_v4 = val_main_v4 (F := Ideal) (m ((c : Thread nD τ).loc main_arg1)) := by
  refine (clip0 (V1 m c)).trans ?_
  rw [head1_cst_1, head1_v3]
  rfl

/-- The out-degree count. -/
theorem head3_v7 (c : Dev nD) : V3 m c main_v7 = val_main_v7 (F := Ideal) (m ((c : Thread nD τ).loc main_arg2)) := by
  have e0 : V2 m c main_v0 = val_main_v0 (F := Ideal) := (V2_of m c main_v0 (by decide)).trans (head1_v0 m c)
  have e2 : V2 m c main_arg2 = m ((c : Thread nD τ).loc main_arg2) :=
    (V2_of m c main_arg2 (by decide)).trans <| (V1_of m c main_arg2 (by decide)).trans rfl
  show StableHlo.after hostOps0_2 (V2 m c) (Proc.devRef .tc main_v7) = _
  generalize V2 m c = W at e0 e2
  after_results
  rw [e0, e2]
  rfl

theorem head3_cst_3 (c : Dev nD) : V3 m c main_cst_3 = val_main_cst_3 (F := Ideal) := by
  show StableHlo.after hostOps0_2 (V2 m c) (Proc.devRef .tc main_cst_3) = _
  generalize V2 m c = W
  after_results
  rfl

/-- The clamped out-degree count. -/
theorem head4_v8 (c : Dev nD) : V4 m c main_v8 = val_main_v8 (F := Ideal) (m ((c : Thread nD τ).loc main_arg2)) := by
  refine (clip1 (V3 m c)).trans ?_
  rw [head3_cst_3, head3_v7]
  rfl

set_option maxHeartbeats 1000000 in
/-- The aggregated, normalised neighbour features region 0 reads are the reference's. -/
theorem head_v26 (c : Dev nD) :
    V5 m c main_v26 = val_main_v26 (F := Ideal) (m ((c : Thread nD τ).loc main_arg0)) (m ((c : Thread nD τ).loc main_arg1)) (m ((c : Thread nD τ).loc main_arg2)) := by
  have e4 : V4 m c main_v4 = val_main_v4 (F := Ideal) (m ((c : Thread nD τ).loc main_arg1)) :=
    (V4_of m c main_v4 (by decide)).trans <| (V3_of m c main_v4 (by decide)).trans (head2_v4 m c)
  have e8 := head4_v8 m c
  have a0 : V4 m c main_arg0 = m ((c : Thread nD τ).loc main_arg0) :=
    (V4_of m c main_arg0 (by decide)).trans <| (V3_of m c main_arg0 (by decide)).trans <|
      (V2_of m c main_arg0 (by decide)).trans <| (V1_of m c main_arg0 (by decide)).trans rfl
  have a1 : V4 m c main_arg1 = m ((c : Thread nD τ).loc main_arg1) :=
    (V4_of m c main_arg1 (by decide)).trans <| (V3_of m c main_arg1 (by decide)).trans <|
      (V2_of m c main_arg1 (by decide)).trans <| (V1_of m c main_arg1 (by decide)).trans rfl
  have a2 : V4 m c main_arg2 = m ((c : Thread nD τ).loc main_arg2) :=
    (V4_of m c main_arg2 (by decide)).trans <| (V3_of m c main_arg2 (by decide)).trans <|
      (V2_of m c main_arg2 (by decide)).trans <| (V1_of m c main_arg2 (by decide)).trans rfl
  show StableHlo.after hostOps0_4 (V4 m c) (Proc.devRef .tc main_v26) = _
  generalize V4 m c = W at e4 e8 a0 a1 a2
  after_results
  rw [e4, e8, a0, a1, a2]
  rfl

end Agg

end Cert.KernelIdeal.KV

end
-- ==== Proof.RefValue.lean ====
/-
  The reference's result, read at a node and a feature, is the layer's mathematics: the affine layers with their
  relu, the residual sum, the column mean, the mean of the squared deviations, and the normalisation over them.
-/
import proofs.«165666_j30210799960859_1_alg».proof.Proof.Gen.ReferenceIdeal.Read
import proofs.«165666_j30210799960859_1_alg».proof.Proof.Spec
import Idealize.ShloMosaic.PureOps.Ideal
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo Idealize.ShloMosaic.ValueIdx
open scoped BigOperators

/-- The pre-normalisation output of the reference at node `p`, feature `q`. -/
theorem y_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (p : Fin 50000) (q : Fin 128) :
    Read.val_main_v37 (F := Ideal) x0 x1 x2 x3 x4 x5 x6 (ix2 p q)
      = Cert.Spec.Y (Read.val_main_v26 (F := Ideal) x0 x1 x2) x0 x3 x4 x5 x6 p q := by
  rw [Read.val_main_v37_apply, Read.val_main_v31_apply, Read.val_main_v30_apply, Read.val_main_v27_apply,
    Read.val_main_v29_apply, Read.val_main_v28_apply, Read.val_main_call2_v0_apply, Read.val_main_call2_cst_apply,
    Read.val_main_v36_apply, Read.val_main_v35_apply, Read.val_main_v32_apply,
    Read.val_main_v34_apply, Read.val_main_v33_apply, Read.val_main_call3_v0_apply, Read.val_main_call3_cst_apply]
  generalize Read.val_main_v26 (F := Ideal) x0 x1 x2 = a
  have el (k : Fin 128) : Read.lidx_main_v27 (ix2 p q) k = ix2 p k :=
    funext fun d => Fin.ext (by match d with | ⟨0, _⟩ => rfl | ⟨1, _⟩ => rfl)
  have er (k : Fin 128) : Read.ridx_main_v27 (ix2 p q) k = ix2 k q :=
    funext fun d => Fin.ext (by match d with | ⟨0, _⟩ => rfl | ⟨1, _⟩ => rfl)
  have el' (k : Fin 128) : Read.lidx_main_v32 (ix2 p q) k = ix2 p k :=
    funext fun d => Fin.ext (by match d with | ⟨0, _⟩ => rfl | ⟨1, _⟩ => rfl)
  have er' (k : Fin 128) : Read.ridx_main_v32 (ix2 p q) k = ix2 k q :=
    funext fun d => Fin.ext (by match d with | ⟨0, _⟩ => rfl | ⟨1, _⟩ => rfl)
  have e4 : Read.idx_main_v28 (Read.idx_main_v29 (ix2 p q)) = ix1 q :=
    funext fun d => Fin.ext (by match d with | ⟨0, _⟩ => rfl)
  have e6 : Read.idx_main_v33 (Read.idx_main_v34 (ix2 p q)) = ix1 q :=
    funext fun d => Fin.ext (by match d with | ⟨0, _⟩ => rfl)
  simp only [el, er, el', er', e4, e6, Ideal.addf_def, Ideal.maximumf_def, Ideal.ofBits_def]
  unfold Cert.Spec.Y Cert.Spec.lin
  simp only [Ideal.ofBits_zero_f32, zero_add]

/-- The reference's column mean at feature `q`. -/
theorem mean_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (q : Fin 128) :
    Read.val_main_v40 (F := Ideal) x0 x1 x2 x3 x4 x5 x6 (ix1 q)
      = Cert.Spec.mean (Cert.Spec.Y (Read.val_main_v26 (F := Ideal) x0 x1 x2) x0 x3 x4 x5 x6) q := by
  rw [Read.val_main_v40_apply, Read.val_main_v38_apply, Read.val_main_cst_6_apply, Read.val_main_v39_apply,
    Read.val_main_cst_7_apply]
  have e (k : Fin 50000) : Read.idx_main_v38 (ix1 q) k = ix2 k q :=
    funext fun d => Fin.ext (by match d with | ⟨0, _⟩ => rfl | ⟨1, _⟩ => rfl)
  simp only [e, y_eq, Ideal.hostDivf_def, Ideal.ofBits_def, Ideal.ofBits_zero_f32, zero_add]
  generalize Read.val_main_v26 (F := Ideal) x0 x1 x2 = a
  unfold Cert.Spec.mean Cert.Spec.colSum
  with_reducible rfl

/-- A node's deviation from the column mean, as the reference takes it. -/
theorem dev_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (k : Fin 50000) (q : Fin 128) :
    Read.val_main_v43 (F := Ideal) x0 x1 x2 x3 x4 x5 x6 (ix2 k q)
      = Cert.Spec.Y (Read.val_main_v26 (F := Ideal) x0 x1 x2) x0 x3 x4 x5 x6 k q
        - Cert.Spec.mean (Cert.Spec.Y (Read.val_main_v26 (F := Ideal) x0 x1 x2) x0 x3 x4 x5 x6) q := by
  have em : Read.idx_main_v41 (Read.idx_main_v42 (ix2 k q)) = ix1 q :=
    funext fun d => Fin.ext (by match d with | ⟨0, _⟩ => rfl)
  rw [Read.val_main_v43_apply, Read.val_main_v42_apply, Read.val_main_v41_apply, em, y_eq, mean_eq, Ideal.subf_def]

/-- The reference's column variance at feature `q`: the mean of the squared deviations from the column mean. -/
theorem var_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (q : Fin 128) :
    Read.val_main_v47 (F := Ideal) x0 x1 x2 x3 x4 x5 x6 (ix1 q)
      = Cert.Spec.varR (Cert.Spec.Y (Read.val_main_v26 (F := Ideal) x0 x1 x2) x0 x3 x4 x5 x6) q := by
  have hs : ∑ k : Fin 50000, Read.val_main_v44 (F := Ideal) x0 x1 x2 x3 x4 x5 x6 (Read.idx_main_v45 (ix1 q) k)
      = ∑ k : Fin 50000,
          (Cert.Spec.Y (Read.val_main_v26 (F := Ideal) x0 x1 x2) x0 x3 x4 x5 x6 k q
            - Cert.Spec.mean (Cert.Spec.Y (Read.val_main_v26 (F := Ideal) x0 x1 x2) x0 x3 x4 x5 x6) q)
          * (Cert.Spec.Y (Read.val_main_v26 (F := Ideal) x0 x1 x2) x0 x3 x4 x5 x6 k q
            - Cert.Spec.mean (Cert.Spec.Y (Read.val_main_v26 (F := Ideal) x0 x1 x2) x0 x3 x4 x5 x6) q) :=
    Finset.sum_congr rfl fun k _ => by
      have e : Read.idx_main_v45 (ix1 q) k = ix2 k q :=
        funext fun d => Fin.ext (by match d with | ⟨0, _⟩ => rfl | ⟨1, _⟩ => rfl)
      rw [e, Read.val_main_v44_apply, dev_eq, Ideal.mulf_def]
  rw [Read.val_main_v47_apply, Read.val_main_v45_apply, Read.val_main_cst_8_apply, Read.val_main_v46_apply,
    Read.val_main_cst_9_apply, hs, Ideal.hostDivf_def, Ideal.ofBits_def, Ideal.ofBits_def, Ideal.ofBits_zero_f32, zero_add]
  generalize Read.val_main_v26 (F := Ideal) x0 x1 x2 = a
  unfold Cert.Spec.varR
  with_reducible rfl

/-- The reference's result at node `p`, feature `q`, over the aggregated features as one array. -/
theorem ref_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 x8 : (⟨S128, .f32⟩ : BufTy).Contents (Elt Ideal)) (p : Fin 50000) (q : Fin 128) :
    Cert.ReferenceIdeal.Read.val_main_v62 (F := Ideal) x0 x1 x2 x3 x4 x5 x6 x7 x8 (ValueIdx.ix2 p q)
      = Cert.Spec.outR (Cert.ReferenceIdeal.Read.val_main_v26 (F := Ideal) x0 x1 x2) x0 x3 x4 x5 x6 x7 x8 p q := by
  have e48 : Read.idx_main_v48 (Read.idx_main_v49 (ix2 p q)) = ix1 q :=
    funext fun d => Fin.ext (by match d with | ⟨0, _⟩ => rfl)
  have e54 : Read.idx_main_v54 (Read.idx_main_v55 (ix2 p q)) = ix1 q :=
    funext fun d => Fin.ext (by match d with | ⟨0, _⟩ => rfl)
  have e57 : Read.idx_main_v57 (Read.idx_main_v58 (ix2 p q)) = ix1 q :=
    funext fun d => Fin.ext (by match d with | ⟨0, _⟩ => rfl)
  have e60 : Read.idx_main_v60 (Read.idx_main_v61 (ix2 p q)) = ix1 q :=
    funext fun d => Fin.ext (by match d with | ⟨0, _⟩ => rfl)
  rw [Read.val_main_v62_apply, Read.val_main_v59_apply, Read.val_main_v56_apply, Read.val_main_v50_apply,
    Read.val_main_v49_apply, Read.val_main_v48_apply, Read.val_main_v55_apply, Read.val_main_v54_apply,
    Read.val_main_v53_apply, Read.val_main_v52_apply, Read.val_main_v51_apply, Read.val_main_cst_10_apply,
    Read.val_main_v58_apply, Read.val_main_v57_apply, Read.val_main_v61_apply, Read.val_main_v60_apply,
    e48, e54, e57, e60, y_eq, mean_eq, var_eq]
  generalize Read.val_main_v26 (F := Ideal) x0 x1 x2 = a
  simp only [Ideal.addf_def, Ideal.mulf_def, Ideal.subf_def, Ideal.hostUnary_rsqrt_def, Ideal.ofBits_def]
  unfold Cert.Spec.outR Cert.Spec.bn
  with_reducible rfl

/-- The run's result term is the last stage of the arguments' launch contents, at any float values. -/
theorem run_eq {F : FTy → Type} [FloatOps F] (m : (ℓ : Loc nD τ sig) → Buf (Elt F) ℓ) (c : Dev nD) :
    Cert.ReferenceIdeal.Value.res_main_v62 m c
      = Read.val_main_v62 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  Read.val_main_v62_eq m c

/-- The run's result at node `p`, feature `q`, at the ideal values: the layer's mathematics of the launch contents. -/
theorem run_at (m : (ℓ : Loc nD τ sig) → Buf (Elt Ideal) ℓ) (c : Dev nD) (p : Fin 50000) (q : Fin 128) :
    Cert.ReferenceIdeal.Value.res_main_v62 (F := Ideal) m c (ix2 p q)
      = Cert.Spec.outR
          (Read.val_main_v26 (F := Ideal) (m ((c.tc : Thread nD τ).loc main_arg0)) (m ((c.tc : Thread nD τ).loc main_arg1))
            (m ((c.tc : Thread nD τ).loc main_arg2)))
          (m ((c.tc : Thread nD τ).loc main_arg0)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) p q :=
  (congrFun (run_eq m c) (ix2 p q)).trans (ref_eq _ _ _ _ _ _ _ _ _ p q)

end Cert.ReferenceIdeal.RefValue

end
-- ==== Proof.Finite.lean ====
/-
  Two facts about real-valued (finite) data at the ideal values, where a float is an extended real.

  (1) The host head both programs share (degrees by a scatter-add of ones, clipped below by one, their
  reciprocal square roots, the features scaled, gathered along the edges, scatter-added into zeros and scaled
  again) sends real features to real values, whatever the two index arrays hold: sums, products and maxima of
  reals are real, a degree clipped below by one is a real at least one, and the reciprocal square root of such a
  real is a real.

  (2) The precondition "every float argument is finite" says of each argument that every element is a real:
  an extended real whose absolute value is below the top element is neither infinity.
-/
import proofs.«165666_j30210799960859_1_alg».proof.Proof.Gen.ReferenceIdeal.Read
import proofs.«165666_j30210799960859_1_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.Fin

open Idealize.ShloMosaic Idealize.ShloMosaic.ValueIdx

/-! ## Real-valued extended reals -/

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is a real. -/
theorem IsReal.sum {ι : Type} (s : Finset ι) (f : ι → EReal) (h : ∀ i ∈ s, IsReal (f i)) : IsReal (∑ i ∈ s, f i) :=
  Finset.sum_induction f IsReal (fun _ _ ha hb => ha.add hb) IsReal.zero h

/-- A real at least one. -/
def GeOne (x : EReal) : Prop := ∃ r : ℝ, 1 ≤ r ∧ x = (r : EReal)

theorem GeOne.isReal {x : EReal} (h : GeOne x) : IsReal x := by
  obtain ⟨r, _, rfl⟩ := h
  exact ⟨r, rfl⟩

/-- A real clipped below by one is a real at least one. -/
theorem geOne_max_one {x : EReal} (hx : IsReal x) : GeOne (max 1 x) := by
  obtain ⟨a, rfl⟩ := hx
  rcases le_total (1 : ℝ) a with h | h
  · refine ⟨a, h, ?_⟩
    rw [max_eq_right]
    exact_mod_cast h
  · refine ⟨1, le_refl _, ?_⟩
    rw [max_eq_left]
    · rfl
    · exact_mod_cast h

/-- The reciprocal square root of a real at least one is a real. -/
theorem rsqrt_real {x : EReal} (h : GeOne x) : IsReal (Ideal.rsqrt x) := by
  obtain ⟨r, hr, rfl⟩ := h
  refine ⟨(Real.sqrt r)⁻¹, ?_⟩
  rw [Ideal.rsqrt_coe, if_neg (not_lt.2 (le_trans zero_le_one hr)), if_neg (ne_of_gt (lt_of_lt_of_le one_pos hr))]

/-! ## The two constants of the host head -/

theorem ofBits_one : Ideal.ofBits .f32 0x3F800000#32 = 1 := by
  simp [Ideal.ofBits, Ideal.ieee, -EReal.coe_mul]; norm_num

theorem ofBits_inf : Ideal.ofBits .f32 0x7F800000#32 = ⊤ := by
  simp [Ideal.ofBits, Ideal.ieee]

/-- An accumulating scatter of reals into reals is real, wherever the updates land. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ (fun j _ => hu j))

/-! ## (1) The host head, stage by stage -/

section Head
open Cert.ReferenceIdeal Cert.ReferenceIdeal.Read

variable (x0 : (⟨Cert.ReferenceIdeal.S50000x128, .f32⟩ : BufTy).Contents (Elt Ideal))
  (x1 x2 : (⟨Cert.ReferenceIdeal.S800000, .i32⟩ : BufTy).Contents (Elt Ideal))

/-- The updates of both degree scatters are ones. -/
theorem v0_real (i) : IsReal (val_main_v0 (F := Ideal) i) := by
  rw [val_main_v0_apply, val_main_cst_apply, Ideal.ofBits_def, ofBits_one]; exact IsReal.one

theorem v1_real (i) : IsReal (val_main_v1 (F := Ideal) i) := by
  rw [val_main_v1_apply, val_main_cst_0_apply, Ideal.ofBits_def, Ideal.ofBits_zero_f32]; exact IsReal.zero

theorem v5_real (i) : IsReal (val_main_v5 (F := Ideal) i) := by
  rw [val_main_v5_apply, val_main_cst_2_apply, Ideal.ofBits_def, Ideal.ofBits_zero_f32]; exact IsReal.zero

theorem v20_real (i) : IsReal (val_main_v20 (F := Ideal) i) := by
  rw [val_main_v20_apply, val_main_cst_5_apply, Ideal.ofBits_def, Ideal.ofBits_zero_f32]; exact IsReal.zero

/-- The out-degree: a count of ones added to zero. -/
theorem v3_real (i) : IsReal (val_main_v3 (F := Ideal) x1 i) :=
  scatterAdd_real _ _ _ _ v1_real v0_real i

/-- The in-degree. -/
theorem v7_real (i) : IsReal (val_main_v7 (F := Ideal) x2 i) :=
  scatterAdd_real _ _ _ _ v5_real v0_real i

/-- The out-degree clipped below by one. -/
theorem v4_geOne (i) : GeOne (val_main_v4 (F := Ideal) x1 i) := by
  rw [val_main_v4_apply, val_main_call0_v1_apply, val_main_call0_v0_apply, val_main_cst_1_apply, Ideal.ofBits_def,
    ofBits_one, Ideal.maximumf_def]
  exact geOne_max_one (v3_real x1 i)

/-- The in-degree clipped below by one. -/
theorem v8_geOne (i) : GeOne (val_main_v8 (F := Ideal) x2 i) := by
  rw [val_main_v8_apply, val_main_call1_v1_apply, val_main_call1_v0_apply, val_main_cst_3_apply, Ideal.ofBits_def,
    ofBits_one, Ideal.maximumf_def]
  exact geOne_max_one (v7_real x2 i)

theorem v9_real (i) : IsReal (val_main_v9 (F := Ideal) x1 i) := by
  rw [val_main_v9_apply, Ideal.hostUnary_rsqrt_def]
  exact rsqrt_real (v4_geOne x1 i)

theorem v23_real (i) : IsReal (val_main_v23 (F := Ideal) x2 i) := by
  rw [val_main_v23_apply, Ideal.hostUnary_rsqrt_def]
  exact rsqrt_real (v8_geOne x2 i)

/-- The features scaled by the reciprocal square root of the out-degree. -/
theorem v12_real (h0 : ∀ i, IsReal (x0 i)) (i) : IsReal (val_main_v12 (F := Ideal) x0 x1 i) := by
  rw [val_main_v12_apply, val_main_v11_apply, val_main_v10_apply, Ideal.mulf_def]
  exact (h0 i).mul (v9_real x1 _)

/-- A gathered element is an element of the operand. -/
theorem v19_real (h0 : ∀ i, IsReal (x0 i)) (j) : IsReal (val_main_v19 (F := Ideal) x0 x1 j) := by
  unfold val_main_v19 Host.gather
  exact v12_real x0 x1 h0 _

/-- The messages summed at their destinations. -/
theorem v22_real (h0 : ∀ i, IsReal (x0 i)) (i) : IsReal (val_main_v22 (F := Ideal) x0 x1 x2 i) :=
  scatterAdd_real _ _ _ _ v20_real (v19_real x0 x1 h0) i

theorem v26_real (h0 : ∀ i, IsReal (x0 i)) (i) : IsReal (val_main_v26 (F := Ideal) x0 x1 x2 i) := by
  rw [val_main_v26_apply, val_main_v25_apply, val_main_v24_apply, Ideal.mulf_def]
  exact (v22_real x0 x1 x2 h0 i).mul (v23_real x2 _)

end Head

/-- The shared host head sends real features to real values, whatever the index arrays hold. -/
theorem agg_real (x0 : (⟨Cert.ReferenceIdeal.S50000x128, .f32⟩ : BufTy).Contents (Elt Ideal))
    (x1 x2 : (⟨Cert.ReferenceIdeal.S800000, .i32⟩ : BufTy).Contents (Elt Ideal))
    (h0 : ∀ i, ∃ r : ℝ, x0 i = (r : EReal)) :
    ∀ i, ∃ r : ℝ, Cert.ReferenceIdeal.Read.val_main_v26 (F := Ideal) x0 x1 x2 i = (r : EReal) :=
  fun i => v26_real x0 x1 x2 h0 i

/-! ## (2) The finiteness precondition, read back -/

/-- An extended real whose absolute value is below the top element is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change Ideal.cmp .olt (max x (-x)) (Ideal.ofBits .f32 0x7F800000#32) = 1#1 at h
  rw [ofBits_inf] at h
  unfold Ideal.cmp at h
  induction x using EReal.rec with
  | bot => simp at h
  | coe r => exact ⟨r, rfl⟩
  | top => simp at h

instance subsingleton_idx_S_ : Subsingleton Cert.Pre_finite_inputs.S_.Idx := ⟨fun a b => funext fun d => d.elim0⟩

section Pre
open Cert.Pre_finite_inputs
variable [Cert.Pre_finite_inputs.Facts]

/-- One argument's test, "the absolute value of every element is below the top element, all of them", read at an
    element: that element is a real. -/
theorem real_of_all {s : Shape} {axes : List (Fin s.rank)} (a : FVec Ideal s .f32) (inf : FVec Ideal s .f32)
    (hinf : ∀ i, inf i = FloatOps.ofBits (F := Ideal) .f32 0x7F800000#32)
    (init : IVec S_ 1) (hr : s.ReducesTo axes S_) (hu : 0 < S_.numel)
    (e : Host.reduce IntOp.andi (cmpf .olt (Host.absf a) inf) init hr hu ix0 = 1#1) (i : s.Idx) : IsReal (a i) := by
  have h := Host.reduce_andi_all _ init hr hu ix0 e i
  refine real_of_abs_lt_inf (a i) ?_
  rw [← hinf i]
  exact h

/-- The finiteness precondition gives real-valued float arguments. -/
theorem pre_real (a0 : FVec Ideal S50000x128 .f32) (a1 : IVec S800000 32) (a2 : IVec S800000 32)
    (a3 : FVec Ideal S128x128 .f32) (a4 : FVec Ideal S128 .f32) (a5 : FVec Ideal S128x128 .f32)
    (a6 : FVec Ideal S128 .f32) (a7 : FVec Ideal S128 .f32) (a8 : FVec Ideal S128 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have h1 := congrFun h ix0
  dsimp only [Cert.Pre_finite_inputs.fn, Cert.Pre_finite_inputs.fn_part1] at h1
  obtain ⟨h28, _⟩ := IntOp.andi_eq_one.1 h1
  obtain ⟨h23, _⟩ := IntOp.andi_eq_one.1 h28
  obtain ⟨h18, e6⟩ := IntOp.andi_eq_one.1 h23
  obtain ⟨h13, e5⟩ := IntOp.andi_eq_one.1 h18
  obtain ⟨h8, e4⟩ := IntOp.andi_eq_one.1 h13
  obtain ⟨e0, e3⟩ := IntOp.andi_eq_one.1 h8
  exact ⟨real_of_all a0 _ (fun _ => rfl) _ _ _ e0, real_of_all a3 _ (fun _ => rfl) _ _ _ e3,
    real_of_all a4 _ (fun _ => rfl) _ _ _ e4, real_of_all a5 _ (fun _ => rfl) _ _ _ e5,
    real_of_all a6 _ (fun _ => rfl) _ _ _ e6⟩

end Pre

end Cert.Fin

end
-- ==== Proof.Algebra.lean ====
/-
  The algebra of the layer over the extended reals: the two float words the programs spell denote 0 and 50000,
  the pre-normalisation output of real arguments is real, and on a real-valued array over the 50000 nodes the
  two variances agree,  E[y^2] - (E y)^2 = E[(y - E y)^2],  so the two normalised results agree.

  The extended reals are no ring (an infinity has no additive inverse), so the identity is proved in the reals:
  each entry is named by its real value, the coercion is pushed outward through the sums, the products and the
  division by 50000 (a product with the real 1/50000), and what remains is the textbook expansion
  sum (r - m)^2 = sum r^2 - 2 m sum r + n m^2  at  m = (sum r) / n,  n = 50000 the number of terms.
-/
import proofs.«165666_j30210799960859_1_alg».proof.Proof.Spec
import Mathlib.Data.EReal.Operations
import Mathlib.Algebra.BigOperators.Ring.Finset
import Mathlib.Algebra.BigOperators.Group.Finset.Basic
import Mathlib.Data.Fintype.Card
import Mathlib.Tactic.Ring
import Mathlib.Tactic.NormNum.Basic

noncomputable section

namespace Cert.Spec

open Idealize.ShloMosaic Idealize.ShloMosaic.ValueIdx
open scoped BigOperators

/-! ### The constants -/

/-- The word of `+0.0` denotes `0`. -/
theorem zeroC_eq : zeroC = 0 := Ideal.ofBits_zero_f32

/-- The word `0x47435000` (exponent field 142, fraction `0x435000`) denotes `(2^23 + 0x435000) * 2^(142 - 127 - 23) = 50000`. -/
theorem nC_eq : nC = ((50000 : ℝ) : EReal) := by
  simp [Ideal.ofBits, Ideal.ieee, -EReal.coe_mul]; norm_num

/-! ### The coercion from the reals through finite sums and maxima -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The coercion is monotone, so it commutes with the maximum. -/
theorem coe_max (x y : ℝ) : ((max x y : ℝ) : EReal) = max (x : EReal) (y : EReal) :=
  EReal.coe_strictMono.monotone.map_max

/-! ### The layer's output is real on real arguments -/

/-- One affine layer of real arguments is real: a finite sum of products of reals, plus a real. -/
theorem lin_real {a : ArrND} {w : ArrDD} {b : ArrD}
    (ha : ∀ i, ∃ r : ℝ, a i = r) (hw : ∀ i, ∃ r : ℝ, w i = r) (hb : ∀ i, ∃ r : ℝ, b i = r) :
    ∀ p q, ∃ r : ℝ, lin a w b p q = r := by
  intro p q
  choose ra hra using ha
  choose rw hrw using hw
  choose rb hrb using hb
  refine ⟨(0 + ∑ k : Fin 128, ra (ix2 p k) * rw (ix2 k q)) + rb (ix1 q), ?_⟩
  rw [lin, zeroC_eq, EReal.coe_add, EReal.coe_add, coe_sum, EReal.coe_zero, hrb]
  simp only [hra, hrw, EReal.coe_mul]

/-- The pre-normalisation output of real arguments is real: each branch is the maximum of a real and `0`. -/
theorem Y_real {a x : ArrND} {w : ArrDD} {b : ArrD} {wr : ArrDD} {br : ArrD}
    (ha : ∀ i, ∃ r : ℝ, a i = r) (hx : ∀ i, ∃ r : ℝ, x i = r) (hw : ∀ i, ∃ r : ℝ, w i = r)
    (hb : ∀ i, ∃ r : ℝ, b i = r) (hwr : ∀ i, ∃ r : ℝ, wr i = r) (hbr : ∀ i, ∃ r : ℝ, br i = r) :
    ∀ p q, ∃ r : ℝ, Y a x w b wr br p q = r := by
  intro p q
  obtain ⟨u, hu⟩ := lin_real ha hw hb p q
  obtain ⟨v, hv⟩ := lin_real hx hwr hbr p q
  refine ⟨max u 0 + max v 0, ?_⟩
  rw [Y, hu, hv, zeroC_eq, EReal.coe_add, coe_max, coe_max, EReal.coe_zero]

/-! ### The two variances -/

/-- In the reals, over `n = 50000` terms with `m = (sum r) / n`:  `(sum r^2) / n - m^2 = (sum (r - m)^2) / n`. -/
theorem var_real (r : Fin 50000 → ℝ) :
    (∑ p, r p * r p) * (1 / 50000) - (∑ p, r p) * (1 / 50000) * ((∑ p, r p) * (1 / 50000)) =
      (∑ p, (r p - (∑ p, r p) * (1 / 50000)) * (r p - (∑ p, r p) * (1 / 50000))) * (1 / 50000) := by
  generalize hS : (∑ p, r p) = S
  generalize hm : S * (1 / 50000) = m
  have hexp : ∀ p, (r p - m) * (r p - m) = r p * r p - 2 * m * r p + m * m := fun p => by ring
  have hsum : (∑ p, (r p - m) * (r p - m)) = (∑ p, r p * r p) - 2 * m * S + 50000 * (m * m) := by
    simp only [hexp, Finset.sum_add_distrib, Finset.sum_sub_distrib, ← Finset.mul_sum, hS,
      Finset.sum_const, Finset.card_univ, Fintype.card_fin, nsmul_eq_mul, Nat.cast_ofNat]
    ring
  rw [hsum, ← hm]
  ring

/-- On a real-valued array the kernel's variance is the reference's. -/
theorem varK_eq_varR (y : Fin 50000 → Fin 128 → EReal) (hy : ∀ p q, ∃ r : ℝ, y p q = r) :
    varK y = varR y := by
  choose r hr using hy
  obtain rfl : y = fun p q => ((r p q : ℝ) : EReal) := funext fun p => funext fun q => hr p q
  funext q
  have h0 : (50000 : ℝ) ≠ 0 := by norm_num
  simp only [varK, varR, mean, colSum, nC_eq, Ideal.div_coe h0]
  simp only [← EReal.coe_mul, ← coe_sum, ← EReal.coe_sub]
  exact congrArg _ (var_real fun p => r p q)

/-- The two normalised results agree: they differ in the variance only. -/
theorem outK_eq_outR {a x : ArrND} {w : ArrDD} {b : ArrD} {wr : ArrDD} {br : ArrD} (g be : ArrD)
    (ha : ∀ i, ∃ r : ℝ, a i = r) (hx : ∀ i, ∃ r : ℝ, x i = r) (hw : ∀ i, ∃ r : ℝ, w i = r)
    (hb : ∀ i, ∃ r : ℝ, b i = r) (hwr : ∀ i, ∃ r : ℝ, wr i = r) (hbr : ∀ i, ∃ r : ℝ, br i = r) :
    outK a x w b wr br g be = outR a x w b wr br g be := by
  funext p q
  rw [outK, outR, varK_eq_varR _ (Y_real ha hx hw hb hwr hbr)]

end Cert.Spec

end
-- ==== Proof.lean ====
/-
  The fused graph-convolution layer against its reference, over the extended reals.

  Both programs compute, on the host, the aggregated features `a` (features scaled by rsqrt of the clipped out-degree,
  gathered along the edges, summed into the destination nodes, scaled by rsqrt of the clipped in-degree): the same
  operations in both, carried as one array. From there the pre-normalisation output is
  y = relu (a W + b) + relu (x Wr + br), and batch normalisation subtracts the column mean, scales by
  rsqrt (variance + eps), times gamma, plus beta. The kernel streams y in 25 blocks of 2000 nodes, accumulating the column
  sums of y and of y² across the blocks, and takes the variance as E[y²] − (E y)²; the reference takes E[(y − E y)²]. The
  two agree when every y is a real number, which finite inputs give: the degrees are finite sums of ones clipped below
  by one, so every rsqrt is of a real ≥ 1, and sums and products of reals are reals. gamma and beta enter both results
  the same way and need no finiteness.

  The three frames: the two kernel programs run through five host stretches, the accumulating region, one host stretch
  and the normalising region (the launch over the regions' records); the reference's frame is its run.
-/
import proofs.«165666_j30210799960859_1_alg».proof.Defs
import proofs.«165666_j30210799960859_1_alg».proof.Proof.Gen.Kernel
import proofs.«165666_j30210799960859_1_alg».proof.Proof.Gen.KernelIdeal
import proofs.«165666_j30210799960859_1_alg».proof.Proof.Gen.ReferenceIdeal
import proofs.«165666_j30210799960859_1_alg».proof.Proof.Gen.Pre_finite_inputs
import proofs.«165666_j30210799960859_1_alg».proof.Proof.KFrRun
import proofs.«165666_j30210799960859_1_alg».proof.Proof.FrRun
import proofs.«165666_j30210799960859_1_alg».proof.Proof.KValue
import proofs.«165666_j30210799960859_1_alg».proof.Proof.KHead
import proofs.«165666_j30210799960859_1_alg».proof.Proof.RefValue
import proofs.«165666_j30210799960859_1_alg».proof.Proof.Finite
import proofs.«165666_j30210799960859_1_alg».proof.Proof.Algebra
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `outK` of the aggregated features and the arguments, the reference's at
    `outR` of the same; the arguments are real-valued by the precondition, the aggregated features then too, and on
    real-valued data the two variances, hence the two results, agree. -/
theorem algebraic : Cert.algebraic_KernelIdeal_ReferenceIdeal := by
  intro m ρ m' ρ' hpre hagree
  refine ⟨fun c => (Cert.KernelIdeal.Fr.dat1 (F := Ideal) (Cert.KernelIdeal.Fr.VB m) c).arrAt 5 Cert.KernelIdeal.cfg1.N,
    Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨p, q, rfl⟩ : ∃ (p : Fin 50000) (q : Fin 128), i = ix2 p q := ⟨i 0, i 1, eq_ix2 i⟩
  obtain ⟨h0, h1, h2, h3, h4, h5, h6, h7, h8⟩ := hagree c
  obtain ⟨r0, r3, r4, r5, r6⟩ := Cert.Fin.pre_real _ _ _ _ _ _ _ _ _ (hpre c)
  refine (Cert.ReferenceIdeal.RefValue.run_at m' c p q).trans ?_
  rw [h0, h1, h2, h3, h4, h5, h6, h7, h8]
  refine Eq.trans ?_ (Cert.KernelIdeal.KV.kernel_value m c p q).symm
  rw [show Cert.KernelIdeal.KV.agg m c = _ from Cert.KernelIdeal.KV.head_v26 m c]
  exact (congrFun (congrFun (Cert.Spec.outK_eq_outR _ _ (Cert.Fin.agg_real _ _ _ r0) r0 r3 r4 r5 r6) p) q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
